-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v118)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S3x128 .f32) (main_arg7 : FVec F S128x10 .f32) (main_arg8 : FVec F S10 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x10 .f32 := Host.absf main_arg7
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg8
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : IVec S2x640000 32) (main_arg2 : IVec S50000 32) (main_arg3 : FVec F S128x128 .f32) (main_arg4 : FVec F S128 .f32) (main_arg5 : FVec F S3x128x128 .f32) (main_arg6 : FVec F S3x128 .f32) (main_arg7 : FVec F S128x10 .f32) (main_arg8 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_v13 main_v16
-- ==== Kernel.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S5000x128 : Shape := ⟨2, ![5000, 128]⟩
abbrev S690000x128 : Shape := ⟨2, ![690000, 128]⟩
abbrev S1x128 : Shape := ⟨2, ![1, 128]⟩
abbrev S1x128x128 : Shape := ⟨3, ![1, 128, 128]⟩
abbrev S50000x1 : Shape := ⟨2, ![50000, 1]⟩
abbrev S512x128 : Shape := ⟨2, ![512, 128]⟩
abbrev S2000x128 : Shape := ⟨2, ![2000, 128]⟩
abbrev S2000x1 : Shape := ⟨2, ![2000, 1]⟩
abbrev S2000x512 : Shape := ⟨2, ![2000, 512]⟩
abbrev S512x2000 : Shape := ⟨2, ![512, 2000]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 150
  | .vmem => 51
  | .smem => 0
  | _ => 0

abbrev hbmTy0_0 (i : Nat) : BufTy := match i % 128 with
  | 0 => ⟨S50000x128, .f32⟩
  | 1 => ⟨S2x640000, .i32⟩
  | 2 => ⟨S50000, .i32⟩
  | 3 => ⟨S128x128, .f32⟩
  | 4 => ⟨S128, .f32⟩
  | 5 => ⟨S3x128x128, .f32⟩
  | 6 => ⟨S3x128, .f32⟩
  | 7 => ⟨S128x10, .f32⟩
  | 8 => ⟨S10, .f32⟩
  | 9 => ⟨S50000, .i32⟩
  | 10 => ⟨S1x640000, .i32⟩
  | 11 => ⟨S640000, .i32⟩
  | 12 => ⟨S690000, .i32⟩
  | 13 => ⟨S1x640000, .i32⟩
  | 14 => ⟨S640000, .i32⟩
  | 15 => ⟨S690000, .i32⟩
  | 16 => ⟨S_, .f32⟩
  | 17 => ⟨S690000, .f32⟩
  | 18 => ⟨S_, .f32⟩
  | 19 => ⟨S50000, .f32⟩
  | 20 => ⟨S690000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S690000, .i32⟩
  | 28 => ⟨S690000, .i1⟩
  | 29 => ⟨S_, .i32⟩
  | 30 => ⟨S690000, .i32⟩
  | 31 => ⟨S690000, .i32⟩
  | 32 => ⟨S690000, .i32⟩
  | 33 => ⟨S690000x1, .i32⟩
  | 34 => ⟨S690000, .f32⟩
  | 35 => ⟨S_, .i32⟩
  | 36 => ⟨S690000, .i32⟩
  | 37 => ⟨S690000, .i1⟩
  | 38 => ⟨S_, .i32⟩
  | 39 => ⟨S690000, .i32⟩
  | 40 => ⟨S690000, .i32⟩
  | 41 => ⟨S690000, .i32⟩
  | 42 => ⟨S690000x1, .i32⟩
  | 43 => ⟨S690000, .f32⟩
  | 44 => ⟨S690000, .f32⟩
  | 45 => ⟨S50000x128, .f32⟩
  | 46 => ⟨S690000x1, .f32⟩
  | 47 => ⟨S_, .i32⟩
  | 48 => ⟨S690000, .i32⟩
  | 49 => ⟨S690000, .i1⟩
  | 50 => ⟨S_, .i32⟩
  | 51 => ⟨S690000, .i32⟩
  | 52 => ⟨S690000, .i32⟩
  | 53 => ⟨S690000, .i32⟩
  | 54 => ⟨S690000x1, .i32⟩
  | 55 => ⟨S690000x128, .f32⟩
  | 56 => ⟨S690000x128, .f32⟩
  | 57 => ⟨S690000x128, .f32⟩
  | 58 => ⟨S_, .f32⟩
  | 59 => ⟨S50000x128, .f32⟩
  | 60 => ⟨S690000x1, .i32⟩
  | 61 => ⟨S50000x128, .f32⟩
  | 62 => ⟨S1x128, .f32⟩
  | 63 => ⟨S50000x128, .f32⟩
  | 64 => ⟨S1x128x128, .f32⟩
  | 65 => ⟨S128x128, .f32⟩
  | 66 => ⟨S50000x128, .f32⟩
  | 67 => ⟨S690000x1, .f32⟩
  | 68 => ⟨S_, .i32⟩
  | 69 => ⟨S690000, .i32⟩
  | 70 => ⟨S690000, .i1⟩
  | 71 => ⟨S_, .i32⟩
  | 72 => ⟨S690000, .i32⟩
  | 73 => ⟨S690000, .i32⟩
  | 74 => ⟨S690000, .i32⟩
  | 75 => ⟨S690000x1, .i32⟩
  | 76 => ⟨S690000x128, .f32⟩
  | 77 => ⟨S690000x128, .f32⟩
  | 78 => ⟨S690000x128, .f32⟩
  | 79 => ⟨S_, .f32⟩
  | 80 => ⟨S50000x128, .f32⟩
  | 81 => ⟨S690000x1, .i32⟩
  | 82 => ⟨S50000x128, .f32⟩
  | 83 => ⟨S1x128, .f32⟩
  | 84 => ⟨S128, .f32⟩
  | 85 => ⟨S1x128, .f32⟩
  | 86 => ⟨S50000x128, .f32⟩
  | 87 => ⟨S1x128x128, .f32⟩
  | 88 => ⟨S128x128, .f32⟩
  | 89 => ⟨S50000x128, .f32⟩
  | 90 => ⟨S690000x1, .f32⟩
  | 91 => ⟨S_, .i32⟩
  | 92 => ⟨S690000, .i32⟩
  | 93 => ⟨S690000, .i1⟩
  | 94 => ⟨S_, .i32⟩
  | 95 => ⟨S690000, .i32⟩
  | 96 => ⟨S690000, .i32⟩
  | 97 => ⟨S690000, .i32⟩
  | 98 => ⟨S690000x1, .i32⟩
  | 99 => ⟨S690000x128, .f32⟩
  | 100 => ⟨S690000x128, .f32⟩
  | 101 => ⟨S690000x128, .f32⟩
  | 102 => ⟨S_, .f32⟩
  | 103 => ⟨S50000x128, .f32⟩
  | 104 => ⟨S690000x1, .i32⟩
  | 105 => ⟨S50000x128, .f32⟩
  | 106 => ⟨S1x128, .f32⟩
  | 107 => ⟨S128, .f32⟩
  | 108 => ⟨S1x128, .f32⟩
  | 109 => ⟨S50000x128, .f32⟩
  | 110 => ⟨S1x128x128, .f32⟩
  | 111 => ⟨S128x128, .f32⟩
  | 112 => ⟨S50000x128, .f32⟩
  | 113 => ⟨S690000x1, .f32⟩
  | 114 => ⟨S_, .i32⟩
  | 115 => ⟨S690000, .i32⟩
  | 116 => ⟨S690000, .i1⟩
  | 117 => ⟨S_, .i32⟩
  | 118 => ⟨S690000, .i32⟩
  | 119 => ⟨S690000, .i32⟩
  | 120 => ⟨S690000, .i32⟩
  | 121 => ⟨S690000x1, .i32⟩
  | 122 => ⟨S690000x128, .f32⟩
  | 123 => ⟨S690000x128, .f32⟩
  | 124 => ⟨S690000x128, .f32⟩
  | 125 => ⟨S_, .f32⟩
  | 126 => ⟨S50000x128, .f32⟩
  | 127 => ⟨S690000x1, .i32⟩
  | _ => ⟨S50000x128, .f32⟩

abbrev hbmTy0_1 (i : Nat) : BufTy := match i % 128 with
  | 0 => ⟨S50000x128, .f32⟩
  | 1 => ⟨S1x128, .f32⟩
  | 2 => ⟨S128, .f32⟩
  | 3 => ⟨S1x128, .f32⟩
  | 4 => ⟨S50000x128, .f32⟩
  | 5 => ⟨S50000x1, .i32⟩
  | 6 => ⟨S512x128, .f32⟩
  | 7 => ⟨S_, .f32⟩
  | 8 => ⟨S50000, .f32⟩
  | 9 => ⟨S_, .f32⟩
  | 10 => ⟨S512, .f32⟩
  | 11 => ⟨S50000x1, .i32⟩
  | 12 => ⟨S512, .f32⟩
  | 13 => ⟨S_, .f32⟩
  | 14 => ⟨S512, .f32⟩
  | 15 => ⟨S512, .f32⟩
  | 16 => ⟨S512x1, .f32⟩
  | 17 => ⟨S512x128, .f32⟩
  | 18 => ⟨S512x128, .f32⟩
  | 19 => ⟨S512x10, .f32⟩
  | 20 => ⟨S1x10, .f32⟩
  | 21 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S2000x128, .f32⟩
  | .local _ .vmem, ⟨41, _⟩ => ⟨S2000x128, .f32⟩
  | .local _ .vmem, ⟨42, _⟩ => ⟨S2000x1, .i32⟩
  | .local _ .vmem, ⟨43, _⟩ => ⟨S2000x1, .i32⟩
  | .local _ .vmem, ⟨44, _⟩ => ⟨S512x128, .f32⟩
  | .local _ .vmem, ⟨45, _⟩ => ⟨S512x128, .f32⟩
  | .local _ .vmem, ⟨46, _⟩ => ⟨S128x10, .f32⟩
  | .local _ .vmem, ⟨47, _⟩ => ⟨S512x10, .f32⟩
  | .local _ .vmem, ⟨48, _⟩ => ⟨S512x10, .f32⟩
  | .local _ .vmem, ⟨49, _⟩ => ⟨S1x10, .f32⟩
  | .local _ .vmem, ⟨50, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_8 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_c_11 : Ref sig .tc := ⟨.hbm, 91, rfl⟩
abbrev main_v69 : Ref sig .tc := ⟨.hbm, 92, rfl⟩
abbrev main_v70 : Ref sig .tc := ⟨.hbm, 93, rfl⟩
abbrev main_c_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_13 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_c_14 : Ref sig .tc := ⟨.hbm, 114, rfl⟩
abbrev main_v89 : Ref sig .tc := ⟨.hbm, 115, rfl⟩
abbrev main_v90 : Ref sig .tc := ⟨.hbm, 116, rfl⟩
abbrev main_c_15 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_16 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_17 : Ref sig .tc := ⟨.hbm, 135, rfl⟩
abbrev main_v107 : Ref sig .tc := ⟨.hbm, 136, rfl⟩
abbrev main_cst_18 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_cst_19 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg1_1 : Ref sig .tc := ⟨.vmem, 43, rfl⟩
abbrev cc8_stg2_0 : Ref sig .tc := ⟨.vmem, 44, rfl⟩
abbrev cc9_stg0_0 : Ref sig .tc := ⟨.vmem, 45, rfl⟩
abbrev cc9_stg1_0 : Ref sig .tc := ⟨.vmem, 46, rfl⟩
abbrev cc9_stg2_0 : Ref sig .tc := ⟨.vmem, 47, rfl⟩
abbrev cc10_stg0_0 : Ref sig .tc := ⟨.vmem, 48, rfl⟩
abbrev cc10_stg1_0 : Ref sig .tc := ⟨.vmem, 49, rfl⟩
abbrev cc10_stg2_0 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem1_1 : DmaSem sig := 43
abbrev cc8_sem2_0 : DmaSem sig := 44
abbrev cc9_sem0_0 : DmaSem sig := 45
abbrev cc9_sem1_0 : DmaSem sig := 46
abbrev cc9_sem2_0 : DmaSem sig := 47
abbrev cc10_sem0_0 : DmaSem sig := 48
abbrev cc10_sem1_0 : DmaSem sig := 49
abbrev cc10_sem2_0 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S2000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S2000x1 .i32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S512x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S512x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S128x10 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S512x10 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S512x10 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S1x10 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S512x10 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![true]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_0_0_0 : S3x128x128.Slices ![0, 0, 0] S1x128x128
  shapeCasts_S1x128x128_S128x128 : S1x128x128.ShapeCasts S128x128
  shapeCasts_S128x128_S128x128 : S128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S50000_S50000x1 : S50000.ShapeCasts S50000x1
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  shapeCasts_S512x128_S512x128 : S512x128.ShapeCasts S512x128
  transposes_S2000x512_p1_0_S512x2000 : S2000x512.Transposes [1, 0] S512x2000
  bcast_S_S512 : S_.BroadcastsInDim S512 (![] : Fin 0 → Fin S512.rank)
  bcast_S50000_S50000x1_0 : S50000.BroadcastsInDim S50000x1 (![0] : Fin 1 → Fin S50000x1.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  inb_S128x10_S128x10_0_0 : ∀ a, (![0, 0] : Fin 2 → Nat) a + S128x10.size a ≤ S128x10.size a
  h_S128x10 : 0 < S128x10.numel
  inb_S512x10_S512x10_0_0 : ∀ a, (![0, 0] : Fin 2 → Nat) a + S512x10.size a ≤ S512x10.size a
  h_S512x10 : 0 < S512x10.numel
  shapeCasts_S10_S1x10 : S10.ShapeCasts S1x10
  shapeCasts_S512x10_S512x10 : S512x10.ShapeCasts S512x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S5000x128_S128x128_S5000x128_1_0_0_1_n_n_wf : DotDims.WF S5000x128 S128x128 S5000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  dot_S512x2000_S2000x128_S512x128_1_0_0_1_n_n_wf : DotDims.WF S512x2000 S2000x128 S512x128 [1] [0] [0] [1] [] []
  scatter_S512_S50000x1_S50000_n_0_0_1_wf : ScatterDims.WF S512 S50000x1 S50000 [] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S50000x128.size a
  hwx7_2 : ∀ i : grid7.Coords, EltTy.bits .f32 = 32 ∨ (Rect.block (s := S50000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x128.size a ≤ S50000x128.size a
  hwx8_0 : ∀ i : grid8.Coords, EltTy.bits .f32 = 32 ∨ (Rect.block (s := S50000x128) S2000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2000x1.size a ≤ S50000x1.size a
  hwx8_1 : ∀ i : grid8.Coords, EltTy.bits .i32 = 32 ∨ (Rect.block (s := S50000x1) S2000x1.size (cc8_transform_1 i) (hinb8_1 i)).WholeWords (EltTy.packing .i32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S512x128.size a ≤ S512x128.size a
  hwx8_2 : ∀ i : grid8.Coords, EltTy.bits .f32 = 32 ∨ (Rect.block (s := S512x128) S512x128.size (cc8_transform_2 i) (hinb8_2 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S512x128.size a ≤ S512x128.size a
  hwx9_0 : ∀ i : grid9.Coords, EltTy.bits .f32 = 32 ∨ (Rect.block (s := S512x128) S512x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x10.size a ≤ S128x10.size a
  hwx9_1 : ∀ i : grid9.Coords, EltTy.bits .f32 = 32 ∨ (Rect.block (s := S128x10) S128x10.size (cc9_transform_1 i) (hinb9_1 i)).WholeWords (EltTy.packing .f32)
  hstage9_2 : ∀ j, (stage9_2 j).IsWhole
  nbuf9_2 : grid9.bufCount reads9_2 false = 1
  hreads9_2 : ∀ i i' : grid9.Coords, (∀ a, reads9_2 a = true → i a = i' a) → cc9_transform_2 i = cc9_transform_2 i'
  hinb9_2 : ∀ (i : grid9.Coords) a, (cc9_transform_2 i a + 1) * S512x10.size a ≤ S512x10.size a
  hwx9_2 : ∀ i : grid9.Coords, EltTy.bits .f32 = 32 ∨ (Rect.block (s := S512x10) S512x10.size (cc9_transform_2 i) (hinb9_2 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S512x10.size a ≤ S512x10.size a
  hwx10_0 : ∀ i : grid10.Coords, EltTy.bits .f32 = 32 ∨ (Rect.block (s := S512x10) S512x10.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x10.size a ≤ S1x10.size a
  hwx10_1 : ∀ i : grid10.Coords, EltTy.bits .f32 = 32 ∨ (Rect.block (s := S1x10) S1x10.size (cc10_transform_1 i) (hinb10_1 i)).WholeWords (EltTy.packing .f32)
  hstage10_2 : ∀ j, (stage10_2 j).IsWhole
  nbuf10_2 : grid10.bufCount reads10_2 false = 1
  hreads10_2 : ∀ i i' : grid10.Coords, (∀ a, reads10_2 a = true → i a = i' a) → cc10_transform_2 i = cc10_transform_2 i'
  hinb10_2 : ∀ (i : grid10.Coords) a, (cc10_transform_2 i a + 1) * S512x10.size a ≤ S512x10.size a
  hwx10_2 : ∀ i : grid10.Coords, EltTy.bits .f32 = 32 ∨ (Rect.block (s := S512x10) S512x10.size (cc10_transform_2 i) (hinb10_2 i)).WholeWords (EltTy.packing .f32)

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def dot_S512x2000_S2000x128_S512x128_1_0_0_1_n_n : DotDims S512x2000 S2000x128 S512x128 where
  lhsContracting := [1]
  rhsContracting := [0]
  lhsNonContracting := [0]
  rhsNonContracting := [1]
  lhsBatch := []
  rhsBatch := []
  wf := dot_S512x2000_S2000x128_S512x128_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v64) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v64) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v67) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v80) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v83) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v84) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v84) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v86) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v87) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v100) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v103) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v104) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v104) S2000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v105) S2000x1.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v106) S512x128.size cc8_transform_2 reads8_2 true true 1 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v115) S512x128.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_arg7) S128x10.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v116) S512x10.size cc9_transform_2 reads9_2 true false 1 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v116) S512x10.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_v117) S1x10.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v118) S512x10.size cc10_transform_2 reads10_2 true false 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S1x640000 : Shape := ⟨2, ![1, 640000]⟩
abbrev S640000 : Shape := ⟨1, ![640000]⟩
abbrev S690000 : Shape := ⟨1, ![690000]⟩
abbrev S_ : Shape := ⟨0, ![]⟩
abbrev S690000x1 : Shape := ⟨2, ![690000, 1]⟩
abbrev S690000x128 : Shape := ⟨2, ![690000, 128]⟩
abbrev S1x128 : Shape := ⟨2, ![1, 128]⟩
abbrev S1x128x128 : Shape := ⟨3, ![1, 128, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 166
  | .vmem => 0
  | .smem => 0
  | _ => 0

abbrev hbmTy0_0 (i : Nat) : BufTy := match i % 128 with
  | 0 => ⟨S50000x128, .f32⟩
  | 1 => ⟨S2x640000, .i32⟩
  | 2 => ⟨S50000, .i32⟩
  | 3 => ⟨S128x128, .f32⟩
  | 4 => ⟨S128, .f32⟩
  | 5 => ⟨S3x128x128, .f32⟩
  | 6 => ⟨S3x128, .f32⟩
  | 7 => ⟨S128x10, .f32⟩
  | 8 => ⟨S10, .f32⟩
  | 9 => ⟨S50000, .i32⟩
  | 10 => ⟨S1x640000, .i32⟩
  | 11 => ⟨S640000, .i32⟩
  | 12 => ⟨S690000, .i32⟩
  | 13 => ⟨S1x640000, .i32⟩
  | 14 => ⟨S640000, .i32⟩
  | 15 => ⟨S690000, .i32⟩
  | 16 => ⟨S_, .f32⟩
  | 17 => ⟨S690000, .f32⟩
  | 18 => ⟨S_, .f32⟩
  | 19 => ⟨S50000, .f32⟩
  | 20 => ⟨S690000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S690000, .i32⟩
  | 28 => ⟨S690000, .i1⟩
  | 29 => ⟨S_, .i32⟩
  | 30 => ⟨S690000, .i32⟩
  | 31 => ⟨S690000, .i32⟩
  | 32 => ⟨S690000, .i32⟩
  | 33 => ⟨S690000x1, .i32⟩
  | 34 => ⟨S690000, .f32⟩
  | 35 => ⟨S_, .i32⟩
  | 36 => ⟨S690000, .i32⟩
  | 37 => ⟨S690000, .i1⟩
  | 38 => ⟨S_, .i32⟩
  | 39 => ⟨S690000, .i32⟩
  | 40 => ⟨S690000, .i32⟩
  | 41 => ⟨S690000, .i32⟩
  | 42 => ⟨S690000x1, .i32⟩
  | 43 => ⟨S690000, .f32⟩
  | 44 => ⟨S690000, .f32⟩
  | 45 => ⟨S50000x128, .f32⟩
  | 46 => ⟨S690000x1, .f32⟩
  | 47 => ⟨S_, .i32⟩
  | 48 => ⟨S690000, .i32⟩
  | 49 => ⟨S690000, .i1⟩
  | 50 => ⟨S_, .i32⟩
  | 51 => ⟨S690000, .i32⟩
  | 52 => ⟨S690000, .i32⟩
  | 53 => ⟨S690000, .i32⟩
  | 54 => ⟨S690000x1, .i32⟩
  | 55 => ⟨S690000x128, .f32⟩
  | 56 => ⟨S690000x128, .f32⟩
  | 57 => ⟨S690000x128, .f32⟩
  | 58 => ⟨S_, .f32⟩
  | 59 => ⟨S50000x128, .f32⟩
  | 60 => ⟨S690000x1, .i32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S1x128x128, .f32⟩
  | 69 => ⟨S128x128, .f32⟩
  | 70 => ⟨S1x128, .f32⟩
  | 71 => ⟨S128, .f32⟩
  | 72 => ⟨S50000x128, .f32⟩
  | 73 => ⟨S690000x1, .f32⟩
  | 74 => ⟨S_, .i32⟩
  | 75 => ⟨S690000, .i32⟩
  | 76 => ⟨S690000, .i1⟩
  | 77 => ⟨S_, .i32⟩
  | 78 => ⟨S690000, .i32⟩
  | 79 => ⟨S690000, .i32⟩
  | 80 => ⟨S690000, .i32⟩
  | 81 => ⟨S690000x1, .i32⟩
  | 82 => ⟨S690000x128, .f32⟩
  | 83 => ⟨S690000x128, .f32⟩
  | 84 => ⟨S690000x128, .f32⟩
  | 85 => ⟨S_, .f32⟩
  | 86 => ⟨S50000x128, .f32⟩
  | 87 => ⟨S690000x1, .i32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S1x128x128, .f32⟩
  | 96 => ⟨S128x128, .f32⟩
  | 97 => ⟨S1x128, .f32⟩
  | 98 => ⟨S128, .f32⟩
  | 99 => ⟨S50000x128, .f32⟩
  | 100 => ⟨S690000x1, .f32⟩
  | 101 => ⟨S_, .i32⟩
  | 102 => ⟨S690000, .i32⟩
  | 103 => ⟨S690000, .i1⟩
  | 104 => ⟨S_, .i32⟩
  | 105 => ⟨S690000, .i32⟩
  | 106 => ⟨S690000, .i32⟩
  | 107 => ⟨S690000, .i32⟩
  | 108 => ⟨S690000x1, .i32⟩
  | 109 => ⟨S690000x128, .f32⟩
  | 110 => ⟨S690000x128, .f32⟩
  | 111 => ⟨S690000x128, .f32⟩
  | 112 => ⟨S_, .f32⟩
  | 113 => ⟨S50000x128, .f32⟩
  | 114 => ⟨S690000x1, .i32⟩
  | 115 => ⟨S50000x128, .f32⟩
  | 116 => ⟨S1x128, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S1x128x128, .f32⟩
  | 123 => ⟨S128x128, .f32⟩
  | 124 => ⟨S1x128, .f32⟩
  | 125 => ⟨S128, .f32⟩
  | 126 => ⟨S50000x128, .f32⟩
  | 127 => ⟨S690000x1, .f32⟩
  | _ => ⟨S50000x128, .f32⟩

abbrev hbmTy0_1 (i : Nat) : BufTy := match i % 128 with
  | 0 => ⟨S_, .i32⟩
  | 1 => ⟨S690000, .i32⟩
  | 2 => ⟨S690000, .i1⟩
  | 3 => ⟨S_, .i32⟩
  | 4 => ⟨S690000, .i32⟩
  | 5 => ⟨S690000, .i32⟩
  | 6 => ⟨S690000, .i32⟩
  | 7 => ⟨S690000x1, .i32⟩
  | 8 => ⟨S690000x128, .f32⟩
  | 9 => ⟨S690000x128, .f32⟩
  | 10 => ⟨S690000x128, .f32⟩
  | 11 => ⟨S_, .f32⟩
  | 12 => ⟨S50000x128, .f32⟩
  | 13 => ⟨S690000x1, .i32⟩
  | 14 => ⟨S50000x128, .f32⟩
  | 15 => ⟨S1x128, .f32⟩
  | 16 => ⟨S50000x128, .f32⟩
  | 17 => ⟨S50000x128, .f32⟩
  | 18 => ⟨S_, .f32⟩
  | 19 => ⟨S512x128, .f32⟩
  | 20 => ⟨S50000x1, .i32⟩
  | 21 => ⟨S512x128, .f32⟩
  | 22 => ⟨S_, .f32⟩
  | 23 => ⟨S50000, .f32⟩
  | 24 => ⟨S_, .f32⟩
  | 25 => ⟨S512, .f32⟩
  | 26 => ⟨S50000x1, .i32⟩
  | 27 => ⟨S512, .f32⟩
  | 28 => ⟨S_, .f32⟩
  | 29 => ⟨S512, .f32⟩
  | 30 => ⟨S512, .f32⟩
  | 31 => ⟨S512x1, .f32⟩
  | 32 => ⟨S512x128, .f32⟩
  | 33 => ⟨S512x128, .f32⟩
  | 34 => ⟨S512x10, .f32⟩
  | 35 => ⟨S1x10, .f32⟩
  | 36 => ⟨S512x10, .f32⟩
  | 37 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_8 : Ref sig .tc := ⟨.hbm, 74, rfl⟩
abbrev main_v53 : Ref sig .tc := ⟨.hbm, 75, rfl⟩
abbrev main_v54 : Ref sig .tc := ⟨.hbm, 76, rfl⟩
abbrev main_c_9 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_10 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_call1_cst : Ref sig .tc := ⟨.hbm, 92, rfl⟩
abbrev main_call1_v0 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_c_11 : Ref sig .tc := ⟨.hbm, 101, rfl⟩
abbrev main_v75 : Ref sig .tc := ⟨.hbm, 102, rfl⟩
abbrev main_v76 : Ref sig .tc := ⟨.hbm, 103, rfl⟩
abbrev main_c_12 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_13 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_call2_cst : Ref sig .tc := ⟨.hbm, 119, rfl⟩
abbrev main_call2_v0 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_14 : Ref sig .tc := ⟨.hbm, 128, rfl⟩
abbrev main_v97 : Ref sig .tc := ⟨.hbm, 129, rfl⟩
abbrev main_v98 : Ref sig .tc := ⟨.hbm, 130, rfl⟩
abbrev main_c_15 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_16 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_17 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_18 : Ref sig .tc := ⟨.hbm, 150, rfl⟩
abbrev main_v115 : Ref sig .tc := ⟨.hbm, 151, rfl⟩
abbrev main_cst_19 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_20 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  concatenates_S640000_S50000_S690000_d0 : Shape.Concatenates [S640000, S50000] S690000 0
  slices_S2x640000_S1x640000_1_0 : S2x640000.Slices ![1, 0] S1x640000
  bcast_S_S690000 : S_.BroadcastsInDim S690000 (![] : Fin 0 → Fin S690000.rank)
  bcast_S_S50000 : S_.BroadcastsInDim S50000 (![] : Fin 0 → Fin S50000.rank)
  bcast_S690000_S690000x1_0 : S690000.BroadcastsInDim S690000x1 (![0] : Fin 1 → Fin S690000x1.rank)
  bcast_S690000x1_S690000x128_0_1 : S690000x1.BroadcastsInDim S690000x128 (![0, 1] : Fin 2 → Fin S690000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S50000_S690000x1_S690000_n_0_0_1_wf : ScatterDims.WF S50000 S690000x1 S690000 [] [0] [0] 1
  gather_S50000_S690000x1_S690000_n_0_n_n_0_1_1_wf : GatherDims.WF S50000 S690000x1 S690000 [] [0] [] [0] [] 1 ![1]
  dot_S50000x128_S128x128_S50000x128_1_0_0_1_n_n_wf : DotDims.WF S50000x128 S128x128 S50000x128 [1] [0] [0] [1] [] []
  gather_S50000x128_S690000x1_S690000x128_1_0_n_n_0_1_1128_wf : GatherDims.WF S50000x128 S690000x1 S690000x128 [1] [0] [] [0] [] 1 ![1, 128]
  scatter_S50000x128_S690000x1_S690000x128_1_0_0_1_wf : ScatterDims.WF S50000x128 S690000x1 S690000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x10_S512x10_1_0_0_1_n_n_wf : DotDims.WF S512x128 S128x10 S512x10 [1] [0] [0] [1] [] []

variable [Facts₀]

def scatter_S50000_S690000x1_S690000_n_0_0_1 : ScatterDims S50000 S690000x1 S690000 where
  updateWindowDims := []
  insertedWindowDims := [0]
  scatterDimsToOperandDims := [0]
  indexVectorDim := 1
  wf := scatter_S50000_S690000x1_S690000_n_0_0_1_wf
def gather_S50000_S690000x1_S690000_n_0_n_n_0_1_1 : GatherDims S50000 S690000x1 S690000 where
  offsetDims := []
  collapsedSliceDims := [0]
  operandBatchingDims := []
  startIndicesBatchingDims := []
  startIndexMap := [0]
  indexVectorDim := 1
  sliceSizes := ![1]
  wf := gather_S50000_S690000x1_S690000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S690000x1_S690000x128_1_0_n_n_0_1_1128 : GatherDims S50000x128 S690000x1 S690000x128 where
  offsetDims := [1]
  collapsedSliceDims := [0]
  operandBatchingDims := []
  startIndicesBatchingDims := []
  startIndexMap := [0]
  indexVectorDim := 1
  sliceSizes := ![1, 128]
  wf := gather_S50000x128_S690000x1_S690000x128_1_0_n_n_0_1_1128_wf
def scatter_S50000x128_S690000x1_S690000x128_1_0_0_1 : ScatterDims S50000x128 S690000x1 S690000x128 where
  updateWindowDims := [1]
  insertedWindowDims := [0]
  scatterDimsToOperandDims := [0]
  indexVectorDim := 1
  wf := scatter_S50000x128_S690000x1_S690000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.Spec.lean ====
import Idealize.ShloMosaic.PureOps.Ideal
import Idealize.ShloMosaic.Lib.ValueIdx

/-!
The dense pieces of a graph convolution network, as functions of whole arrays over the extended reals.

A layer multiplies the node features by a weight matrix, mixes rows along the edges (that part is the same
chain of operations in both programs and is never opened here), adds a bias row to every node and, except in
the last layer, clips at zero. The readout sums the node rows of each graph, divides by the graph's node count,
and applies one more matrix product and bias. Each function below is one of these dense pieces read index by index.
-/

noncomputable section

namespace Cert.Spec

open Idealize.ShloMosaic Idealize.ShloMosaic.ValueIdx

/-- A vector laid out as a one-row matrix: entry `(0, j)` is `b j`. -/
def row {α : Type} (N : Nat) (b : (⟨1, ![N]⟩ : Shape).Idx → α) : (⟨2, ![1, N]⟩ : Shape).Idx → α :=
  fun i => b (ix1 (i 1))

/-- A vector laid out as a one-column matrix: entry `(e, 0)` is `g e`. -/
def col {α : Type} (n : Nat) (g : (⟨1, ![n]⟩ : Shape).Idx → α) : (⟨2, ![n, 1]⟩ : Shape).Idx → α :=
  fun i => g (ix1 (i 0))

/-- A matrix product: entry `(r, j)` is the sum over `k` of `x (r, k) * w (k, j)`. -/
def mm (M K N : Nat) (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A bias row added to every row: entry `(r, j)` is `x (r, j) + b (0, j)`. -/
def biasAdd (M N : Nat) (x : (⟨2, ![M, N]⟩ : Shape).Idx → EReal) (b : (⟨2, ![1, N]⟩ : Shape).Idx → EReal) :
    (⟨2, ![M, N]⟩ : Shape).Idx → EReal :=
  fun i => x i + b (ix2 0 (i 1))

/-- A bias row added to every row, then clipped at zero from below. -/
def biasRelu (M N : Nat) (x : (⟨2, ![M, N]⟩ : Shape).Idx → EReal) (b : (⟨2, ![1, N]⟩ : Shape).Idx → EReal) :
    (⟨2, ![M, N]⟩ : Shape).Idx → EReal :=
  fun i => max (x i + b (ix2 0 (i 1))) 0

open Classical in
/-- The per-graph sum of node rows: entry `(g, j)` is the sum of `h (e, j)` over the nodes `e` whose graph id
    word, read signed, is `g`. A node whose word names no graph contributes to no row. -/
def poolSum (n G C : Nat) (h : (⟨2, ![n, C]⟩ : Shape).Idx → EReal) (gid : IVec ⟨2, ![n, 1]⟩ 32) :
    (⟨2, ![G, C]⟩ : Shape).Idx → EReal :=
  fun i => ∑ e ∈ Finset.univ.filter (fun e : Fin n => (gid (ix2 e 0)).toInt = ((i 0).val : ℤ)), h (ix2 e (i 1))

end Cert.Spec

end
-- ==== Proof.Layout.lean ====
import proofs.«428648_j88132728914134_1_alg».proof.Proof.Spec
import Idealize.ShloMosaic.Lib.Pipeline.Value
import Idealize.ShloMosaic.Lib.ValueIdx
import Idealize.ShloMosaic.Lib.ValueLayout

/-!
A vector reshaped to one row, or to one column, is the same entries laid out along the other axis.

Row-major order numbers the entries of `[1, N]` and of `[n, 1]` exactly as it numbers the entries of the vector they
came from, so the reshape moves nothing: entry `(0, j)` of the row is entry `j`, entry `(e, 0)` of the column is entry `e`.
-/

noncomputable section

namespace Cert.Spec

open Idealize.ShloMosaic Idealize.ShloMosaic.ValueIdx

/-- A vector reshaped to `[1, N]` is the vector as one row. -/
theorem row_of_cast {α : Type} (N : Nat) (x : (⟨1, ![N]⟩ : Shape).Idx → α)
    (h : (⟨1, ![N]⟩ : Shape).ShapeCasts ⟨2, ![1, N]⟩) : shapeCast ⟨2, ![1, N]⟩ x h = row N x := by
  funext i
  obtain ⟨u, j, rfl⟩ : ∃ (u : Fin 1) (j : Fin N), i = ix2 u j := ⟨i 0, i 1, eq_ix2 i⟩
  rw [shapeCast_a_1a_apply]
  rfl

/-- A vector reshaped to `[n, 1]` is the vector as one column: position `e * 1 + 0` of the column is position `e`. -/
theorem col_of_cast {α : Type} (n : Nat) (g : (⟨1, ![n]⟩ : Shape).Idx → α)
    (h : (⟨1, ![n]⟩ : Shape).ShapeCasts ⟨2, ![n, 1]⟩) : shapeCast ⟨2, ![n, 1]⟩ g h = col n g := by
  funext i
  obtain ⟨e, u, rfl⟩ : ∃ (e : Fin n) (u : Fin 1), i = ix2 e u := ⟨i 0, i 1, eq_ix2 i⟩
  unfold col
  refine shapeCast_apply g h _ _ ?_
  have hu : u.val = 0 := by omega
  rw [Shape.rowMajor_val_two, Shape.rowMajor_val_one]
  show e.val = e.val * 1 + u.val
  rw [hu, Nat.mul_one, Nat.add_zero]

end Cert.Spec

end
-- ==== Proof.Keep.lean ====
import proofs.«428648_j88132728914134_1_alg».proof.Proof.Gen.KernelIdeal.Frame
import Idealize.ShloMosaic.Lib.StableHlo.Run

/-!
What a step of the program does not write it leaves alone.

The buffer contents are named at every segment boundary. A stretch of host operations changes only the buffers its
operations write, and a kernel region only its own arrays, so a buffer that a later step reads still holds there what
it held where it was produced: one fact per step in between, composed once per read.
-/

set_option maxRecDepth 16384

noncomputable section

namespace Cert.KernelIdeal.Keep

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## `main_v3`: produced at boundary 1, read at 2, 6, 10, 14 -/
theorem keep2_v3 (c : Dev nD) : W2 m ρ c (Proc.devRef .tc main_v3) = W1 m ρ c (Proc.devRef .tc main_v3) :=
  W2_of_ne m ρ c main_v3 (by decide)
theorem keep3_v3 (c : Dev nD) : W3 m ρ c (Proc.devRef .tc main_v3) = W2 m ρ c (Proc.devRef .tc main_v3) := by
  show StableHlo.after hostOps1 (W2 m ρ c) (Proc.devRef .tc main_v3) = _
  after_results
theorem keep4_v3 (c : Dev nD) : W4 m ρ c (Proc.devRef .tc main_v3) = W3 m ρ c (Proc.devRef .tc main_v3) :=
  W4_of_ne m ρ c main_v3 (by decide)
theorem keep5_v3 (c : Dev nD) : W5 m ρ c (Proc.devRef .tc main_v3) = W4 m ρ c (Proc.devRef .tc main_v3) := by
  show StableHlo.after hostOps2 (W4 m ρ c) (Proc.devRef .tc main_v3) = _
  after_results
theorem keep6_v3 (c : Dev nD) : W6 m ρ c (Proc.devRef .tc main_v3) = W5 m ρ c (Proc.devRef .tc main_v3) :=
  W6_of_ne m ρ c main_v3 (by decide)
theorem keep7_v3 (c : Dev nD) : W7 m ρ c (Proc.devRef .tc main_v3) = W6 m ρ c (Proc.devRef .tc main_v3) := by
  show StableHlo.after hostOps3 (W6 m ρ c) (Proc.devRef .tc main_v3) = _
  after_results
theorem keep8_v3 (c : Dev nD) : W8 m ρ c (Proc.devRef .tc main_v3) = W7 m ρ c (Proc.devRef .tc main_v3) :=
  W8_of_ne m ρ c main_v3 (by decide)
theorem keep9_v3 (c : Dev nD) : W9 m ρ c (Proc.devRef .tc main_v3) = W8 m ρ c (Proc.devRef .tc main_v3) := by
  show StableHlo.after hostOps4 (W8 m ρ c) (Proc.devRef .tc main_v3) = _
  after_results
theorem keep10_v3 (c : Dev nD) : W10 m ρ c (Proc.devRef .tc main_v3) = W9 m ρ c (Proc.devRef .tc main_v3) :=
  W10_of_ne m ρ c main_v3 (by decide)
theorem keep11_v3 (c : Dev nD) : W11 m ρ c (Proc.devRef .tc main_v3) = W10 m ρ c (Proc.devRef .tc main_v3) := by
  show StableHlo.after hostOps5 (W10 m ρ c) (Proc.devRef .tc main_v3) = _
  after_results
theorem keep12_v3 (c : Dev nD) : W12 m ρ c (Proc.devRef .tc main_v3) = W11 m ρ c (Proc.devRef .tc main_v3) :=
  W12_of_ne m ρ c main_v3 (by decide)
theorem keep13_v3 (c : Dev nD) : W13 m ρ c (Proc.devRef .tc main_v3) = W12 m ρ c (Proc.devRef .tc main_v3) := by
  show StableHlo.after hostOps6 (W12 m ρ c) (Proc.devRef .tc main_v3) = _
  after_results
theorem keep14_v3 (c : Dev nD) : W14 m ρ c (Proc.devRef .tc main_v3) = W13 m ρ c (Proc.devRef .tc main_v3) :=
  W14_of_ne m ρ c main_v3 (by decide)
theorem at2_v3 (c : Dev nD) : W2 m ρ c (Proc.devRef .tc main_v3) = W1 m ρ c (Proc.devRef .tc main_v3) :=
  keep2_v3 m ρ c
theorem at6_v3 (c : Dev nD) : W6 m ρ c (Proc.devRef .tc main_v3) = W1 m ρ c (Proc.devRef .tc main_v3) :=
  (keep6_v3 m ρ c).trans <| (keep5_v3 m ρ c).trans <| (keep4_v3 m ρ c).trans <| (keep3_v3 m ρ c).trans <| keep2_v3 m ρ c
theorem at10_v3 (c : Dev nD) : W10 m ρ c (Proc.devRef .tc main_v3) = W1 m ρ c (Proc.devRef .tc main_v3) :=
  (keep10_v3 m ρ c).trans <| (keep9_v3 m ρ c).trans <| (keep8_v3 m ρ c).trans <| (keep7_v3 m ρ c).trans <| (keep6_v3 m ρ c).trans <| (keep5_v3 m ρ c).trans <| (keep4_v3 m ρ c).trans <| (keep3_v3 m ρ c).trans <| keep2_v3 m ρ c
theorem at14_v3 (c : Dev nD) : W14 m ρ c (Proc.devRef .tc main_v3) = W1 m ρ c (Proc.devRef .tc main_v3) :=
  (keep14_v3 m ρ c).trans <| (keep13_v3 m ρ c).trans <| (keep12_v3 m ρ c).trans <| (keep11_v3 m ρ c).trans <| (keep10_v3 m ρ c).trans <| (keep9_v3 m ρ c).trans <| (keep8_v3 m ρ c).trans <| (keep7_v3 m ρ c).trans <| (keep6_v3 m ρ c).trans <| (keep5_v3 m ρ c).trans <| (keep4_v3 m ρ c).trans <| (keep3_v3 m ρ c).trans <| keep2_v3 m ρ c

/-! ## `main_v6`: produced at boundary 1, read at 2, 6, 10, 14 -/
theorem keep2_v6 (c : Dev nD) : W2 m ρ c (Proc.devRef .tc main_v6) = W1 m ρ c (Proc.devRef .tc main_v6) :=
  W2_of_ne m ρ c main_v6 (by decide)
theorem keep3_v6 (c : Dev nD) : W3 m ρ c (Proc.devRef .tc main_v6) = W2 m ρ c (Proc.devRef .tc main_v6) := by
  show StableHlo.after hostOps1 (W2 m ρ c) (Proc.devRef .tc main_v6) = _
  after_results
theorem keep4_v6 (c : Dev nD) : W4 m ρ c (Proc.devRef .tc main_v6) = W3 m ρ c (Proc.devRef .tc main_v6) :=
  W4_of_ne m ρ c main_v6 (by decide)
theorem keep5_v6 (c : Dev nD) : W5 m ρ c (Proc.devRef .tc main_v6) = W4 m ρ c (Proc.devRef .tc main_v6) := by
  show StableHlo.after hostOps2 (W4 m ρ c) (Proc.devRef .tc main_v6) = _
  after_results
theorem keep6_v6 (c : Dev nD) : W6 m ρ c (Proc.devRef .tc main_v6) = W5 m ρ c (Proc.devRef .tc main_v6) :=
  W6_of_ne m ρ c main_v6 (by decide)
theorem keep7_v6 (c : Dev nD) : W7 m ρ c (Proc.devRef .tc main_v6) = W6 m ρ c (Proc.devRef .tc main_v6) := by
  show StableHlo.after hostOps3 (W6 m ρ c) (Proc.devRef .tc main_v6) = _
  after_results
theorem keep8_v6 (c : Dev nD) : W8 m ρ c (Proc.devRef .tc main_v6) = W7 m ρ c (Proc.devRef .tc main_v6) :=
  W8_of_ne m ρ c main_v6 (by decide)
theorem keep9_v6 (c : Dev nD) : W9 m ρ c (Proc.devRef .tc main_v6) = W8 m ρ c (Proc.devRef .tc main_v6) := by
  show StableHlo.after hostOps4 (W8 m ρ c) (Proc.devRef .tc main_v6) = _
  after_results
theorem keep10_v6 (c : Dev nD) : W10 m ρ c (Proc.devRef .tc main_v6) = W9 m ρ c (Proc.devRef .tc main_v6) :=
  W10_of_ne m ρ c main_v6 (by decide)
theorem keep11_v6 (c : Dev nD) : W11 m ρ c (Proc.devRef .tc main_v6) = W10 m ρ c (Proc.devRef .tc main_v6) := by
  show StableHlo.after hostOps5 (W10 m ρ c) (Proc.devRef .tc main_v6) = _
  after_results
theorem keep12_v6 (c : Dev nD) : W12 m ρ c (Proc.devRef .tc main_v6) = W11 m ρ c (Proc.devRef .tc main_v6) :=
  W12_of_ne m ρ c main_v6 (by decide)
theorem keep13_v6 (c : Dev nD) : W13 m ρ c (Proc.devRef .tc main_v6) = W12 m ρ c (Proc.devRef .tc main_v6) := by
  show StableHlo.after hostOps6 (W12 m ρ c) (Proc.devRef .tc main_v6) = _
  after_results
theorem keep14_v6 (c : Dev nD) : W14 m ρ c (Proc.devRef .tc main_v6) = W13 m ρ c (Proc.devRef .tc main_v6) :=
  W14_of_ne m ρ c main_v6 (by decide)
theorem at2_v6 (c : Dev nD) : W2 m ρ c (Proc.devRef .tc main_v6) = W1 m ρ c (Proc.devRef .tc main_v6) :=
  keep2_v6 m ρ c
theorem at6_v6 (c : Dev nD) : W6 m ρ c (Proc.devRef .tc main_v6) = W1 m ρ c (Proc.devRef .tc main_v6) :=
  (keep6_v6 m ρ c).trans <| (keep5_v6 m ρ c).trans <| (keep4_v6 m ρ c).trans <| (keep3_v6 m ρ c).trans <| keep2_v6 m ρ c
theorem at10_v6 (c : Dev nD) : W10 m ρ c (Proc.devRef .tc main_v6) = W1 m ρ c (Proc.devRef .tc main_v6) :=
  (keep10_v6 m ρ c).trans <| (keep9_v6 m ρ c).trans <| (keep8_v6 m ρ c).trans <| (keep7_v6 m ρ c).trans <| (keep6_v6 m ρ c).trans <| (keep5_v6 m ρ c).trans <| (keep4_v6 m ρ c).trans <| (keep3_v6 m ρ c).trans <| keep2_v6 m ρ c
theorem at14_v6 (c : Dev nD) : W14 m ρ c (Proc.devRef .tc main_v6) = W1 m ρ c (Proc.devRef .tc main_v6) :=
  (keep14_v6 m ρ c).trans <| (keep13_v6 m ρ c).trans <| (keep12_v6 m ρ c).trans <| (keep11_v6 m ρ c).trans <| (keep10_v6 m ρ c).trans <| (keep9_v6 m ρ c).trans <| (keep8_v6 m ρ c).trans <| (keep7_v6 m ρ c).trans <| (keep6_v6 m ρ c).trans <| (keep5_v6 m ρ c).trans <| (keep4_v6 m ρ c).trans <| (keep3_v6 m ρ c).trans <| keep2_v6 m ρ c

/-! ## `main_v28`: produced at boundary 1, read at 2, 6, 10, 14 -/
theorem keep2_v28 (c : Dev nD) : W2 m ρ c (Proc.devRef .tc main_v28) = W1 m ρ c (Proc.devRef .tc main_v28) :=
  W2_of_ne m ρ c main_v28 (by decide)
theorem keep3_v28 (c : Dev nD) : W3 m ρ c (Proc.devRef .tc main_v28) = W2 m ρ c (Proc.devRef .tc main_v28) := by
  show StableHlo.after hostOps1 (W2 m ρ c) (Proc.devRef .tc main_v28) = _
  after_results
theorem keep4_v28 (c : Dev nD) : W4 m ρ c (Proc.devRef .tc main_v28) = W3 m ρ c (Proc.devRef .tc main_v28) :=
  W4_of_ne m ρ c main_v28 (by decide)
theorem keep5_v28 (c : Dev nD) : W5 m ρ c (Proc.devRef .tc main_v28) = W4 m ρ c (Proc.devRef .tc main_v28) := by
  show StableHlo.after hostOps2 (W4 m ρ c) (Proc.devRef .tc main_v28) = _
  after_results
theorem keep6_v28 (c : Dev nD) : W6 m ρ c (Proc.devRef .tc main_v28) = W5 m ρ c (Proc.devRef .tc main_v28) :=
  W6_of_ne m ρ c main_v28 (by decide)
theorem keep7_v28 (c : Dev nD) : W7 m ρ c (Proc.devRef .tc main_v28) = W6 m ρ c (Proc.devRef .tc main_v28) := by
  show StableHlo.after hostOps3 (W6 m ρ c) (Proc.devRef .tc main_v28) = _
  after_results
theorem keep8_v28 (c : Dev nD) : W8 m ρ c (Proc.devRef .tc main_v28) = W7 m ρ c (Proc.devRef .tc main_v28) :=
  W8_of_ne m ρ c main_v28 (by decide)
theorem keep9_v28 (c : Dev nD) : W9 m ρ c (Proc.devRef .tc main_v28) = W8 m ρ c (Proc.devRef .tc main_v28) := by
  show StableHlo.after hostOps4 (W8 m ρ c) (Proc.devRef .tc main_v28) = _
  after_results
theorem keep10_v28 (c : Dev nD) : W10 m ρ c (Proc.devRef .tc main_v28) = W9 m ρ c (Proc.devRef .tc main_v28) :=
  W10_of_ne m ρ c main_v28 (by decide)
theorem keep11_v28 (c : Dev nD) : W11 m ρ c (Proc.devRef .tc main_v28) = W10 m ρ c (Proc.devRef .tc main_v28) := by
  show StableHlo.after hostOps5 (W10 m ρ c) (Proc.devRef .tc main_v28) = _
  after_results
theorem keep12_v28 (c : Dev nD) : W12 m ρ c (Proc.devRef .tc main_v28) = W11 m ρ c (Proc.devRef .tc main_v28) :=
  W12_of_ne m ρ c main_v28 (by decide)
theorem keep13_v28 (c : Dev nD) : W13 m ρ c (Proc.devRef .tc main_v28) = W12 m ρ c (Proc.devRef .tc main_v28) := by
  show StableHlo.after hostOps6 (W12 m ρ c) (Proc.devRef .tc main_v28) = _
  after_results
theorem keep14_v28 (c : Dev nD) : W14 m ρ c (Proc.devRef .tc main_v28) = W13 m ρ c (Proc.devRef .tc main_v28) :=
  W14_of_ne m ρ c main_v28 (by decide)
theorem at2_v28 (c : Dev nD) : W2 m ρ c (Proc.devRef .tc main_v28) = W1 m ρ c (Proc.devRef .tc main_v28) :=
  keep2_v28 m ρ c
theorem at6_v28 (c : Dev nD) : W6 m ρ c (Proc.devRef .tc main_v28) = W1 m ρ c (Proc.devRef .tc main_v28) :=
  (keep6_v28 m ρ c).trans <| (keep5_v28 m ρ c).trans <| (keep4_v28 m ρ c).trans <| (keep3_v28 m ρ c).trans <| keep2_v28 m ρ c
theorem at10_v28 (c : Dev nD) : W10 m ρ c (Proc.devRef .tc main_v28) = W1 m ρ c (Proc.devRef .tc main_v28) :=
  (keep10_v28 m ρ c).trans <| (keep9_v28 m ρ c).trans <| (keep8_v28 m ρ c).trans <| (keep7_v28 m ρ c).trans <| (keep6_v28 m ρ c).trans <| (keep5_v28 m ρ c).trans <| (keep4_v28 m ρ c).trans <| (keep3_v28 m ρ c).trans <| keep2_v28 m ρ c
theorem at14_v28 (c : Dev nD) : W14 m ρ c (Proc.devRef .tc main_v28) = W1 m ρ c (Proc.devRef .tc main_v28) :=
  (keep14_v28 m ρ c).trans <| (keep13_v28 m ρ c).trans <| (keep12_v28 m ρ c).trans <| (keep11_v28 m ρ c).trans <| (keep10_v28 m ρ c).trans <| (keep9_v28 m ρ c).trans <| (keep8_v28 m ρ c).trans <| (keep7_v28 m ρ c).trans <| (keep6_v28 m ρ c).trans <| (keep5_v28 m ρ c).trans <| (keep4_v28 m ρ c).trans <| (keep3_v28 m ρ c).trans <| keep2_v28 m ρ c

/-! ## `main_arg0`: produced at boundary 0, read at 1 -/
theorem keep1_arg0 (c : Dev nD) : W1 m ρ c (Proc.devRef .tc main_arg0) = W0 m ρ c (Proc.devRef .tc main_arg0) := by
  show StableHlo.after hostOps0 (W0 m ρ c) (Proc.devRef .tc main_arg0) = _
  after_results
theorem at1_arg0 (c : Dev nD) : W1 m ρ c (Proc.devRef .tc main_arg0) = m ((c : Thread nD τ).loc main_arg0) :=
  (keep1_arg0 m ρ c).trans rfl

/-! ## `main_arg3`: produced at boundary 0, read at 1 -/
theorem keep1_arg3 (c : Dev nD) : W1 m ρ c (Proc.devRef .tc main_arg3) = W0 m ρ c (Proc.devRef .tc main_arg3) := by
  show StableHlo.after hostOps0 (W0 m ρ c) (Proc.devRef .tc main_arg3) = _
  after_results
theorem at1_arg3 (c : Dev nD) : W1 m ρ c (Proc.devRef .tc main_arg3) = m ((c : Thread nD τ).loc main_arg3) :=
  (keep1_arg3 m ρ c).trans rfl

/-! ## `main_arg4`: produced at boundary 0, read at 2 -/
theorem keep1_arg4 (c : Dev nD) : W1 m ρ c (Proc.devRef .tc main_arg4) = W0 m ρ c (Proc.devRef .tc main_arg4) := by
  show StableHlo.after hostOps0 (W0 m ρ c) (Proc.devRef .tc main_arg4) = _
  after_results
theorem keep2_arg4 (c : Dev nD) : W2 m ρ c (Proc.devRef .tc main_arg4) = W1 m ρ c (Proc.devRef .tc main_arg4) :=
  W2_of_ne m ρ c main_arg4 (by decide)
theorem at2_arg4 (c : Dev nD) : W2 m ρ c (Proc.devRef .tc main_arg4) = m ((c : Thread nD τ).loc main_arg4) :=
  ((keep2_arg4 m ρ c).trans <| keep1_arg4 m ρ c).trans rfl

/-! ## `main_arg5`: produced at boundary 0, read at 4, 8, 12 -/
theorem keep1_arg5 (c : Dev nD) : W1 m ρ c (Proc.devRef .tc main_arg5) = W0 m ρ c (Proc.devRef .tc main_arg5) := by
  show StableHlo.after hostOps0 (W0 m ρ c) (Proc.devRef .tc main_arg5) = _
  after_results
theorem keep2_arg5 (c : Dev nD) : W2 m ρ c (Proc.devRef .tc main_arg5) = W1 m ρ c (Proc.devRef .tc main_arg5) :=
  W2_of_ne m ρ c main_arg5 (by decide)
theorem keep3_arg5 (c : Dev nD) : W3 m ρ c (Proc.devRef .tc main_arg5) = W2 m ρ c (Proc.devRef .tc main_arg5) := by
  show StableHlo.after hostOps1 (W2 m ρ c) (Proc.devRef .tc main_arg5) = _
  after_results
theorem keep4_arg5 (c : Dev nD) : W4 m ρ c (Proc.devRef .tc main_arg5) = W3 m ρ c (Proc.devRef .tc main_arg5) :=
  W4_of_ne m ρ c main_arg5 (by decide)
theorem keep5_arg5 (c : Dev nD) : W5 m ρ c (Proc.devRef .tc main_arg5) = W4 m ρ c (Proc.devRef .tc main_arg5) := by
  show StableHlo.after hostOps2 (W4 m ρ c) (Proc.devRef .tc main_arg5) = _
  after_results
theorem keep6_arg5 (c : Dev nD) : W6 m ρ c (Proc.devRef .tc main_arg5) = W5 m ρ c (Proc.devRef .tc main_arg5) :=
  W6_of_ne m ρ c main_arg5 (by decide)
theorem keep7_arg5 (c : Dev nD) : W7 m ρ c (Proc.devRef .tc main_arg5) = W6 m ρ c (Proc.devRef .tc main_arg5) := by
  show StableHlo.after hostOps3 (W6 m ρ c) (Proc.devRef .tc main_arg5) = _
  after_results
theorem keep8_arg5 (c : Dev nD) : W8 m ρ c (Proc.devRef .tc main_arg5) = W7 m ρ c (Proc.devRef .tc main_arg5) :=
  W8_of_ne m ρ c main_arg5 (by decide)
theorem keep9_arg5 (c : Dev nD) : W9 m ρ c (Proc.devRef .tc main_arg5) = W8 m ρ c (Proc.devRef .tc main_arg5) := by
  show StableHlo.after hostOps4 (W8 m ρ c) (Proc.devRef .tc main_arg5) = _
  after_results
theorem keep10_arg5 (c : Dev nD) : W10 m ρ c (Proc.devRef .tc main_arg5) = W9 m ρ c (Proc.devRef .tc main_arg5) :=
  W10_of_ne m ρ c main_arg5 (by decide)
theorem keep11_arg5 (c : Dev nD) : W11 m ρ c (Proc.devRef .tc main_arg5) = W10 m ρ c (Proc.devRef .tc main_arg5) := by
  show StableHlo.after hostOps5 (W10 m ρ c) (Proc.devRef .tc main_arg5) = _
  after_results
theorem keep12_arg5 (c : Dev nD) : W12 m ρ c (Proc.devRef .tc main_arg5) = W11 m ρ c (Proc.devRef .tc main_arg5) :=
  W12_of_ne m ρ c main_arg5 (by decide)
theorem at4_arg5 (c : Dev nD) : W4 m ρ c (Proc.devRef .tc main_arg5) = m ((c : Thread nD τ).loc main_arg5) :=
  ((keep4_arg5 m ρ c).trans <| (keep3_arg5 m ρ c).trans <| (keep2_arg5 m ρ c).trans <| keep1_arg5 m ρ c).trans rfl
theorem at8_arg5 (c : Dev nD) : W8 m ρ c (Proc.devRef .tc main_arg5) = m ((c : Thread nD τ).loc main_arg5) :=
  ((keep8_arg5 m ρ c).trans <| (keep7_arg5 m ρ c).trans <| (keep6_arg5 m ρ c).trans <| (keep5_arg5 m ρ c).trans <| (keep4_arg5 m ρ c).trans <| (keep3_arg5 m ρ c).trans <| (keep2_arg5 m ρ c).trans <| keep1_arg5 m ρ c).trans rfl
theorem at12_arg5 (c : Dev nD) : W12 m ρ c (Proc.devRef .tc main_arg5) = m ((c : Thread nD τ).loc main_arg5) :=
  ((keep12_arg5 m ρ c).trans <| (keep11_arg5 m ρ c).trans <| (keep10_arg5 m ρ c).trans <| (keep9_arg5 m ρ c).trans <| (keep8_arg5 m ρ c).trans <| (keep7_arg5 m ρ c).trans <| (keep6_arg5 m ρ c).trans <| (keep5_arg5 m ρ c).trans <| (keep4_arg5 m ρ c).trans <| (keep3_arg5 m ρ c).trans <| (keep2_arg5 m ρ c).trans <| keep1_arg5 m ρ c).trans rfl

/-! ## `main_arg6`: produced at boundary 0, read at 6, 10, 14 -/
theorem keep1_arg6 (c : Dev nD) : W1 m ρ c (Proc.devRef .tc main_arg6) = W0 m ρ c (Proc.devRef .tc main_arg6) := by
  show StableHlo.after hostOps0 (W0 m ρ c) (Proc.devRef .tc main_arg6) = _
  after_results
theorem keep2_arg6 (c : Dev nD) : W2 m ρ c (Proc.devRef .tc main_arg6) = W1 m ρ c (Proc.devRef .tc main_arg6) :=
  W2_of_ne m ρ c main_arg6 (by decide)
theorem keep3_arg6 (c : Dev nD) : W3 m ρ c (Proc.devRef .tc main_arg6) = W2 m ρ c (Proc.devRef .tc main_arg6) := by
  show StableHlo.after hostOps1 (W2 m ρ c) (Proc.devRef .tc main_arg6) = _
  after_results
theorem keep4_arg6 (c : Dev nD) : W4 m ρ c (Proc.devRef .tc main_arg6) = W3 m ρ c (Proc.devRef .tc main_arg6) :=
  W4_of_ne m ρ c main_arg6 (by decide)
theorem keep5_arg6 (c : Dev nD) : W5 m ρ c (Proc.devRef .tc main_arg6) = W4 m ρ c (Proc.devRef .tc main_arg6) := by
  show StableHlo.after hostOps2 (W4 m ρ c) (Proc.devRef .tc main_arg6) = _
  after_results
theorem keep6_arg6 (c : Dev nD) : W6 m ρ c (Proc.devRef .tc main_arg6) = W5 m ρ c (Proc.devRef .tc main_arg6) :=
  W6_of_ne m ρ c main_arg6 (by decide)
theorem keep7_arg6 (c : Dev nD) : W7 m ρ c (Proc.devRef .tc main_arg6) = W6 m ρ c (Proc.devRef .tc main_arg6) := by
  show StableHlo.after hostOps3 (W6 m ρ c) (Proc.devRef .tc main_arg6) = _
  after_results
theorem keep8_arg6 (c : Dev nD) : W8 m ρ c (Proc.devRef .tc main_arg6) = W7 m ρ c (Proc.devRef .tc main_arg6) :=
  W8_of_ne m ρ c main_arg6 (by decide)
theorem keep9_arg6 (c : Dev nD) : W9 m ρ c (Proc.devRef .tc main_arg6) = W8 m ρ c (Proc.devRef .tc main_arg6) := by
  show StableHlo.after hostOps4 (W8 m ρ c) (Proc.devRef .tc main_arg6) = _
  after_results
theorem keep10_arg6 (c : Dev nD) : W10 m ρ c (Proc.devRef .tc main_arg6) = W9 m ρ c (Proc.devRef .tc main_arg6) :=
  W10_of_ne m ρ c main_arg6 (by decide)
theorem keep11_arg6 (c : Dev nD) : W11 m ρ c (Proc.devRef .tc main_arg6) = W10 m ρ c (Proc.devRef .tc main_arg6) := by
  show StableHlo.after hostOps5 (W10 m ρ c) (Proc.devRef .tc main_arg6) = _
  after_results
theorem keep12_arg6 (c : Dev nD) : W12 m ρ c (Proc.devRef .tc main_arg6) = W11 m ρ c (Proc.devRef .tc main_arg6) :=
  W12_of_ne m ρ c main_arg6 (by decide)
theorem keep13_arg6 (c : Dev nD) : W13 m ρ c (Proc.devRef .tc main_arg6) = W12 m ρ c (Proc.devRef .tc main_arg6) := by
  show StableHlo.after hostOps6 (W12 m ρ c) (Proc.devRef .tc main_arg6) = _
  after_results
theorem keep14_arg6 (c : Dev nD) : W14 m ρ c (Proc.devRef .tc main_arg6) = W13 m ρ c (Proc.devRef .tc main_arg6) :=
  W14_of_ne m ρ c main_arg6 (by decide)
theorem at6_arg6 (c : Dev nD) : W6 m ρ c (Proc.devRef .tc main_arg6) = m ((c : Thread nD τ).loc main_arg6) :=
  ((keep6_arg6 m ρ c).trans <| (keep5_arg6 m ρ c).trans <| (keep4_arg6 m ρ c).trans <| (keep3_arg6 m ρ c).trans <| (keep2_arg6 m ρ c).trans <| keep1_arg6 m ρ c).trans rfl
theorem at10_arg6 (c : Dev nD) : W10 m ρ c (Proc.devRef .tc main_arg6) = m ((c : Thread nD τ).loc main_arg6) :=
  ((keep10_arg6 m ρ c).trans <| (keep9_arg6 m ρ c).trans <| (keep8_arg6 m ρ c).trans <| (keep7_arg6 m ρ c).trans <| (keep6_arg6 m ρ c).trans <| (keep5_arg6 m ρ c).trans <| (keep4_arg6 m ρ c).trans <| (keep3_arg6 m ρ c).trans <| (keep2_arg6 m ρ c).trans <| keep1_arg6 m ρ c).trans rfl
theorem at14_arg6 (c : Dev nD) : W14 m ρ c (Proc.devRef .tc main_arg6) = m ((c : Thread nD τ).loc main_arg6) :=
  ((keep14_arg6 m ρ c).trans <| (keep13_arg6 m ρ c).trans <| (keep12_arg6 m ρ c).trans <| (keep11_arg6 m ρ c).trans <| (keep10_arg6 m ρ c).trans <| (keep9_arg6 m ρ c).trans <| (keep8_arg6 m ρ c).trans <| (keep7_arg6 m ρ c).trans <| (keep6_arg6 m ρ c).trans <| (keep5_arg6 m ρ c).trans <| (keep4_arg6 m ρ c).trans <| (keep3_arg6 m ρ c).trans <| (keep2_arg6 m ρ c).trans <| keep1_arg6 m ρ c).trans rfl

/-! ## `main_arg2`: produced at boundary 0, read at 16, 18 -/
theorem keep1_arg2 (c : Dev nD) : W1 m ρ c (Proc.devRef .tc main_arg2) = W0 m ρ c (Proc.devRef .tc main_arg2) := by
  show StableHlo.after hostOps0 (W0 m ρ c) (Proc.devRef .tc main_arg2) = _
  after_results
theorem keep2_arg2 (c : Dev nD) : W2 m ρ c (Proc.devRef .tc main_arg2) = W1 m ρ c (Proc.devRef .tc main_arg2) :=
  W2_of_ne m ρ c main_arg2 (by decide)
theorem keep3_arg2 (c : Dev nD) : W3 m ρ c (Proc.devRef .tc main_arg2) = W2 m ρ c (Proc.devRef .tc main_arg2) := by
  show StableHlo.after hostOps1 (W2 m ρ c) (Proc.devRef .tc main_arg2) = _
  after_results
theorem keep4_arg2 (c : Dev nD) : W4 m ρ c (Proc.devRef .tc main_arg2) = W3 m ρ c (Proc.devRef .tc main_arg2) :=
  W4_of_ne m ρ c main_arg2 (by decide)
theorem keep5_arg2 (c : Dev nD) : W5 m ρ c (Proc.devRef .tc main_arg2) = W4 m ρ c (Proc.devRef .tc main_arg2) := by
  show StableHlo.after hostOps2 (W4 m ρ c) (Proc.devRef .tc main_arg2) = _
  after_results
theorem keep6_arg2 (c : Dev nD) : W6 m ρ c (Proc.devRef .tc main_arg2) = W5 m ρ c (Proc.devRef .tc main_arg2) :=
  W6_of_ne m ρ c main_arg2 (by decide)
theorem keep7_arg2 (c : Dev nD) : W7 m ρ c (Proc.devRef .tc main_arg2) = W6 m ρ c (Proc.devRef .tc main_arg2) := by
  show StableHlo.after hostOps3 (W6 m ρ c) (Proc.devRef .tc main_arg2) = _
  after_results
theorem keep8_arg2 (c : Dev nD) : W8 m ρ c (Proc.devRef .tc main_arg2) = W7 m ρ c (Proc.devRef .tc main_arg2) :=
  W8_of_ne m ρ c main_arg2 (by decide)
theorem keep9_arg2 (c : Dev nD) : W9 m ρ c (Proc.devRef .tc main_arg2) = W8 m ρ c (Proc.devRef .tc main_arg2) := by
  show StableHlo.after hostOps4 (W8 m ρ c) (Proc.devRef .tc main_arg2) = _
  after_results
theorem keep10_arg2 (c : Dev nD) : W10 m ρ c (Proc.devRef .tc main_arg2) = W9 m ρ c (Proc.devRef .tc main_arg2) :=
  W10_of_ne m ρ c main_arg2 (by decide)
theorem keep11_arg2 (c : Dev nD) : W11 m ρ c (Proc.devRef .tc main_arg2) = W10 m ρ c (Proc.devRef .tc main_arg2) := by
  show StableHlo.after hostOps5 (W10 m ρ c) (Proc.devRef .tc main_arg2) = _
  after_results
theorem keep12_arg2 (c : Dev nD) : W12 m ρ c (Proc.devRef .tc main_arg2) = W11 m ρ c (Proc.devRef .tc main_arg2) :=
  W12_of_ne m ρ c main_arg2 (by decide)
theorem keep13_arg2 (c : Dev nD) : W13 m ρ c (Proc.devRef .tc main_arg2) = W12 m ρ c (Proc.devRef .tc main_arg2) := by
  show StableHlo.after hostOps6 (W12 m ρ c) (Proc.devRef .tc main_arg2) = _
  after_results
theorem keep14_arg2 (c : Dev nD) : W14 m ρ c (Proc.devRef .tc main_arg2) = W13 m ρ c (Proc.devRef .tc main_arg2) :=
  W14_of_ne m ρ c main_arg2 (by decide)
theorem keep15_arg2 (c : Dev nD) : W15 m ρ c (Proc.devRef .tc main_arg2) = W14 m ρ c (Proc.devRef .tc main_arg2) := by
  show StableHlo.after hostOps7 (W14 m ρ c) (Proc.devRef .tc main_arg2) = _
  after_results
theorem keep16_arg2 (c : Dev nD) : W16 m ρ c (Proc.devRef .tc main_arg2) = W15 m ρ c (Proc.devRef .tc main_arg2) :=
  W16_of_ne m ρ c main_arg2 (by decide)
theorem keep17_arg2 (c : Dev nD) : W17 m ρ c (Proc.devRef .tc main_arg2) = W16 m ρ c (Proc.devRef .tc main_arg2) := by
  show StableHlo.after hostOps8 (W16 m ρ c) (Proc.devRef .tc main_arg2) = _
  after_results
theorem keep18_arg2 (c : Dev nD) : W18 m ρ c (Proc.devRef .tc main_arg2) = W17 m ρ c (Proc.devRef .tc main_arg2) :=
  W18_of_ne m ρ c main_arg2 (by decide)
theorem at16_arg2 (c : Dev nD) : W16 m ρ c (Proc.devRef .tc main_arg2) = m ((c : Thread nD τ).loc main_arg2) :=
  ((keep16_arg2 m ρ c).trans <| (keep15_arg2 m ρ c).trans <| (keep14_arg2 m ρ c).trans <| (keep13_arg2 m ρ c).trans <| (keep12_arg2 m ρ c).trans <| (keep11_arg2 m ρ c).trans <| (keep10_arg2 m ρ c).trans <| (keep9_arg2 m ρ c).trans <| (keep8_arg2 m ρ c).trans <| (keep7_arg2 m ρ c).trans <| (keep6_arg2 m ρ c).trans <| (keep5_arg2 m ρ c).trans <| (keep4_arg2 m ρ c).trans <| (keep3_arg2 m ρ c).trans <| (keep2_arg2 m ρ c).trans <| keep1_arg2 m ρ c).trans rfl
theorem at18_arg2 (c : Dev nD) : W18 m ρ c (Proc.devRef .tc main_arg2) = m ((c : Thread nD τ).loc main_arg2) :=
  ((keep18_arg2 m ρ c).trans <| (keep17_arg2 m ρ c).trans <| (keep16_arg2 m ρ c).trans <| (keep15_arg2 m ρ c).trans <| (keep14_arg2 m ρ c).trans <| (keep13_arg2 m ρ c).trans <| (keep12_arg2 m ρ c).trans <| (keep11_arg2 m ρ c).trans <| (keep10_arg2 m ρ c).trans <| (keep9_arg2 m ρ c).trans <| (keep8_arg2 m ρ c).trans <| (keep7_arg2 m ρ c).trans <| (keep6_arg2 m ρ c).trans <| (keep5_arg2 m ρ c).trans <| (keep4_arg2 m ρ c).trans <| (keep3_arg2 m ρ c).trans <| (keep2_arg2 m ρ c).trans <| keep1_arg2 m ρ c).trans rfl

/-! ## `main_arg7`: produced at boundary 0, read at 19 -/
theorem keep1_arg7 (c : Dev nD) : W1 m ρ c (Proc.devRef .tc main_arg7) = W0 m ρ c (Proc.devRef .tc main_arg7) := by
  show StableHlo.after hostOps0 (W0 m ρ c) (Proc.devRef .tc main_arg7) = _
  after_results
theorem keep2_arg7 (c : Dev nD) : W2 m ρ c (Proc.devRef .tc main_arg7) = W1 m ρ c (Proc.devRef .tc main_arg7) :=
  W2_of_ne m ρ c main_arg7 (by decide)
theorem keep3_arg7 (c : Dev nD) : W3 m ρ c (Proc.devRef .tc main_arg7) = W2 m ρ c (Proc.devRef .tc main_arg7) := by
  show StableHlo.after hostOps1 (W2 m ρ c) (Proc.devRef .tc main_arg7) = _
  after_results
theorem keep4_arg7 (c : Dev nD) : W4 m ρ c (Proc.devRef .tc main_arg7) = W3 m ρ c (Proc.devRef .tc main_arg7) :=
  W4_of_ne m ρ c main_arg7 (by decide)
theorem keep5_arg7 (c : Dev nD) : W5 m ρ c (Proc.devRef .tc main_arg7) = W4 m ρ c (Proc.devRef .tc main_arg7) := by
  show StableHlo.after hostOps2 (W4 m ρ c) (Proc.devRef .tc main_arg7) = _
  after_results
theorem keep6_arg7 (c : Dev nD) : W6 m ρ c (Proc.devRef .tc main_arg7) = W5 m ρ c (Proc.devRef .tc main_arg7) :=
  W6_of_ne m ρ c main_arg7 (by decide)
theorem keep7_arg7 (c : Dev nD) : W7 m ρ c (Proc.devRef .tc main_arg7) = W6 m ρ c (Proc.devRef .tc main_arg7) := by
  show StableHlo.after hostOps3 (W6 m ρ c) (Proc.devRef .tc main_arg7) = _
  after_results
theorem keep8_arg7 (c : Dev nD) : W8 m ρ c (Proc.devRef .tc main_arg7) = W7 m ρ c (Proc.devRef .tc main_arg7) :=
  W8_of_ne m ρ c main_arg7 (by decide)
theorem keep9_arg7 (c : Dev nD) : W9 m ρ c (Proc.devRef .tc main_arg7) = W8 m ρ c (Proc.devRef .tc main_arg7) := by
  show StableHlo.after hostOps4 (W8 m ρ c) (Proc.devRef .tc main_arg7) = _
  after_results
theorem keep10_arg7 (c : Dev nD) : W10 m ρ c (Proc.devRef .tc main_arg7) = W9 m ρ c (Proc.devRef .tc main_arg7) :=
  W10_of_ne m ρ c main_arg7 (by decide)
theorem keep11_arg7 (c : Dev nD) : W11 m ρ c (Proc.devRef .tc main_arg7) = W10 m ρ c (Proc.devRef .tc main_arg7) := by
  show StableHlo.after hostOps5 (W10 m ρ c) (Proc.devRef .tc main_arg7) = _
  after_results
theorem keep12_arg7 (c : Dev nD) : W12 m ρ c (Proc.devRef .tc main_arg7) = W11 m ρ c (Proc.devRef .tc main_arg7) :=
  W12_of_ne m ρ c main_arg7 (by decide)
theorem keep13_arg7 (c : Dev nD) : W13 m ρ c (Proc.devRef .tc main_arg7) = W12 m ρ c (Proc.devRef .tc main_arg7) := by
  show StableHlo.after hostOps6 (W12 m ρ c) (Proc.devRef .tc main_arg7) = _
  after_results
theorem keep14_arg7 (c : Dev nD) : W14 m ρ c (Proc.devRef .tc main_arg7) = W13 m ρ c (Proc.devRef .tc main_arg7) :=
  W14_of_ne m ρ c main_arg7 (by decide)
theorem keep15_arg7 (c : Dev nD) : W15 m ρ c (Proc.devRef .tc main_arg7) = W14 m ρ c (Proc.devRef .tc main_arg7) := by
  show StableHlo.after hostOps7 (W14 m ρ c) (Proc.devRef .tc main_arg7) = _
  after_results
theorem keep16_arg7 (c : Dev nD) : W16 m ρ c (Proc.devRef .tc main_arg7) = W15 m ρ c (Proc.devRef .tc main_arg7) :=
  W16_of_ne m ρ c main_arg7 (by decide)
theorem keep17_arg7 (c : Dev nD) : W17 m ρ c (Proc.devRef .tc main_arg7) = W16 m ρ c (Proc.devRef .tc main_arg7) := by
  show StableHlo.after hostOps8 (W16 m ρ c) (Proc.devRef .tc main_arg7) = _
  after_results
theorem keep18_arg7 (c : Dev nD) : W18 m ρ c (Proc.devRef .tc main_arg7) = W17 m ρ c (Proc.devRef .tc main_arg7) :=
  W18_of_ne m ρ c main_arg7 (by decide)
theorem keep19_arg7 (c : Dev nD) : W19 m ρ c (Proc.devRef .tc main_arg7) = W18 m ρ c (Proc.devRef .tc main_arg7) := by
  show StableHlo.after hostOps9 (W18 m ρ c) (Proc.devRef .tc main_arg7) = _
  after_results
theorem at19_arg7 (c : Dev nD) : W19 m ρ c (Proc.devRef .tc main_arg7) = m ((c : Thread nD τ).loc main_arg7) :=
  ((keep19_arg7 m ρ c).trans <| (keep18_arg7 m ρ c).trans <| (keep17_arg7 m ρ c).trans <| (keep16_arg7 m ρ c).trans <| (keep15_arg7 m ρ c).trans <| (keep14_arg7 m ρ c).trans <| (keep13_arg7 m ρ c).trans <| (keep12_arg7 m ρ c).trans <| (keep11_arg7 m ρ c).trans <| (keep10_arg7 m ρ c).trans <| (keep9_arg7 m ρ c).trans <| (keep8_arg7 m ρ c).trans <| (keep7_arg7 m ρ c).trans <| (keep6_arg7 m ρ c).trans <| (keep5_arg7 m ρ c).trans <| (keep4_arg7 m ρ c).trans <| (keep3_arg7 m ρ c).trans <| (keep2_arg7 m ρ c).trans <| keep1_arg7 m ρ c).trans rfl

/-! ## `main_arg8`: produced at boundary 0, read at 20 -/
theorem keep1_arg8 (c : Dev nD) : W1 m ρ c (Proc.devRef .tc main_arg8) = W0 m ρ c (Proc.devRef .tc main_arg8) := by
  show StableHlo.after hostOps0 (W0 m ρ c) (Proc.devRef .tc main_arg8) = _
  after_results
theorem keep2_arg8 (c : Dev nD) : W2 m ρ c (Proc.devRef .tc main_arg8) = W1 m ρ c (Proc.devRef .tc main_arg8) :=
  W2_of_ne m ρ c main_arg8 (by decide)
theorem keep3_arg8 (c : Dev nD) : W3 m ρ c (Proc.devRef .tc main_arg8) = W2 m ρ c (Proc.devRef .tc main_arg8) := by
  show StableHlo.after hostOps1 (W2 m ρ c) (Proc.devRef .tc main_arg8) = _
  after_results
theorem keep4_arg8 (c : Dev nD) : W4 m ρ c (Proc.devRef .tc main_arg8) = W3 m ρ c (Proc.devRef .tc main_arg8) :=
  W4_of_ne m ρ c main_arg8 (by decide)
theorem keep5_arg8 (c : Dev nD) : W5 m ρ c (Proc.devRef .tc main_arg8) = W4 m ρ c (Proc.devRef .tc main_arg8) := by
  show StableHlo.after hostOps2 (W4 m ρ c) (Proc.devRef .tc main_arg8) = _
  after_results
theorem keep6_arg8 (c : Dev nD) : W6 m ρ c (Proc.devRef .tc main_arg8) = W5 m ρ c (Proc.devRef .tc main_arg8) :=
  W6_of_ne m ρ c main_arg8 (by decide)
theorem keep7_arg8 (c : Dev nD) : W7 m ρ c (Proc.devRef .tc main_arg8) = W6 m ρ c (Proc.devRef .tc main_arg8) := by
  show StableHlo.after hostOps3 (W6 m ρ c) (Proc.devRef .tc main_arg8) = _
  after_results
theorem keep8_arg8 (c : Dev nD) : W8 m ρ c (Proc.devRef .tc main_arg8) = W7 m ρ c (Proc.devRef .tc main_arg8) :=
  W8_of_ne m ρ c main_arg8 (by decide)
theorem keep9_arg8 (c : Dev nD) : W9 m ρ c (Proc.devRef .tc main_arg8) = W8 m ρ c (Proc.devRef .tc main_arg8) := by
  show StableHlo.after hostOps4 (W8 m ρ c) (Proc.devRef .tc main_arg8) = _
  after_results
theorem keep10_arg8 (c : Dev nD) : W10 m ρ c (Proc.devRef .tc main_arg8) = W9 m ρ c (Proc.devRef .tc main_arg8) :=
  W10_of_ne m ρ c main_arg8 (by decide)
theorem keep11_arg8 (c : Dev nD) : W11 m ρ c (Proc.devRef .tc main_arg8) = W10 m ρ c (Proc.devRef .tc main_arg8) := by
  show StableHlo.after hostOps5 (W10 m ρ c) (Proc.devRef .tc main_arg8) = _
  after_results
theorem keep12_arg8 (c : Dev nD) : W12 m ρ c (Proc.devRef .tc main_arg8) = W11 m ρ c (Proc.devRef .tc main_arg8) :=
  W12_of_ne m ρ c main_arg8 (by decide)
theorem keep13_arg8 (c : Dev nD) : W13 m ρ c (Proc.devRef .tc main_arg8) = W12 m ρ c (Proc.devRef .tc main_arg8) := by
  show StableHlo.after hostOps6 (W12 m ρ c) (Proc.devRef .tc main_arg8) = _
  after_results
theorem keep14_arg8 (c : Dev nD) : W14 m ρ c (Proc.devRef .tc main_arg8) = W13 m ρ c (Proc.devRef .tc main_arg8) :=
  W14_of_ne m ρ c main_arg8 (by decide)
theorem keep15_arg8 (c : Dev nD) : W15 m ρ c (Proc.devRef .tc main_arg8) = W14 m ρ c (Proc.devRef .tc main_arg8) := by
  show StableHlo.after hostOps7 (W14 m ρ c) (Proc.devRef .tc main_arg8) = _
  after_results
theorem keep16_arg8 (c : Dev nD) : W16 m ρ c (Proc.devRef .tc main_arg8) = W15 m ρ c (Proc.devRef .tc main_arg8) :=
  W16_of_ne m ρ c main_arg8 (by decide)
theorem keep17_arg8 (c : Dev nD) : W17 m ρ c (Proc.devRef .tc main_arg8) = W16 m ρ c (Proc.devRef .tc main_arg8) := by
  show StableHlo.after hostOps8 (W16 m ρ c) (Proc.devRef .tc main_arg8) = _
  after_results
theorem keep18_arg8 (c : Dev nD) : W18 m ρ c (Proc.devRef .tc main_arg8) = W17 m ρ c (Proc.devRef .tc main_arg8) :=
  W18_of_ne m ρ c main_arg8 (by decide)
theorem keep19_arg8 (c : Dev nD) : W19 m ρ c (Proc.devRef .tc main_arg8) = W18 m ρ c (Proc.devRef .tc main_arg8) := by
  show StableHlo.after hostOps9 (W18 m ρ c) (Proc.devRef .tc main_arg8) = _
  after_results
theorem keep20_arg8 (c : Dev nD) : W20 m ρ c (Proc.devRef .tc main_arg8) = W19 m ρ c (Proc.devRef .tc main_arg8) :=
  W20_of_ne m ρ c main_arg8 (by decide)
theorem at20_arg8 (c : Dev nD) : W20 m ρ c (Proc.devRef .tc main_arg8) = m ((c : Thread nD τ).loc main_arg8) :=
  ((keep20_arg8 m ρ c).trans <| (keep19_arg8 m ρ c).trans <| (keep18_arg8 m ρ c).trans <| (keep17_arg8 m ρ c).trans <| (keep16_arg8 m ρ c).trans <| (keep15_arg8 m ρ c).trans <| (keep14_arg8 m ρ c).trans <| (keep13_arg8 m ρ c).trans <| (keep12_arg8 m ρ c).trans <| (keep11_arg8 m ρ c).trans <| (keep10_arg8 m ρ c).trans <| (keep9_arg8 m ρ c).trans <| (keep8_arg8 m ρ c).trans <| (keep7_arg8 m ρ c).trans <| (keep6_arg8 m ρ c).trans <| (keep5_arg8 m ρ c).trans <| (keep4_arg8 m ρ c).trans <| (keep3_arg8 m ρ c).trans <| (keep2_arg8 m ρ c).trans <| keep1_arg8 m ρ c).trans rfl

/-! ## `main_v44`: produced at boundary 4, read at 5 -/
theorem keep5_v44 (c : Dev nD) : W5 m ρ c (Proc.devRef .tc main_v44) = W4 m ρ c (Proc.devRef .tc main_v44) := by
  show StableHlo.after hostOps2 (W4 m ρ c) (Proc.devRef .tc main_v44) = _
  after_results
theorem at5_v44 (c : Dev nD) : W5 m ρ c (Proc.devRef .tc main_v44) = W4 m ρ c (Proc.devRef .tc main_v44) :=
  keep5_v44 m ρ c

/-! ## `main_v64`: produced at boundary 8, read at 9 -/
theorem keep9_v64 (c : Dev nD) : W9 m ρ c (Proc.devRef .tc main_v64) = W8 m ρ c (Proc.devRef .tc main_v64) := by
  show StableHlo.after hostOps4 (W8 m ρ c) (Proc.devRef .tc main_v64) = _
  after_results
theorem at9_v64 (c : Dev nD) : W9 m ρ c (Proc.devRef .tc main_v64) = W8 m ρ c (Proc.devRef .tc main_v64) :=
  keep9_v64 m ρ c

/-! ## `main_v84`: produced at boundary 12, read at 13 -/
theorem keep13_v84 (c : Dev nD) : W13 m ρ c (Proc.devRef .tc main_v84) = W12 m ρ c (Proc.devRef .tc main_v84) := by
  show StableHlo.after hostOps6 (W12 m ρ c) (Proc.devRef .tc main_v84) = _
  after_results
theorem at13_v84 (c : Dev nD) : W13 m ρ c (Proc.devRef .tc main_v84) = W12 m ρ c (Proc.devRef .tc main_v84) :=
  keep13_v84 m ρ c

/-! ## `main_v104`: produced at boundary 16, read at 17 -/
theorem keep17_v104 (c : Dev nD) : W17 m ρ c (Proc.devRef .tc main_v104) = W16 m ρ c (Proc.devRef .tc main_v104) := by
  show StableHlo.after hostOps8 (W16 m ρ c) (Proc.devRef .tc main_v104) = _
  after_results
theorem at17_v104 (c : Dev nD) : W17 m ρ c (Proc.devRef .tc main_v104) = W16 m ρ c (Proc.devRef .tc main_v104) :=
  keep17_v104 m ρ c

/-! ## `main_v116`: produced at boundary 20, read at 21 -/
theorem keep21_v116 (c : Dev nD) : W21 m ρ c (Proc.devRef .tc main_v116) = W20 m ρ c (Proc.devRef .tc main_v116) := by
  show StableHlo.after hostOps10 (W20 m ρ c) (Proc.devRef .tc main_v116) = _
  after_results
theorem at21_v116 (c : Dev nD) : W21 m ρ c (Proc.devRef .tc main_v116) = W20 m ρ c (Proc.devRef .tc main_v116) :=
  keep21_v116 m ρ c

end Cert.KernelIdeal.Keep

end
-- ==== Proof.Reg0.lean ====
import proofs.«428648_j88132728914134_1_alg».proof.Proof.Gen.KernelIdeal.Frame
import proofs.«428648_j88132728914134_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The first matrix product: ten blocks of 5000 node rows, each multiplied by the whole weight matrix, tile the product
of the node features by the weights.

Entry (r, j) of a block's product is the sum over k of the block's entry (r, k) times the weights' entry (k, j): the
narrowing casts are the identity on extended reals and the accumulator is zero. Block t of the left operand and of the
output starts at row 5000 * t, so that entry is entry (5000 * t + r, j) of the whole product; row r of the whole array
lies in block r / 5000, so the ten blocks cover it.
-/

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The product's left operand is read at the output's row: axis 0 of the left index is the output's axis 0. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Axis 1 of the left index is the contraction coordinate. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Axis 0 of the right index is the contraction coordinate. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Axis 1 of the right index is the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's payload at an index: entry (r, j) of a block's product is the sum over k of x (r, k) * w (k, j);
    the narrowing casts are the identity on extended reals and the accumulator is zero. -/
theorem pay_apply (x : Vec Ideal S5000x128 .f32) (w : Vec Ideal S128x128 .f32) (r : Fin 5000) (j : Fin 128) :
    k0_pay1 (F := Ideal) x w (ix2 r j) = ∑ k : Fin 128, x (ix2 r k) * w (ix2 k j) := by
  unfold k0_pay1
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]
  rfl

variable (V : (c : Dev nD) → (b : Ref sig .tc) → Buf (Elt Ideal) ((c : Thread nD τ).loc b))

/-- The zero offsets of a whole-buffer access, as a constant function. -/
theorem zero_off : (![0, 0] : Fin 2 → Nat) = fun _ => 0 := funext fun a => by fin_cases a <;> rfl

/-- The index maps over the grid: the row-block index of the left operand and of the output is the point's number,
    their column-block index is 0, and the weight matrix is always block (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the product of the two arrays the region reads. -/
theorem flushed_eq (c : Dev nD) (t : Fin cfg0.N) :
    (dat0 (F := Ideal) V c).flushed 2 t
      = ((cfg0.win 2).blk t).view.read (Elt Ideal) (Spec.mm 50000 128 128 (V c main_arg0) (V c main_arg3)) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S128x128) zero_off]
  obtain ⟨e00, e01, e10, e11, e20, e21⟩ := idx_facts t
  funext y
  obtain ⟨r, j, rfl⟩ : ∃ (r : Fin 5000) (j : Fin 128), y = ix2 r j := ⟨y 0, y 1, eq_ix2 (n0 := 5000) (n1 := 128) y⟩
  refine (pay_apply (iblk0 V c 0 t) (iblk0 V c 1 t) r j).trans ?_
  show _ = Spec.mm 50000 128 128 (V c main_arg0) (V c main_arg3) (((cfg0.win 2).blk t).view.emb (ix2 r j))
  dsimp only [Spec.mm]
  refine Finset.sum_congr rfl fun k _ => ?_
  have hl : iblk0 V c 0 t (ix2 r k)
      = V c main_arg0 (ix2 ((((cfg0.win 2).blk t).view.emb (ix2 r j)) 0) k) := by
    unfold iblk0
    show V c main_arg0 (((cfg0.win 0).blk t).view.emb (ix2 r k)) = _
    refine congrArg (V c main_arg0) (funext fun a => Fin.ext ?_)
    match a with
    | ⟨0, _⟩ => show win0_0.index t (0 : Fin 2) * 5000 + 1 * r.val = win0_2.index t (0 : Fin 2) * 5000 + 1 * r.val; omega
    | ⟨1, _⟩ => show win0_0.index t (1 : Fin 2) * 128 + 1 * k.val = k.val; omega
  have hr : iblk0 V c 1 t (ix2 k j)
      = V c main_arg3 (ix2 k ((((cfg0.win 2).blk t).view.emb (ix2 r j)) 1)) := by
    unfold iblk0
    show V c main_arg3 (((cfg0.win 1).blk t).view.emb (ix2 k j)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * j.val = win0_2.index t (1 : Fin 2) * 128 + 1 * j.val; omega
  rw [hl, hr]

/-- An index of the array is in point t's block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Every index of the array is in some point's block: row r is in block r / 5000. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : grid0.N = 10 := N_0
  let t : Fin cfg0.N := ⟨(i 0).val / 5000, by show (i 0).val / 5000 < grid0.N; omega⟩
  obtain ⟨e00, e01, e10, e11, e20, e21⟩ := idx_facts t
  have ht : (t : Nat) = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- What region 0 leaves in its output array, as one function of the arrays it reads. -/
theorem arr (c : Dev nD) : (dat0 (F := Ideal) V c).arrAt 2 cfg0.N = Spec.mm 50000 128 128 (V c main_arg0) (V c main_arg3) :=
  (dat0 (F := Ideal) V c).arrAt_eq_of_cover 2 _ (fun t _ => flushed_eq V c t) cover

end Cert.KernelIdeal.Reg0

end
-- ==== Proof.Reg1.lean ====
import proofs.«428648_j88132728914134_1_alg».proof.Proof.Gen.KernelIdeal.Frame
import proofs.«428648_j88132728914134_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
Bias and clip after the first mixing: ten blocks of 5000 rows, each with the bias row added and clipped at zero.
-/

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The all-zero offsets of a whole-buffer access, spelt as a constant function. -/
theorem offsets_zero : (![0, 0] : Fin 2 → Nat) = fun _ => 0 := funext fun a => by fin_cases a <;> rfl

/-- The stored value at row `r`, lane `j`: the block's entry plus the bias row's lane, clipped at zero. -/
theorem pay_apply (x : Vec Ideal S5000x128 .f32) (b : Vec Ideal S1x128 .f32) (r : Fin 5000) (j : Fin 128) :
    k1_pay1 (F := Ideal) x b (ix2 r j) = max (x (ix2 r j) + b (ix2 0 j)) 0 := by
  unfold k1_pay1
  refine (maximumf_apply _ _ (ix2 r j)).trans ?_
  rw [shapeCast_self x, shapeCast_self b]
  refine congrArg₂ max ?_ ?_
  · refine (addf_apply _ _ (ix2 r j)).trans ?_
    exact congrArg (x (ix2 r j) + ·) (broadcastTo_1b_ab_apply b broadcasts_S1x128_S5000x128 r j)
  · exact Ideal.ofBits_zero_f32

/-- The printed index maps over the ten grid points: the first input's block moves with the output's, the bias
    row's block stays at the origin, and the output's block at point `t` is block `t` of the rows. -/
theorem idx_facts : ∀ t : Fin cfg1.N,
    win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the bias-and-clip of the two arrays the region reads. -/
theorem flushed_eq (c : Dev nD) (t : Fin cfg1.N) :
    (dat1 (F := Ideal) V c).flushed 2 t
      = ((cfg1.win 2).blk t).view.read (Elt Ideal) (Spec.biasRelu 50000 128 (V c main_v42) (V c main_v43)) := by
  show (cfg1.win 2).cut (grid1.coords t) ((dat1 V c).after 2 t) = _
  rw [after1_2]
  unfold out1_2
  rw [View.canon_unit_zero offsets_zero]
  simp only [View.ld_unit_zero (S := S5000x128) offsets_zero, View.ld_unit_zero (S := S1x128) offsets_zero]
  funext y
  obtain ⟨r, j, rfl⟩ : ∃ (r : Fin 5000) (j : Fin 128), y = ix2 r j := ⟨y 0, y 1, eq_ix2 y⟩
  refine (pay_apply _ _ r j).trans ?_
  obtain ⟨e0, e1, e2, e3, e4, e5⟩ := idx_facts t
  -- row `r`, lane `j` of the first input's block is the array's entry under the output's block there
  have h0 : ((cfg1.win 0).blk t).view.emb (ix2 r j) = ((cfg1.win 2).blk t).view.emb (ix2 r j) := by
    funext a; apply Fin.ext
    match a with
    | ⟨0, _⟩ => show win1_0.index t (0 : Fin 2) * 5000 + 1 * r.val = win1_2.index t (0 : Fin 2) * 5000 + 1 * r.val; omega
    | ⟨1, _⟩ => show win1_0.index t (1 : Fin 2) * 128 + 1 * j.val = win1_2.index t (1 : Fin 2) * 128 + 1 * j.val; omega
  -- lane `j` of the bias row's block is the bias row's entry at that entry's lane
  have h1 : ((cfg1.win 1).blk t).view.emb (ix2 0 j) = ix2 0 ((((cfg1.win 2).blk t).view.emb (ix2 r j)) 1) := by
    funext a; apply Fin.ext
    match a with
    | ⟨0, _⟩ => show win1_1.index t (0 : Fin 2) * 1 + 1 * 0 = 0; omega
    | ⟨1, _⟩ => show win1_1.index t (1 : Fin 2) * 128 + 1 * j.val = win1_2.index t (1 : Fin 2) * 128 + 1 * j.val; omega
  have hx : iblk1 V c 0 t (ix2 r j) = V c main_v42 (((cfg1.win 2).blk t).view.emb (ix2 r j)) :=
    congrArg (V c main_v42) h0
  have hb : iblk1 V c 1 t (ix2 0 j) = V c main_v43 (ix2 0 ((((cfg1.win 2).blk t).view.emb (ix2 r j)) 1)) :=
    congrArg (V c main_v43) h1
  exact congrArg₂ max (congrArg₂ (fun u v : EReal => u + v) hx hb) rfl

/-- An index of the output array lies in point `t`'s block iff, on each axis, its coordinate lies in the block's range. -/
theorem mem_blk (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v44).slice (win1_2.rect t)).set ↔ _
  rw [View.set_slice_whole, Rect.mem_set_unit]
  exact Iff.rfl

/-- Every index of the output array lies in some point's block: row `r` in the block of point `r / 5000`. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by omega⟩, rfl⟩
  obtain ⟨e0, e1, e2, e3, e4, e5⟩ := idx_facts t
  refine ⟨t, flush1_2 t, ?_⟩
  rw [mem_blk]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 128 ≤ (i 1).val ∧ (i 1).val < win1_2.index t (1 : Fin 2) * 128 + 128
    omega

/-- What region 1 leaves in its output array, as one function of the arrays it reads. -/
theorem arr (c : Dev nD) : (dat1 (F := Ideal) V c).arrAt 2 cfg1.N = Spec.biasRelu 50000 128 (V c main_v42) (V c main_v43) := by
  exact (dat1 V c).arrAt_eq_of_cover 2 _ (fun t _ => flushed_eq V c t) cover

end Cert.KernelIdeal.Reg1

end
-- ==== Proof.Reg2.lean ====
import proofs.«428648_j88132728914134_1_alg».proof.Proof.Gen.KernelIdeal.Frame
import proofs.«428648_j88132728914134_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The second matrix product: ten blocks of 5000 node rows, each multiplied by the whole weight matrix, tile the product
of the output of the first layer by the weights.

Entry (r, j) of a block's product is the sum over k of the block's entry (r, k) times the weights' entry (k, j): the
casts of a block to its own shape move nothing, the narrowing casts are the identity on extended reals and the
accumulator is zero. Block t of the left operand and of the
output starts at row 5000 * t, so that entry is entry (5000 * t + r, j) of the whole product; row r of the whole array
lies in block r / 5000, so the ten blocks cover it.
-/

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The product's left operand is read at the output's row: axis 0 of the left index is the output's axis 0. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Axis 1 of the left index is the contraction coordinate. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Axis 0 of the right index is the contraction coordinate. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Axis 1 of the right index is the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's payload at an index: entry (r, j) of a block's product is the sum over k of x (r, k) * w (k, j);
    each loaded block is first cast to its own shape, which moves nothing, the narrowing casts are the identity on
    extended reals, and the accumulator is zero. -/
theorem pay_apply (x : Vec Ideal S5000x128 .f32) (w : Vec Ideal S128x128 .f32) (r : Fin 5000) (j : Fin 128) :
    k2_pay1 (F := Ideal) x w (ix2 r j) = ∑ k : Fin 128, x (ix2 r k) * w (ix2 k j) := by
  unfold k2_pay1
  simp only [matmul, shapeCast_self]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]
  rfl

variable (V : (c : Dev nD) → (b : Ref sig .tc) → Buf (Elt Ideal) ((c : Thread nD τ).loc b))

/-- The zero offsets of a whole-buffer access, as a constant function. -/
theorem zero_off : (![0, 0] : Fin 2 → Nat) = fun _ => 0 := funext fun a => by fin_cases a <;> rfl

/-- The index maps over the grid: the row-block index of the left operand and of the output is the point's number,
    their column-block index is 0, and the weight matrix is always block (0, 0). -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the product of the two arrays the region reads. -/
theorem flushed_eq (c : Dev nD) (t : Fin cfg2.N) :
    (dat2 (F := Ideal) V c).flushed 2 t
      = ((cfg2.win 2).blk t).view.read (Elt Ideal) (Spec.mm 50000 128 128 (V c main_v44) (V c main_v46)) := by
  show (cfg2.win 2).cut (grid2.coords t) ((dat2 V c).after 2 t) = _
  rw [after2_2]
  unfold out2_2
  rw [View.canon_unit_zero zero_off]
  simp only [View.ld_unit_zero (S := S5000x128) zero_off, View.ld_unit_zero (S := S128x128) zero_off]
  obtain ⟨e00, e01, e10, e11, e20, e21⟩ := idx_facts t
  funext y
  obtain ⟨r, j, rfl⟩ : ∃ (r : Fin 5000) (j : Fin 128), y = ix2 r j := ⟨y 0, y 1, eq_ix2 (n0 := 5000) (n1 := 128) y⟩
  refine (pay_apply (iblk2 V c 0 t) (iblk2 V c 1 t) r j).trans ?_
  show _ = Spec.mm 50000 128 128 (V c main_v44) (V c main_v46) (((cfg2.win 2).blk t).view.emb (ix2 r j))
  dsimp only [Spec.mm]
  refine Finset.sum_congr rfl fun k _ => ?_
  have hl : iblk2 V c 0 t (ix2 r k)
      = V c main_v44 (ix2 ((((cfg2.win 2).blk t).view.emb (ix2 r j)) 0) k) := by
    unfold iblk2
    show V c main_v44 (((cfg2.win 0).blk t).view.emb (ix2 r k)) = _
    refine congrArg (V c main_v44) (funext fun a => Fin.ext ?_)
    match a with
    | ⟨0, _⟩ => show win2_0.index t (0 : Fin 2) * 5000 + 1 * r.val = win2_2.index t (0 : Fin 2) * 5000 + 1 * r.val; omega
    | ⟨1, _⟩ => show win2_0.index t (1 : Fin 2) * 128 + 1 * k.val = k.val; omega
  have hr : iblk2 V c 1 t (ix2 k j)
      = V c main_v46 (ix2 k ((((cfg2.win 2).blk t).view.emb (ix2 r j)) 1)) := by
    unfold iblk2
    show V c main_v46 (((cfg2.win 1).blk t).view.emb (ix2 k j)) = _
    refine congrArg (V c main_v46) (funext fun a => Fin.ext ?_)
    match a with
    | ⟨0, _⟩ => show win2_1.index t (0 : Fin 2) * 128 + 1 * k.val = k.val; omega
    | ⟨1, _⟩ => show win2_1.index t (1 : Fin 2) * 128 + 1 * j.val = win2_2.index t (1 : Fin 2) * 128 + 1 * j.val; omega
  rw [hl, hr]

/-- An index of the array is in point t's block iff each coordinate is in the block's range on its axis. -/
theorem mem_blk (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v47).slice (win2_2.rect t)).set ↔ _
  rw [View.set_slice_whole, Rect.mem_set_unit]
  exact Iff.rfl

/-- Every index of the array is in some point's block: row r is in block r / 5000. -/
theorem cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : grid2.N = 10 := N_2
  let t : Fin cfg2.N := ⟨(i 0).val / 5000, by show (i 0).val / 5000 < grid2.N; omega⟩
  obtain ⟨e00, e01, e10, e11, e20, e21⟩ := idx_facts t
  have ht : (t : Nat) = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- What region 2 leaves in its output array, as one function of the arrays it reads. -/
theorem arr (c : Dev nD) : (dat2 (F := Ideal) V c).arrAt 2 cfg2.N = Spec.mm 50000 128 128 (V c main_v44) (V c main_v46) :=
  (dat2 (F := Ideal) V c).arrAt_eq_of_cover 2 _ (fun t _ => flushed_eq V c t) cover

end Cert.KernelIdeal.Reg2

end
-- ==== Proof.Reg3.lean ====
import proofs.«428648_j88132728914134_1_alg».proof.Proof.Gen.KernelIdeal.Frame
import proofs.«428648_j88132728914134_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
Bias and clip after the second mixing: ten blocks of 5000 rows, each with the bias row added and clipped at zero.
-/

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The all-zero offsets of a whole-buffer access, spelt as a constant function. -/
theorem offsets_zero : (![0, 0] : Fin 2 → Nat) = fun _ => 0 := funext fun a => by fin_cases a <;> rfl

/-- The stored value at row `r`, lane `j`: the block's entry plus the bias row's lane, clipped at zero. -/
theorem pay_apply (x : Vec Ideal S5000x128 .f32) (b : Vec Ideal S1x128 .f32) (r : Fin 5000) (j : Fin 128) :
    k3_pay1 (F := Ideal) x b (ix2 r j) = max (x (ix2 r j) + b (ix2 0 j)) 0 := by
  unfold k3_pay1
  refine (maximumf_apply _ _ (ix2 r j)).trans ?_
  rw [shapeCast_self x, shapeCast_self b]
  refine congrArg₂ max ?_ ?_
  · refine (addf_apply _ _ (ix2 r j)).trans ?_
    exact congrArg (x (ix2 r j) + ·) (broadcastTo_1b_ab_apply b broadcasts_S1x128_S5000x128 r j)
  · exact Ideal.ofBits_zero_f32

/-- The printed index maps over the ten grid points: the first input's block moves with the output's, the bias
    row's block stays at the origin, and the output's block at point `t` is block `t` of the rows. -/
theorem idx_facts : ∀ t : Fin cfg3.N,
    win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- What point `t` writes back is block `t` of the bias-and-clip of the two arrays the region reads. -/
theorem flushed_eq (c : Dev nD) (t : Fin cfg3.N) :
    (dat3 (F := Ideal) V c).flushed 2 t
      = ((cfg3.win 2).blk t).view.read (Elt Ideal) (Spec.biasRelu 50000 128 (V c main_v60) (V c main_v63)) := by
  show (cfg3.win 2).cut (grid3.coords t) ((dat3 V c).after 2 t) = _
  rw [after3_2]
  unfold out3_2
  rw [View.canon_unit_zero offsets_zero]
  simp only [View.ld_unit_zero (S := S5000x128) offsets_zero, View.ld_unit_zero (S := S1x128) offsets_zero]
  funext y
  obtain ⟨r, j, rfl⟩ : ∃ (r : Fin 5000) (j : Fin 128), y = ix2 r j := ⟨y 0, y 1, eq_ix2 y⟩
  refine (pay_apply _ _ r j).trans ?_
  obtain ⟨e0, e1, e2, e3, e4, e5⟩ := idx_facts t
  -- row `r`, lane `j` of the first input's block is the array's entry under the output's block there
  have h0 : ((cfg3.win 0).blk t).view.emb (ix2 r j) = ((cfg3.win 2).blk t).view.emb (ix2 r j) := by
    funext a; apply Fin.ext
    match a with
    | ⟨0, _⟩ => show win3_0.index t (0 : Fin 2) * 5000 + 1 * r.val = win3_2.index t (0 : Fin 2) * 5000 + 1 * r.val; omega
    | ⟨1, _⟩ => show win3_0.index t (1 : Fin 2) * 128 + 1 * j.val = win3_2.index t (1 : Fin 2) * 128 + 1 * j.val; omega
  -- lane `j` of the bias row's block is the bias row's entry at that entry's lane
  have h1 : ((cfg3.win 1).blk t).view.emb (ix2 0 j) = ix2 0 ((((cfg3.win 2).blk t).view.emb (ix2 r j)) 1) := by
    funext a; apply Fin.ext
    match a with
    | ⟨0, _⟩ => show win3_1.index t (0 : Fin 2) * 1 + 1 * 0 = 0; omega
    | ⟨1, _⟩ => show win3_1.index t (1 : Fin 2) * 128 + 1 * j.val = win3_2.index t (1 : Fin 2) * 128 + 1 * j.val; omega
  have hx : iblk3 V c 0 t (ix2 r j) = V c main_v60 (((cfg3.win 2).blk t).view.emb (ix2 r j)) :=
    congrArg (V c main_v60) h0
  have hb : iblk3 V c 1 t (ix2 0 j) = V c main_v63 (ix2 0 ((((cfg3.win 2).blk t).view.emb (ix2 r j)) 1)) :=
    congrArg (V c main_v63) h1
  exact congrArg₂ max (congrArg₂ (fun u v : EReal => u + v) hx hb) rfl

/-- An index of the output array lies in point `t`'s block iff, on each axis, its coordinate lies in the block's range. -/
theorem mem_blk (t : Fin cfg3.N) (i : S50000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v64).slice (win3_2.rect t)).set ↔ _
  rw [View.set_slice_whole, Rect.mem_set_unit]
  exact Iff.rfl

/-- Every index of the output array lies in some point's block: row `r` in the block of point `r / 5000`. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by omega⟩, rfl⟩
  obtain ⟨e0, e1, e2, e3, e4, e5⟩ := idx_facts t
  refine ⟨t, flush3_2 t, ?_⟩
  rw [mem_blk]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 128 ≤ (i 1).val ∧ (i 1).val < win3_2.index t (1 : Fin 2) * 128 + 128
    omega

/-- What region 3 leaves in its output array, as one function of the arrays it reads. -/
theorem arr (c : Dev nD) : (dat3 (F := Ideal) V c).arrAt 2 cfg3.N = Spec.biasRelu 50000 128 (V c main_v60) (V c main_v63) := by
  exact (dat3 V c).arrAt_eq_of_cover 2 _ (fun t _ => flushed_eq V c t) cover

end Cert.KernelIdeal.Reg3

end
-- ==== Proof.Reg4.lean ====
import proofs.«428648_j88132728914134_1_alg».proof.Proof.Gen.KernelIdeal.Frame
import proofs.«428648_j88132728914134_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The third matrix product: ten blocks of 5000 node rows, each multiplied by the whole weight matrix, tile the product
of the output of the second layer by the weights.

Entry (r, j) of a block's product is the sum over k of the block's entry (r, k) times the weights' entry (k, j): the
casts of a block to its own shape move nothing, the narrowing casts are the identity on extended reals and the
accumulator is zero. Block t of the left operand and of the
output starts at row 5000 * t, so that entry is entry (5000 * t + r, j) of the whole product; row r of the whole array
lies in block r / 5000, so the ten blocks cover it.
-/

set_option maxRecDepth 16384

noncomputable section

namespace Cert.KernelIdeal.Reg4

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The product's left operand is read at the output's row: axis 0 of the left index is the output's axis 0. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Axis 1 of the left index is the contraction coordinate. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Axis 0 of the right index is the contraction coordinate. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Axis 1 of the right index is the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's payload at an index: entry (r, j) of a block's product is the sum over k of x (r, k) * w (k, j);
    each loaded block is first cast to its own shape, which moves nothing, the narrowing casts are the identity on
    extended reals, and the accumulator is zero. -/
theorem pay_apply (x : Vec Ideal S5000x128 .f32) (w : Vec Ideal S128x128 .f32) (r : Fin 5000) (j : Fin 128) :
    k4_pay1 (F := Ideal) x w (ix2 r j) = ∑ k : Fin 128, x (ix2 r k) * w (ix2 k j) := by
  unfold k4_pay1
  simp only [matmul, shapeCast_self]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]
  rfl

variable (V : (c : Dev nD) → (b : Ref sig .tc) → Buf (Elt Ideal) ((c : Thread nD τ).loc b))

/-- The zero offsets of a whole-buffer access, as a constant function. -/
theorem zero_off : (![0, 0] : Fin 2 → Nat) = fun _ => 0 := funext fun a => by fin_cases a <;> rfl

/-- The index maps over the grid: the row-block index of the left operand and of the output is the point's number,
    their column-block index is 0, and the weight matrix is always block (0, 0). -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point t writes back is block t of the product of the two arrays the region reads. -/
theorem flushed_eq (c : Dev nD) (t : Fin cfg4.N) :
    (dat4 (F := Ideal) V c).flushed 2 t
      = ((cfg4.win 2).blk t).view.read (Elt Ideal) (Spec.mm 50000 128 128 (V c main_v64) (V c main_v66)) := by
  show (cfg4.win 2).cut (grid4.coords t) ((dat4 V c).after 2 t) = _
  rw [after4_2]
  unfold out4_2
  rw [View.canon_unit_zero zero_off]
  simp only [View.ld_unit_zero (S := S5000x128) zero_off, View.ld_unit_zero (S := S128x128) zero_off]
  obtain ⟨e00, e01, e10, e11, e20, e21⟩ := idx_facts t
  funext y
  obtain ⟨r, j, rfl⟩ : ∃ (r : Fin 5000) (j : Fin 128), y = ix2 r j := ⟨y 0, y 1, eq_ix2 (n0 := 5000) (n1 := 128) y⟩
  refine (pay_apply (iblk4 V c 0 t) (iblk4 V c 1 t) r j).trans ?_
  show _ = Spec.mm 50000 128 128 (V c main_v64) (V c main_v66) (((cfg4.win 2).blk t).view.emb (ix2 r j))
  dsimp only [Spec.mm]
  refine Finset.sum_congr rfl fun k _ => ?_
  have hl : iblk4 V c 0 t (ix2 r k)
      = V c main_v64 (ix2 ((((cfg4.win 2).blk t).view.emb (ix2 r j)) 0) k) := by
    unfold iblk4
    show V c main_v64 (((cfg4.win 0).blk t).view.emb (ix2 r k)) = _
    refine congrArg (V c main_v64) (funext fun a => Fin.ext ?_)
    match a with
    | ⟨0, _⟩ => show win4_0.index t (0 : Fin 2) * 5000 + 1 * r.val = win4_2.index t (0 : Fin 2) * 5000 + 1 * r.val; omega
    | ⟨1, _⟩ => show win4_0.index t (1 : Fin 2) * 128 + 1 * k.val = k.val; omega
  have hr : iblk4 V c 1 t (ix2 k j)
      = V c main_v66 (ix2 k ((((cfg4.win 2).blk t).view.emb (ix2 r j)) 1)) := by
    unfold iblk4
    show V c main_v66 (((cfg4.win 1).blk t).view.emb (ix2 k j)) = _
    refine congrArg (V c main_v66) (funext fun a => Fin.ext ?_)
    match a with
    | ⟨0, _⟩ => show win4_1.index t (0 : Fin 2) * 128 + 1 * k.val = k.val; omega
    | ⟨1, _⟩ => show win4_1.index t (1 : Fin 2) * 128 + 1 * j.val = win4_2.index t (1 : Fin 2) * 128 + 1 * j.val; omega
  rw [hl, hr]

/-- An index of the array is in point t's block iff each coordinate is in the block's range on its axis. -/
theorem mem_blk (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v67).slice (win4_2.rect t)).set ↔ _
  rw [View.set_slice_whole, Rect.mem_set_unit]
  exact Iff.rfl

/-- Every index of the array is in some point's block: row r is in block r / 5000. -/
theorem cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : grid4.N = 10 := N_4
  let t : Fin cfg4.N := ⟨(i 0).val / 5000, by show (i 0).val / 5000 < grid4.N; omega⟩
  obtain ⟨e00, e01, e10, e11, e20, e21⟩ := idx_facts t
  have ht : (t : Nat) = (i 0).val / 5000 := rfl
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- What region 4 leaves in its output array, as one function of the arrays it reads. -/
theorem arr (c : Dev nD) : (dat4 (F := Ideal) V c).arrAt 2 cfg4.N = Spec.mm 50000 128 128 (V c main_v64) (V c main_v66) :=
  (dat4 (F := Ideal) V c).arrAt_eq_of_cover 2 _ (fun t _ => flushed_eq V c t) cover

end Cert.KernelIdeal.Reg4

end
-- ==== Proof.Reg5.lean ====
import proofs.«428648_j88132728914134_1_alg».proof.Proof.Gen.KernelIdeal.Frame
import proofs.«428648_j88132728914134_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
Bias and clip after the third mixing: ten blocks of 5000 rows, each with the bias row added and clipped at zero.
-/

set_option maxRecDepth 16384

noncomputable section

namespace Cert.KernelIdeal.Reg5

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The all-zero offsets of a whole-buffer access, spelt as a constant function. -/
theorem offsets_zero : (![0, 0] : Fin 2 → Nat) = fun _ => 0 := funext fun a => by fin_cases a <;> rfl

/-- The stored value at row `r`, lane `j`: the block's entry plus the bias row's lane, clipped at zero. -/
theorem pay_apply (x : Vec Ideal S5000x128 .f32) (b : Vec Ideal S1x128 .f32) (r : Fin 5000) (j : Fin 128) :
    k5_pay1 (F := Ideal) x b (ix2 r j) = max (x (ix2 r j) + b (ix2 0 j)) 0 := by
  unfold k5_pay1
  refine (maximumf_apply _ _ (ix2 r j)).trans ?_
  rw [shapeCast_self x, shapeCast_self b]
  refine congrArg₂ max ?_ ?_
  · refine (addf_apply _ _ (ix2 r j)).trans ?_
    exact congrArg (x (ix2 r j) + ·) (broadcastTo_1b_ab_apply b broadcasts_S1x128_S5000x128 r j)
  · exact Ideal.ofBits_zero_f32

/-- The printed index maps over the ten grid points: the first input's block moves with the output's, the bias
    row's block stays at the origin, and the output's block at point `t` is block `t` of the rows. -/
theorem idx_facts : ∀ t : Fin cfg5.N,
    win5_0.index t (0 : Fin 2) = win5_2.index t (0 : Fin 2)
    ∧ win5_0.index t (1 : Fin 2) = win5_2.index t (1 : Fin 2)
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- What point `t` writes back is block `t` of the bias-and-clip of the two arrays the region reads. -/
theorem flushed_eq (c : Dev nD) (t : Fin cfg5.N) :
    (dat5 (F := Ideal) V c).flushed 2 t
      = ((cfg5.win 2).blk t).view.read (Elt Ideal) (Spec.biasRelu 50000 128 (V c main_v80) (V c main_v83)) := by
  show (cfg5.win 2).cut (grid5.coords t) ((dat5 V c).after 2 t) = _
  rw [after5_2]
  unfold out5_2
  rw [View.canon_unit_zero offsets_zero]
  simp only [View.ld_unit_zero (S := S5000x128) offsets_zero, View.ld_unit_zero (S := S1x128) offsets_zero]
  funext y
  obtain ⟨r, j, rfl⟩ : ∃ (r : Fin 5000) (j : Fin 128), y = ix2 r j := ⟨y 0, y 1, eq_ix2 y⟩
  refine (pay_apply _ _ r j).trans ?_
  obtain ⟨e0, e1, e2, e3, e4, e5⟩ := idx_facts t
  -- row `r`, lane `j` of the first input's block is the array's entry under the output's block there
  have h0 : ((cfg5.win 0).blk t).view.emb (ix2 r j) = ((cfg5.win 2).blk t).view.emb (ix2 r j) := by
    funext a; apply Fin.ext
    match a with
    | ⟨0, _⟩ => show win5_0.index t (0 : Fin 2) * 5000 + 1 * r.val = win5_2.index t (0 : Fin 2) * 5000 + 1 * r.val; omega
    | ⟨1, _⟩ => show win5_0.index t (1 : Fin 2) * 128 + 1 * j.val = win5_2.index t (1 : Fin 2) * 128 + 1 * j.val; omega
  -- lane `j` of the bias row's block is the bias row's entry at that entry's lane
  have h1 : ((cfg5.win 1).blk t).view.emb (ix2 0 j) = ix2 0 ((((cfg5.win 2).blk t).view.emb (ix2 r j)) 1) := by
    funext a; apply Fin.ext
    match a with
    | ⟨0, _⟩ => show win5_1.index t (0 : Fin 2) * 1 + 1 * 0 = 0; omega
    | ⟨1, _⟩ => show win5_1.index t (1 : Fin 2) * 128 + 1 * j.val = win5_2.index t (1 : Fin 2) * 128 + 1 * j.val; omega
  have hx : iblk5 V c 0 t (ix2 r j) = V c main_v80 (((cfg5.win 2).blk t).view.emb (ix2 r j)) :=
    congrArg (V c main_v80) h0
  have hb : iblk5 V c 1 t (ix2 0 j) = V c main_v83 (ix2 0 ((((cfg5.win 2).blk t).view.emb (ix2 r j)) 1)) :=
    congrArg (V c main_v83) h1
  exact congrArg₂ max (congrArg₂ (fun u v : EReal => u + v) hx hb) rfl

/-- An index of the output array lies in point `t`'s block iff, on each axis, its coordinate lies in the block's range. -/
theorem mem_blk (t : Fin cfg5.N) (i : S50000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v84).slice (win5_2.rect t)).set ↔ _
  rw [View.set_slice_whole, Rect.mem_set_unit]
  exact Iff.rfl

/-- Every index of the output array lies in some point's block: row `r` in the block of point `r / 5000`. -/
theorem cover (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by omega⟩, rfl⟩
  obtain ⟨e0, e1, e2, e3, e4, e5⟩ := idx_facts t
  refine ⟨t, flush5_2 t, ?_⟩
  rw [mem_blk]
  intro a
  match a with
  | ⟨0, _⟩ =>
    show win5_2.index t (0 : Fin 2) * 5000 ≤ (i 0).val ∧ (i 0).val < win5_2.index t (0 : Fin 2) * 5000 + 5000
    omega
  | ⟨1, _⟩ =>
    show win5_2.index t (1 : Fin 2) * 128 ≤ (i 1).val ∧ (i 1).val < win5_2.index t (1 : Fin 2) * 128 + 128
    omega

/-- What region 5 leaves in its output array, as one function of the arrays it reads. -/
theorem arr (c : Dev nD) : (dat5 (F := Ideal) V c).arrAt 2 cfg5.N = Spec.biasRelu 50000 128 (V c main_v80) (V c main_v83) := by
  exact (dat5 V c).arrAt_eq_of_cover 2 _ (fun t _ => flushed_eq V c t) cover

end Cert.KernelIdeal.Reg5

end
-- ==== Proof.Reg6.lean ====
import proofs.«428648_j88132728914134_1_alg».proof.Proof.Gen.KernelIdeal.Frame
import proofs.«428648_j88132728914134_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The fourth matrix product: ten blocks of 5000 node rows, each multiplied by the whole weight matrix, tile the product
of the output of the third layer by the weights.

Entry (r, j) of a block's product is the sum over k of the block's entry (r, k) times the weights' entry (k, j): the
casts of a block to its own shape move nothing, the narrowing casts are the identity on extended reals and the
accumulator is zero. Block t of the left operand and of the
output starts at row 5000 * t, so that entry is entry (5000 * t + r, j) of the whole product; row r of the whole array
lies in block r / 5000, so the ten blocks cover it.
-/

set_option maxRecDepth 16384

noncomputable section

namespace Cert.KernelIdeal.Reg6

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The product's left operand is read at the output's row: axis 0 of the left index is the output's axis 0. -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Axis 1 of the left index is the contraction coordinate. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Axis 0 of the right index is the contraction coordinate. -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Axis 1 of the right index is the output's column. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's payload at an index: entry (r, j) of a block's product is the sum over k of x (r, k) * w (k, j);
    each loaded block is first cast to its own shape, which moves nothing, the narrowing casts are the identity on
    extended reals, and the accumulator is zero. -/
theorem pay_apply (x : Vec Ideal S5000x128 .f32) (w : Vec Ideal S128x128 .f32) (r : Fin 5000) (j : Fin 128) :
    k6_pay1 (F := Ideal) x w (ix2 r j) = ∑ k : Fin 128, x (ix2 r k) * w (ix2 k j) := by
  unfold k6_pay1
  simp only [matmul, shapeCast_self]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 r j) ((ValueIdx.contrEquiv1 dot_S5000x128_S128x128_S5000x128_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 r j) ((ValueIdx.contrEquiv1 dot_S5000x128_S128x128_S5000x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]
  rfl

variable (V : (c : Dev nD) → (b : Ref sig .tc) → Buf (Elt Ideal) ((c : Thread nD τ).loc b))

/-- The zero offsets of a whole-buffer access, as a constant function. -/
theorem zero_off : (![0, 0] : Fin 2 → Nat) = fun _ => 0 := funext fun a => by fin_cases a <;> rfl

/-- The index maps over the grid: the row-block index of the left operand and of the output is the point's number,
    their column-block index is 0, and the weight matrix is always block (0, 0). -/
theorem idx_facts : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = t.val
    ∧ win6_2.index t (1 : Fin 2) = 0 :=
  (by decide +kernel : ∀ t : Fin grid6.N, _)

/-- What point t writes back is block t of the product of the two arrays the region reads. -/
theorem flushed_eq (c : Dev nD) (t : Fin cfg6.N) :
    (dat6 (F := Ideal) V c).flushed 2 t
      = ((cfg6.win 2).blk t).view.read (Elt Ideal) (Spec.mm 50000 128 128 (V c main_v84) (V c main_v86)) := by
  show (cfg6.win 2).cut (grid6.coords t) ((dat6 V c).after 2 t) = _
  rw [after6_2]
  unfold out6_2
  rw [View.canon_unit_zero zero_off]
  simp only [View.ld_unit_zero (S := S5000x128) zero_off, View.ld_unit_zero (S := S128x128) zero_off]
  obtain ⟨e00, e01, e10, e11, e20, e21⟩ := idx_facts t
  funext y
  obtain ⟨r, j, rfl⟩ : ∃ (r : Fin 5000) (j : Fin 128), y = ix2 r j := ⟨y 0, y 1, eq_ix2 (n0 := 5000) (n1 := 128) y⟩
  refine (pay_apply (iblk6 V c 0 t) (iblk6 V c 1 t) r j).trans ?_
  show _ = Spec.mm 50000 128 128 (V c main_v84) (V c main_v86) (((cfg6.win 2).blk t).view.emb (ix2 r j))
  dsimp only [Spec.mm]
  refine Finset.sum_congr rfl fun k _ => ?_
  have hl : iblk6 V c 0 t (ix2 r k)
      = V c main_v84 (ix2 ((((cfg6.win 2).blk t).view.emb (ix2 r j)) 0) k) := by
    unfold iblk6
    show V c main_v84 (((cfg6.win 0).blk t).view.emb (ix2 r k)) = _
    refine congrArg (V c main_v84) (funext fun a => Fin.ext ?_)
    match a with
    | ⟨0, _⟩ => show win6_0.index t (0 : Fin 2) * 5000 + 1 * r.val = win6_2.index t (0 : Fin 2) * 5000 + 1 * r.val; omega
    | ⟨1, _⟩ => show win6_0.index t (1 : Fin 2) * 128 + 1 * k.val = k.val; omega
  have hr : iblk6 V c 1 t (ix2 k j)
      = V c main_v86 (ix2 k ((((cfg6.win 2).blk t).view.emb (ix2 r j)) 1)) := by
    unfold iblk6
    show V c main_v86 (((cfg6.win 1).blk t).view.emb (ix2 k j)) = _
    refine congrArg (V c main_v86) (funext fun a => Fin.ext ?_)
    match a with
    | ⟨0, _⟩ => show win6_1.index t (0 : Fin 2) * 128 + 1 * k.val = k.val; omega
    | ⟨1, _⟩ => show win6_1.index t (1 : Fin 2) * 128 + 1 * j.val = win6_2.index t (1 : Fin 2) * 128 + 1 * j.val; omega
  rw [hl, hr]

/-- An index of the array is in point t's block iff each coordinate is in the block's range on its axis. -/
theorem mem_blk (t : Fin cfg6.N) (i : S50000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v87).slice (win6_2.rect t)).set ↔ _
  rw [View.set_slice_whole, Rect.mem_set_unit]
  exact Iff.rfl

/-- Every index of the array is in some point's block: row r is in block r / 5000. -/
theorem cover (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  have hN : grid6.N = 10 := N_6
  let t : Fin cfg6.N := ⟨(i 0).val / 5000, by show (i 0).val / 5000 < grid6.N; omega⟩
  obtain ⟨e00, e01, e10, e11, e20, e21⟩ := idx_facts t
  have ht : (t : Nat) = (i 0).val / 5000 := rfl
  refine ⟨t, flush6_2 t, ?_⟩
  rw [mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- What region 6 leaves in its output array, as one function of the arrays it reads. -/
theorem arr (c : Dev nD) : (dat6 (F := Ideal) V c).arrAt 2 cfg6.N = Spec.mm 50000 128 128 (V c main_v84) (V c main_v86) :=
  (dat6 (F := Ideal) V c).arrAt_eq_of_cover 2 _ (fun t _ => flushed_eq V c t) cover

end Cert.KernelIdeal.Reg6

end
-- ==== Proof.Reg7.lean ====
import proofs.«428648_j88132728914134_1_alg».proof.Proof.Gen.KernelIdeal.Frame
import proofs.«428648_j88132728914134_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
Bias after the last mixing: no clip in the last layer.
-/

set_option maxRecDepth 16384

noncomputable section

namespace Cert.KernelIdeal.Reg7

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The all-zero offsets of a whole-buffer access, spelt as a constant function. -/
theorem offsets_zero : (![0, 0] : Fin 2 → Nat) = fun _ => 0 := funext fun a => by fin_cases a <;> rfl

/-- The stored value at row `r`, lane `j`: the block's entry plus the bias row's lane. -/
theorem pay_apply (x : Vec Ideal S5000x128 .f32) (b : Vec Ideal S1x128 .f32) (r : Fin 5000) (j : Fin 128) :
    k7_pay1 (F := Ideal) x b (ix2 r j) = x (ix2 r j) + b (ix2 0 j) := by
  unfold k7_pay1
  refine (addf_apply _ _ (ix2 r j)).trans ?_
  rw [shapeCast_self x, shapeCast_self b]
  exact congrArg (x (ix2 r j) + ·) (broadcastTo_1b_ab_apply b broadcasts_S1x128_S5000x128 r j)

/-- The printed index maps over the ten grid points: the first input's block moves with the output's, the bias
    row's block stays at the origin, and the output's block at point `t` is block `t` of the rows. -/
theorem idx_facts : ∀ t : Fin cfg7.N,
    win7_0.index t (0 : Fin 2) = win7_2.index t (0 : Fin 2)
    ∧ win7_0.index t (1 : Fin 2) = win7_2.index t (1 : Fin 2)
    ∧ win7_1.index t (0 : Fin 2) = 0
    ∧ win7_1.index t (1 : Fin 2) = 0
    ∧ win7_2.index t (0 : Fin 2) = t.val
    ∧ win7_2.index t (1 : Fin 2) = 0 :=
  (by decide +kernel : ∀ t : Fin grid7.N, _)

/-- What point `t` writes back is block `t` of the bias row added to the array the region reads. -/
theorem flushed_eq (c : Dev nD) (t : Fin cfg7.N) :
    (dat7 (F := Ideal) V c).flushed 2 t
      = ((cfg7.win 2).blk t).view.read (Elt Ideal) (Spec.biasAdd 50000 128 (V c main_v100) (V c main_v103)) := by
  show (cfg7.win 2).cut (grid7.coords t) ((dat7 V c).after 2 t) = _
  rw [after7_2]
  unfold out7_2
  rw [View.canon_unit_zero offsets_zero]
  simp only [View.ld_unit_zero (S := S5000x128) offsets_zero, View.ld_unit_zero (S := S1x128) offsets_zero]
  funext y
  obtain ⟨r, j, rfl⟩ : ∃ (r : Fin 5000) (j : Fin 128), y = ix2 r j := ⟨y 0, y 1, eq_ix2 y⟩
  refine (pay_apply _ _ r j).trans ?_
  obtain ⟨e0, e1, e2, e3, e4, e5⟩ := idx_facts t
  -- row `r`, lane `j` of the first input's block is the array's entry under the output's block there
  have h0 : ((cfg7.win 0).blk t).view.emb (ix2 r j) = ((cfg7.win 2).blk t).view.emb (ix2 r j) := by
    funext a; apply Fin.ext
    match a with
    | ⟨0, _⟩ => show win7_0.index t (0 : Fin 2) * 5000 + 1 * r.val = win7_2.index t (0 : Fin 2) * 5000 + 1 * r.val; omega
    | ⟨1, _⟩ => show win7_0.index t (1 : Fin 2) * 128 + 1 * j.val = win7_2.index t (1 : Fin 2) * 128 + 1 * j.val; omega
  -- lane `j` of the bias row's block is the bias row's entry at that entry's lane
  have h1 : ((cfg7.win 1).blk t).view.emb (ix2 0 j) = ix2 0 ((((cfg7.win 2).blk t).view.emb (ix2 r j)) 1) := by
    funext a; apply Fin.ext
    match a with
    | ⟨0, _⟩ => show win7_1.index t (0 : Fin 2) * 1 + 1 * 0 = 0; omega
    | ⟨1, _⟩ => show win7_1.index t (1 : Fin 2) * 128 + 1 * j.val = win7_2.index t (1 : Fin 2) * 128 + 1 * j.val; omega
  have hx : iblk7 V c 0 t (ix2 r j) = V c main_v100 (((cfg7.win 2).blk t).view.emb (ix2 r j)) :=
    congrArg (V c main_v100) h0
  have hb : iblk7 V c 1 t (ix2 0 j) = V c main_v103 (ix2 0 ((((cfg7.win 2).blk t).view.emb (ix2 r j)) 1)) :=
    congrArg (V c main_v103) h1
  exact congrArg₂ (fun u v : EReal => u + v) hx hb

/-- An index of the output array lies in point `t`'s block iff, on each axis, its coordinate lies in the block's range. -/
theorem mem_blk (t : Fin cfg7.N) (i : S50000x128.Idx) :
    i ∈ ((cfg7.win 2).blk t).view.set ↔ ∀ a : Fin 2, win7_2.index t a * S5000x128.size a ≤ (i a).val
      ∧ (i a).val < win7_2.index t a * S5000x128.size a + S5000x128.size a := by
  show i ∈ ((View.whole main_v104).slice (win7_2.rect t)).set ↔ _
  rw [View.set_slice_whole, Rect.mem_set_unit]
  exact Iff.rfl

/-- Every index of the output array lies in some point's block: row `r` in the block of point `r / 5000`. -/
theorem cover (i : S50000x128.Idx) :
    ∃ t : Fin cfg7.N, (cfg7.win 2).flush t = true ∧ i ∈ ((cfg7.win 2).blk t).view.set := by
  have hi0 : (i 0).val < 50000 := (i 0).isLt
  have hi1 : (i 1).val < 128 := (i 1).isLt
  have hN : cfg7.N = 10 := N_7
  obtain ⟨t, ht⟩ : ∃ t : Fin cfg7.N, t.val = (i 0).val / 5000 := ⟨⟨(i 0).val / 5000, by omega⟩, rfl⟩
  obtain ⟨e0, e1, e2, e3, e4, e5⟩ := idx_facts t
  refine ⟨t, flush7_2 t, ?_⟩
  rw [mem_blk]
  intro a
  match a with
  | ⟨0, _⟩ =>
    show win7_2.index t (0 : Fin 2) * 5000 ≤ (i 0).val ∧ (i 0).val < win7_2.index t (0 : Fin 2) * 5000 + 5000
    omega
  | ⟨1, _⟩ =>
    show win7_2.index t (1 : Fin 2) * 128 ≤ (i 1).val ∧ (i 1).val < win7_2.index t (1 : Fin 2) * 128 + 128
    omega

/-- What region 7 leaves in its output array, as one function of the arrays it reads. -/
theorem arr (c : Dev nD) : (dat7 (F := Ideal) V c).arrAt 2 cfg7.N = Spec.biasAdd 50000 128 (V c main_v100) (V c main_v103) := by
  exact (dat7 V c).arrAt_eq_of_cover 2 _ (fun t _ => flushed_eq V c t) cover

end Cert.KernelIdeal.Reg7

end
-- ==== Proof.Reg8Pay.lean ====
import proofs.«428648_j88132728914134_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

/-!
One block of the per-graph sum, read at an index.

For a block of 2000 node rows the body compares each node's graph id word with the column number, widens the
comparison to 0 or 1, transposes it, multiplies it with the block's rows and adds the product to the running total.
Over the extended reals one times a row entry is that entry and zero times it is zero, whatever the entry, so entry
`(g, j)` of the new total is the old entry plus the sum of the block's `(e, j)` entries over the nodes `e` whose
graph id is `g`.
-/

set_option maxRecDepth 16384

noncomputable section

namespace Cert.KernelIdeal.Reg8Pay

open Cert.KernelIdeal Cert.KernelIdeal.Gen
open Idealize.ShloMosaic Idealize.ShloMosaic.TcCoe Idealize.ShloMosaic.ValueIdx

/-! ## Words -/

/-- The 32-bit word of a number below 512 reads, signed, as that number. -/
theorem toInt_ofNat_lt (c : Fin 512) : (BitVec.ofNat 32 c.val).toInt = (c.val : ℤ) := by
  have hc := c.isLt
  rw [BitVec.toInt_eq_toNat_of_lt (by rw [BitVec.toNat_ofNat]; omega), BitVec.toNat_ofNat]
  congr 1
  omega

/-- A 32-bit word is the word of a number below 512 exactly when its signed reading is that number. -/
theorem eq_ofNat_iff (w : BitVec 32) (c : Fin 512) : w = BitVec.ofNat 32 c.val ↔ w.toInt = (c.val : ℤ) := by
  constructor
  · rintro rfl
    exact toInt_ofNat_lt c
  · intro h
    exact BitVec.eq_of_toInt_eq (h.trans (toInt_ofNat_lt c).symm)

/-- A one-bit word widened to 32 bits and read signed is 1 for the set bit … -/
theorem toInt_setWidth_one : ((1#1 : BitVec 1).setWidth 32).toInt = 1 := by decide
/-- … and 0 for the clear bit. -/
theorem toInt_setWidth_zero : ((0#1 : BitVec 1).setWidth 32).toInt = 0 := by decide

/-- The comparison of two equal words widened and converted is 1, of two different words 0. -/
theorem sitofp_extui_cmpi_eq (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · have hb : IntOp.cmpi .eq a b = 1#1 := by
      show BitVec.ofBool (a == b) = 1#1
      rw [beq_iff_eq.mpr h]; rfl
    rw [if_pos h, hb, toInt_setWidth_one]
    norm_num
  · have hb : IntOp.cmpi .eq a b = 0#1 := by
      show BitVec.ofBool (a == b) = 0#1
      rw [beq_eq_false_iff_ne.mpr h]; rfl
    rw [if_neg h, hb, toInt_setWidth_zero]
    norm_num

/-! ## The layout operations at an index -/

/-- The id column broadcast along the 512 columns reads the node's id word at every column. -/
theorem bcast_gid_apply (gid : Vec Ideal S2000x1 .i32) (e : Fin 2000) (c : Fin 512) :
    broadcastTo S2000x512 (shapeCast S2000x1 gid shapeCasts_S2000x1_S2000x1) broadcasts_S2000x1_S2000x512 (ix2 e c)
      = gid (ix2 e 0) := by
  rw [shapeCast_self]
  exact broadcastTo_apply gid broadcasts_S2000x1_S2000x512 (ix2 e c) (ix2 e 0) (fun a => match a with
    | ⟨0, _⟩ => by
        show e.val = if (2000 : Nat) = 1 then 0 else e.val
        rw [if_neg (by decide)]
    | ⟨1, _⟩ => by
        show (0 : Nat) = if (1 : Nat) = 1 then 0 else c.val
        rw [if_pos rfl])

/-- The column counter reads, at column `c`, the word of `c`. -/
theorem iota_col_apply (e : Fin 2000) (c : Fin 512) :
    iota .tc S2000x512 32 [1] iota_S2000x512_d1_w32 (ix2 e c) = BitVec.ofNat 32 c.val :=
  iota_single_apply .tc S2000x512 32 1 iota_S2000x512_d1_w32 (ix2 e c)

/-- The 0-or-1 matrix at `(e, c)`: 1 when node `e`'s graph id is `c`, else 0. -/
theorem onehot_apply (gid : Vec Ideal S2000x1 .i32) (e : Fin 2000) (c : Fin 512) :
    (truncf .bf16
        (sitofp .f32
          (extui 32
            (cmpi .eq
              (broadcastTo S2000x512 (shapeCast S2000x1 gid shapeCasts_S2000x1_S2000x1) broadcasts_S2000x1_S2000x512)
              (iota .tc S2000x512 32 [1] iota_S2000x512_d1_w32))
            natLt_1_32))
        bitsLt_bf16_f32 : FVec Ideal S2000x512 .bf16) (ix2 e c)
      = if (gid (ix2 e 0)).toInt = (c.val : ℤ) then 1 else 0 := by
  show (FloatOps.sitofp (F := Ideal) .f32
      ((IntOp.cmpi .eq
        (broadcastTo S2000x512 (shapeCast S2000x1 gid shapeCasts_S2000x1_S2000x1) broadcasts_S2000x1_S2000x512 (ix2 e c))
        (iota .tc S2000x512 32 [1] iota_S2000x512_d1_w32 (ix2 e c))).setWidth 32) : EReal) = _
  rw [bcast_gid_apply, iota_col_apply, sitofp_extui_cmpi_eq]
  exact if_congr (eq_ofNat_iff _ c) rfl rfl

/-! ## The product's operand indices -/

/-- The left operand's row coordinate is the output's row. -/
theorem lhs_pool_0 (i : S512x128.Idx) (q : dot_S512x2000_S2000x128_S512x128_1_0_0_1_n_n.contr.Idx) :
    (dot_S512x2000_S2000x128_S512x128_1_0_0_1_n_n.lhsIdx i q 0).val = (i 0).val := by
  unfold DotDims.lhsIdx
  rw [dif_neg (show ¬(0 : Fin S512x2000.rank) ∈ dot_S512x2000_S2000x128_S512x128_1_0_0_1_n_n.lhsBatch by decide), dif_pos (show (0 : Fin S512x2000.rank) ∈ dot_S512x2000_S2000x128_S512x128_1_0_0_1_n_n.lhsNonContracting by decide)]
  rfl
/-- The left operand's column coordinate is the contraction coordinate. -/
theorem lhs_pool_1 (i : S512x128.Idx) (q : dot_S512x2000_S2000x128_S512x128_1_0_0_1_n_n.contr.Idx) :
    (dot_S512x2000_S2000x128_S512x128_1_0_0_1_n_n.lhsIdx i q 1).val = (q ⟨0, by decide⟩).val :=
  dot_S512x2000_S2000x128_S512x128_1_0_0_1_n_n.lhsIdx_val_of_single rfl i q
/-- The right operand's row coordinate is the contraction coordinate. -/
theorem rhs_pool_0 (i : S512x128.Idx) (q : dot_S512x2000_S2000x128_S512x128_1_0_0_1_n_n.contr.Idx) :
    (dot_S512x2000_S2000x128_S512x128_1_0_0_1_n_n.rhsIdx i q 0).val = (q ⟨0, by decide⟩).val :=
  dot_S512x2000_S2000x128_S512x128_1_0_0_1_n_n.rhsIdx_val_of_single rfl i q
/-- The right operand's column coordinate is the output's column. -/
theorem rhs_pool_1 (i : S512x128.Idx) (q : dot_S512x2000_S2000x128_S512x128_1_0_0_1_n_n.contr.Idx) :
    (dot_S512x2000_S2000x128_S512x128_1_0_0_1_n_n.rhsIdx i q 1).val = (i 1).val := by
  unfold DotDims.rhsIdx
  rw [dif_neg (show ¬(1 : Fin S2000x128.rank) ∈ dot_S512x2000_S2000x128_S512x128_1_0_0_1_n_n.rhsBatch by decide), dif_pos (show (1 : Fin S2000x128.rank) ∈ dot_S512x2000_S2000x128_S512x128_1_0_0_1_n_n.rhsNonContracting by decide)]
  rfl

/-- The product into the zero block at `(g, j)`: the sum over the 2000 nodes of the left operand at `(g, e)` times the
    right operand at `(e, j)`. -/
theorem matmul_pool_apply (a : FVec Ideal S512x2000 .bf16) (b : FVec Ideal S2000x128 .bf16) (g : Fin 512) (j : Fin 128) :
    FloatOps.matmul dot_S512x2000_S2000x128_S512x128_1_0_0_1_n_n none a b (constant S512x128 .f32 0x00000000#32) (ix2 g j)
      = ∑ e : Fin 2000, a (ix2 g e) * b (ix2 e j) := by
  rw [Ideal.matmul_constant_zero_apply, ← Equiv.sum_comp (ValueIdx.contrEquiv1 dot_S512x2000_S2000x128_S512x128_1_0_0_1_n_n 2000 rfl rfl).symm]
  refine Finset.sum_congr rfl fun k _ => ?_
  have hk := ValueIdx.contrEquiv1_symm_val dot_S512x2000_S2000x128_S512x128_1_0_0_1_n_n 2000 rfl rfl k
  have el : dot_S512x2000_S2000x128_S512x128_1_0_0_1_n_n.lhsIdx (ix2 g j) ((ValueIdx.contrEquiv1 dot_S512x2000_S2000x128_S512x128_1_0_0_1_n_n 2000 rfl rfl).symm k) = ix2 g k := funext fun a => Fin.ext (by
    match a with
    | ⟨0, _⟩ => exact lhs_pool_0 _ _
    | ⟨1, _⟩ => exact (lhs_pool_1 _ _).trans hk)
  have er : dot_S512x2000_S2000x128_S512x128_1_0_0_1_n_n.rhsIdx (ix2 g j) ((ValueIdx.contrEquiv1 dot_S512x2000_S2000x128_S512x128_1_0_0_1_n_n 2000 rfl rfl).symm k) = ix2 k j := funext fun a => Fin.ext (by
    match a with
    | ⟨0, _⟩ => exact (rhs_pool_0 _ _).trans hk
    | ⟨1, _⟩ => exact rhs_pool_1 _ _)
  rw [el, er]

/-- The transposed 0-or-1 matrix at `(g, e)` is the matrix at `(e, g)`. -/
theorem transpose_pool_apply (m : FVec Ideal S2000x512 .bf16) (g : Fin 512) (e : Fin 2000) :
    transpose S512x2000 [1, 0] m transposes_S2000x512_p1_0_S512x2000 (ix2 g e) = m (ix2 e g) :=
  transpose_apply [1, 0] m transposes_S2000x512_p1_0_S512x2000 (ix2 g e) (ix2 e g) (fun b => match b with
    | ⟨0, _⟩ => rfl
    | ⟨1, _⟩ => rfl)

/-! ## The two payloads -/

/-- The reset payload is zero everywhere. -/
theorem pay1_apply (g : Fin 512) (j : Fin 128) : k8_pay1 (F := Ideal) (ix2 g j) = 0 := by
  unfold k8_pay1
  exact Ideal.ofBits_zero_f32

/-- The accumulating payload at `(g, j)`: the running total's entry plus the block's rows of graph `g`, summed. -/
theorem pay2_apply (x : Vec Ideal S2000x128 .f32) (gid : Vec Ideal S2000x1 .i32) (acc : Vec Ideal S512x128 .f32)
    (g : Fin 512) (j : Fin 128) :
    k8_pay2 (F := Ideal) x gid acc (ix2 g j)
      = acc (ix2 g j) + ∑ e : Fin 2000, if (gid (ix2 e 0)).toInt = (g.val : ℤ) then x (ix2 e j) else 0 := by
  unfold k8_pay2
  rw [addf_apply, shapeCast_self acc]
  refine congrArg (acc (ix2 g j) + ·) ?_
  refine (matmul_pool_apply _ _ g j).trans ?_
  refine Finset.sum_congr rfl fun e _ => ?_
  rw [transpose_pool_apply, onehot_apply, truncf_apply, shapeCast_self x]
  by_cases h : (gid (ix2 e 0)).toInt = (g.val : ℤ)
  · rw [if_pos h, if_pos h, one_mul]
  · rw [if_neg h, if_neg h, zero_mul]

end Cert.KernelIdeal.Reg8Pay

end
-- ==== Proof.Reg8.lean ====
import proofs.«428648_j88132728914134_1_alg».proof.Proof.Gen.KernelIdeal.Frame
import proofs.«428648_j88132728914134_1_alg».proof.Proof.Spec
import proofs.«428648_j88132728914134_1_alg».proof.Proof.Reg8Pay
import Idealize.ShloMosaic.Lib.Pipeline.Value
import Idealize.ShloMosaic.Lib.ValueIdx
import Idealize.ShloMosaic.Lib.ValueLayout
import Idealize.ShloMosaic.PureOps.Ideal.Laws

/-!
The per-graph sums: twenty-five blocks of 2000 nodes, each adding to one running 512 by 128 total the product of the block's graph-membership indicator, transposed, with the block's rows.

Entry `(g, j)` of the running total after block `n` is the sum, over blocks `0 … n`, of the block's rows `(e, j)` whose
graph id is `g`: the first block starts from the zero total, every later block adds its share to what the block before
left (induction on the block). Row `e` of block `t` is row `2000 t + e` of the arrays, so the twenty-five shares of 2000
rows are one sum over all 50000 rows, restricted to the rows of graph `g`. The total is written to the output array once,
after the last block, and the output's one block is the whole array.
-/

set_option maxRecDepth 16384

noncomputable section

namespace Cert.KernelIdeal.Reg8

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- What the accumulating case leaves: the block's update of the carried total. -/
theorem out_B (c : Dev nD) (i : grid8.Coords) (a1 : Memref sig .tc .vmem S2000x128 .f32) (h1 : a1.IsWhole)
    (a2 : Memref sig .tc .vmem S2000x1 .i32) (h2 : a2.IsWhole) (a3 : Memref sig .tc .vmem S512x128 .f32) (h3 : a3.IsWhole)
    (hc : ¬cond8_0 i) (x : Vec Ideal S2000x128 .f32) (gid : Vec Ideal S2000x1 .i32) (acc : Vec Ideal S512x128 .f32) :
    out8_B_2 (F := Ideal) c i a1 h1 a2 h2 a3 h3 hc x gid acc = k8_pay2 (F := Ideal) x gid acc := by
  unfold out8_B_2
  rw [View.read_writes_eq_canon _ _ _ (cover8_B_2 c i a1 h1 a2 h2 a3 h3 hc x gid acc)]
  unfold kernelRun8_B
  dsimp only
  sl_unfold_words
  rw [View.canon_unit_zero hz]
  simp only [View.readAt_eq_ld, h1.read_unread, h2.read_unread, h3.read_unread,
    View.ld_unit_zero (S := S2000x128) hz, View.ld_unit_zero (S := S2000x1) hz, View.ld_unit_zero (S := S512x128) hz]

/-- What the resetting case leaves: the block's update of the zero total. -/
theorem out_A (c : Dev nD) (i : grid8.Coords) (a1 : Memref sig .tc .vmem S2000x128 .f32) (h1 : a1.IsWhole)
    (a2 : Memref sig .tc .vmem S2000x1 .i32) (h2 : a2.IsWhole) (a3 : Memref sig .tc .vmem S512x128 .f32) (h3 : a3.IsWhole)
    (hc : cond8_0 i) (x : Vec Ideal S2000x128 .f32) (gid : Vec Ideal S2000x1 .i32) :
    out8_A_2 (F := Ideal) c i a1 h1 a2 h2 a3 h3 hc x gid = k8_pay2 (F := Ideal) x gid (k8_pay1 (F := Ideal)) := by
  unfold out8_A_2
  rw [View.read_writes_eq_canon _ _ _ (cover8_A_2 c i a1 h1 a2 h2 a3 h3 hc x gid)]
  unfold kernelRun8_A
  dsimp only
  sl_unfold_words
  rw [View.canon_cons_unit_zero (S := S512x128) hz, View.readCov_unit_zero (S := S512x128) _ hz]
  simp only [View.readAt_eq_ld, h1.read_unread, h2.read_unread,
    View.ld_unit_zero (S := S2000x128) hz, View.ld_unit_zero (S := S2000x1) hz]

/-- Block `t` of the node rows, and of the graph ids. -/
abbrev hblk (c : Dev nD) (t : Fin cfg8.N) : Vec Ideal S2000x128 .f32 := iblk8 (F := Ideal) V c 0 t
abbrev gblk (c : Dev nD) (t : Fin cfg8.N) : Vec Ideal S2000x1 .i32 := iblk8 (F := Ideal) V c 1 t

/-- Block `s`'s share of entry `(g, j)`: its rows whose graph id is `g`, summed; nothing past the last block. -/
def share (c : Dev nD) (s : ℕ) (g : Fin 512) (j : Fin 128) : EReal :=
  if hs : s < cfg8.N then
    ∑ e : Fin 2000, if (gblk V c ⟨s, hs⟩ (ix2 e 0)).toInt = (g.val : ℤ) then hblk V c ⟨s, hs⟩ (ix2 e j) else 0
  else 0

theorem share_of_lt (c : Dev nD) (s : ℕ) (hs : s < cfg8.N) (g : Fin 512) (j : Fin 128) :
    share V c s g j
      = ∑ e : Fin 2000, if (gblk V c ⟨s, hs⟩ (ix2 e 0)).toInt = (g.val : ℤ) then hblk V c ⟨s, hs⟩ (ix2 e j) else 0 :=
  dif_pos hs

/-- After block `n` the running total's entry `(g, j)` is the sum of the shares of blocks `0 … n`: the first block
    starts from zero, each later one adds its share to what the block before left. -/
theorem outsAt_eq (c : Dev nD) : ∀ (n : ℕ) (h : n < cfg8.N) (g : Fin 512) (j : Fin 128),
    outsAt8 (F := Ideal) V c n h (ix2 g j) = ∑ s ∈ Finset.range (n + 1), share V c s g j
  | 0, h, g, j => by
    rw [Finset.sum_range_one, share_of_lt V c 0 h g j]
    refine (congrFun ((outsAt8_A (F := Ideal) V c ⟨0, h⟩ rfl).trans
      (out_A c (grid8.coords ⟨0, h⟩) (ms8_0 ⟨0, h⟩) (hs8_0 ⟨0, h⟩) (ms8_1 ⟨0, h⟩) (hs8_1 ⟨0, h⟩) (ms8_2 ⟨0, h⟩) (hs8_2 ⟨0, h⟩)
        ((hcond8_0 ⟨0, h⟩).mpr rfl) (hblk V c ⟨0, h⟩) (gblk V c ⟨0, h⟩))) (ix2 g j)).trans ?_
    rw [Reg8Pay.pay2_apply, Reg8Pay.pay1_apply, zero_add]
  | n + 1, h, g, j => by
    have hN : cfg8.N = 25 := N_8
    have hB : ¬(⟨n + 1, h⟩ : Fin cfg8.N).val % 25 = 0 := by dsimp only; omega
    rw [Finset.sum_range_succ, ← outsAt_eq c n (Nat.lt_of_succ_lt h) g j, share_of_lt V c (n + 1) h g j]
    refine (congrFun ((outsAt8_B (F := Ideal) V c ⟨n + 1, h⟩ hB).trans
      (out_B c (grid8.coords ⟨n + 1, h⟩) (ms8_0 ⟨n + 1, h⟩) (hs8_0 ⟨n + 1, h⟩) (ms8_1 ⟨n + 1, h⟩) (hs8_1 ⟨n + 1, h⟩)
        (ms8_2 ⟨n + 1, h⟩) (hs8_2 ⟨n + 1, h⟩) (fun hh => hB ((hcond8_0 ⟨n + 1, h⟩).mp hh)) (hblk V c ⟨n + 1, h⟩) (gblk V c ⟨n + 1, h⟩)
        (outsAt8 (F := Ideal) V c n (Nat.lt_of_succ_lt h)))) (ix2 g j)).trans ?_
    rw [Reg8Pay.pay2_apply]

/-- The node rows and the graph ids, whole. -/
abbrev harr (c : Dev nD) : (⟨2, ![50000, 128]⟩ : Shape).Idx → EReal := V c main_v104
abbrev garr (c : Dev nD) : IVec ⟨2, ![50000, 1]⟩ 32 := V c main_v105

/-- Where the windows' blocks sit, over the grid: block `t` of the node rows and of the ids starts at row `2000 t`;
    the output's one block is the whole array at every point. -/
theorem index8_0 : ∀ t : Fin cfg8.N, win8_0.index t 0 = t.val ∧ win8_0.index t 1 = 0 :=
  (by decide +kernel : ∀ t : Fin grid8.N, win8_0.index t 0 = t.val ∧ win8_0.index t 1 = 0)
theorem index8_1 : ∀ t : Fin cfg8.N, win8_1.index t 0 = t.val ∧ win8_1.index t 1 = 0 :=
  (by decide +kernel : ∀ t : Fin grid8.N, win8_1.index t 0 = t.val ∧ win8_1.index t 1 = 0)
theorem index8_2 : ∀ t : Fin cfg8.N, win8_2.index t 0 = 0 ∧ win8_2.index t 1 = 0 :=
  (by decide +kernel : ∀ t : Fin grid8.N, win8_2.index t 0 = 0 ∧ win8_2.index t 1 = 0)

/-- Row `e` of block `t` of the node rows is row `2000 t + e` of the array. -/
theorem hblk_apply (c : Dev nD) (t : Fin cfg8.N) (e : Fin 2000) (j : Fin 128) (he : 2000 * t.val + e.val < 50000) :
    hblk V c t (ix2 e j) = harr V c (ix2 (⟨2000 * t.val + e.val, he⟩ : Fin 50000) j) := by
  unfold hblk harr iblk8
  rw [View.read_apply]
  show V c main_v104 _ = V c main_v104 _
  congr 1
  funext a
  apply Fin.ext
  match a with
  | ⟨0, _⟩ => show win8_0.index t 0 * 2000 + 1 * e.val = 2000 * t.val + e.val; rw [(index8_0 t).1]; omega
  | ⟨1, _⟩ => show win8_0.index t 1 * 128 + 1 * j.val = j.val; rw [(index8_0 t).2]; omega

/-- Row `e` of block `t` of the ids is row `2000 t + e` of the array. -/
theorem gblk_apply (c : Dev nD) (t : Fin cfg8.N) (e : Fin 2000) (he : 2000 * t.val + e.val < 50000) :
    gblk V c t (ix2 e 0) = garr V c (ix2 (⟨2000 * t.val + e.val, he⟩ : Fin 50000) (0 : Fin 1)) := by
  unfold gblk garr iblk8
  rw [View.read_apply]
  show V c main_v105 _ = V c main_v105 _
  congr 1
  funext a
  apply Fin.ext
  match a with
  | ⟨0, _⟩ => show win8_1.index t 0 * 2000 + 1 * e.val = 2000 * t.val + e.val; rw [(index8_1 t).1]; omega
  | ⟨1, _⟩ => show win8_1.index t 1 * 1 + 1 * 0 = 0; rw [(index8_1 t).2]

/-- A sum over 50000 consecutive indices, split into 25 runs of 2000. -/
theorem sum_blocks (f : Fin 50000 → EReal) :
    ∑ e : Fin 50000, f e
      = ∑ t : Fin 25, ∑ e : Fin 2000, f ⟨2000 * t.val + e.val, by have := t.isLt; have := e.isLt; omega⟩ := by
  rw [← Equiv.sum_comp (finProdFinEquiv (m := 25) (n := 2000)) f, Fintype.sum_prod_type]
  refine Finset.sum_congr rfl fun t _ => Finset.sum_congr rfl fun e _ => congrArg f (Fin.ext ?_)
  show e.val + 2000 * t.val = 2000 * t.val + e.val
  omega

/-- Block `t`'s share, read off the two arrays. -/
theorem share_eq (c : Dev nD) (t : Fin 25) (g : Fin 512) (j : Fin 128) :
    share V c t.val g j
      = ∑ e : Fin 2000,
          if (garr V c (ix2 (⟨2000 * t.val + e.val, by have := t.isLt; have := e.isLt; omega⟩ : Fin 50000) (0 : Fin 1))).toInt = (g.val : ℤ)
          then harr V c (ix2 (⟨2000 * t.val + e.val, by have := t.isLt; have := e.isLt; omega⟩ : Fin 50000) j) else 0 := by
  have ht : t.val < cfg8.N := lt_of_lt_of_eq t.isLt N_8.symm
  rw [share_of_lt V c t.val ht g j]
  refine Finset.sum_congr rfl fun e _ => ?_
  have he : 2000 * t.val + e.val < 50000 := by have := t.isLt; have := e.isLt; omega
  rw [hblk_apply V c ⟨t.val, ht⟩ e j he, gblk_apply V c ⟨t.val, ht⟩ e he]

/-- The last running total is the per-graph sum over all 50000 nodes. -/
theorem total_eq (c : Dev nD) (h : 24 < cfg8.N) :
    outsAt8 (F := Ideal) V c 24 h = Spec.poolSum 50000 512 128 (harr V c) (garr V c) := by
  funext i
  obtain ⟨g, j, rfl⟩ : ∃ (g : Fin 512) (j : Fin 128), i = ix2 g j := ⟨i 0, i 1, eq_ix2 i⟩
  rw [outsAt_eq V c 24 h g j, Finset.sum_range (fun s => share V c s g j)]
  show _ = ∑ e ∈ Finset.univ.filter (fun e : Fin 50000 => (garr V c (ix2 e 0)).toInt = (g.val : ℤ)), harr V c (ix2 e j)
  rw [Finset.sum_filter, sum_blocks]
  refine Finset.sum_congr rfl fun t _ => ?_
  rw [share_eq V c t g j]

/-- The last point. -/
theorem lt24 : 24 < cfg8.N := lt_of_lt_of_eq (by decide : 24 < 25) N_8.symm
abbrev t24 : Fin cfg8.N := ⟨24, lt24⟩

/-- The output's block starts at the array's origin. -/
theorem off8_2 : (fun a => win8_2.index t24 a * main_v106.ty.shape.size a) = fun _ => 0 :=
  funext fun a => match a with
    | ⟨0, _⟩ => by show win8_2.index t24 0 * 512 = 0; rw [(index8_2 t24).1]
    | ⟨1, _⟩ => by show win8_2.index t24 1 * 128 = 0; rw [(index8_2 t24).2]

/-- The one write-back, at the last point, writes the per-graph sum: the output's block is the whole array. -/
theorem flushed_eq (c : Dev nD) (t : Fin cfg8.N) (hf : (cfg8.win 2).flush t = true) :
    (dat8 (F := Ideal) V c).flushed 2 t
      = ((cfg8.win 2).blk t).view.read (Elt Ideal) (Spec.poolSum 50000 512 128 (harr V c) (garr V c)) := by
  have hN : cfg8.N = 25 := N_8
  have h24 : t.val = 24 := by have := (flush8_2 t).mp hf; have := t.isLt; omega
  obtain rfl : t = t24 := Fin.ext h24
  show (cfg8.win 2).cut (grid8.coords t24) ((dat8 (F := Ideal) V c).after 2 t24) = _
  rw [after8_2, total_eq]
  exact (Memref.read_access_unit_zero (Elt Ideal) main_v106 off8_2 (fun a => by rw [congrFun off8_2 a]; simp)
    (Spec.poolSum 50000 512 128 (harr V c) (garr V c))).symm

/-- What region 8 leaves in its output array, as one function of the arrays it reads. -/
theorem arr (c : Dev nD) : (dat8 (F := Ideal) V c).arrAt 2 cfg8.N = Spec.poolSum 50000 512 128 (V c main_v104) (V c main_v105) :=
  (dat8 (F := Ideal) V c).arrAt_eq_of_cover 2 (Spec.poolSum 50000 512 128 (harr V c) (garr V c)) (flushed_eq V c) fun i =>
    ⟨t24, (flush8_2 t24).mpr rfl, by
      show i ∈ ((View.whole main_v106).slice (win8_2.rect t24)).set
      rw [View.set_slice_whole, Rect.mem_set_unit]
      intro a
      match a with
      | ⟨0, _⟩ =>
        have h0 : (i 0 : Nat) < 512 := (i 0).isLt
        show win8_2.index t24 0 * 512 ≤ (i 0 : Nat) ∧ (i 0 : Nat) < win8_2.index t24 0 * 512 + 512
        rw [(index8_2 t24).1]; omega
      | ⟨1, _⟩ =>
        have h1 : (i 1 : Nat) < 128 := (i 1).isLt
        show win8_2.index t24 1 * 128 ≤ (i 1 : Nat) ∧ (i 1 : Nat) < win8_2.index t24 1 * 128 + 128
        rw [(index8_2 t24).2]; omega⟩

end Cert.KernelIdeal.Reg8

end
-- ==== Proof.Reg9.lean ====
import proofs.«428648_j88132728914134_1_alg».proof.Proof.Gen.KernelIdeal.Frame
import proofs.«428648_j88132728914134_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The readout's matrix product, one block: the 512 pooled rows times the 128 x 10 readout weights.

Entry (r, j) of the block's product is the sum over k of the block's entry (r, k) times the weights' entry (k, j): the
cast to the same shape and the narrowing casts are the identity on extended reals and the accumulator is zero. The one
block is the whole array on each side, so that entry is entry (r, j) of the whole product and the block covers the array.
-/

set_option maxRecDepth 16384

noncomputable section

namespace Cert.KernelIdeal.Reg9

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The product's left operand is read at the output's row: axis 0 of the left index is the output's axis 0. -/
theorem lhs_axis0 (i : S512x10.Idx) (q : dot_S512x128_S128x10_S512x10_1_0_0_1_n_n.contr.Idx) :
    (dot_S512x128_S128x10_S512x10_1_0_0_1_n_n.lhsIdx i q 0).val = (i 0).val := by
  unfold DotDims.lhsIdx
  rw [dif_neg (show ¬(0 : Fin S512x128.rank) ∈ dot_S512x128_S128x10_S512x10_1_0_0_1_n_n.lhsBatch by decide), dif_pos (show (0 : Fin S512x128.rank) ∈ dot_S512x128_S128x10_S512x10_1_0_0_1_n_n.lhsNonContracting by decide)]
  rfl
/-- Axis 1 of the left index is the contraction coordinate. -/
theorem lhs_axis1 (i : S512x10.Idx) (q : dot_S512x128_S128x10_S512x10_1_0_0_1_n_n.contr.Idx) :
    (dot_S512x128_S128x10_S512x10_1_0_0_1_n_n.lhsIdx i q 1).val = (q ⟨0, by decide⟩).val :=
  dot_S512x128_S128x10_S512x10_1_0_0_1_n_n.lhsIdx_val_of_single rfl i q
/-- Axis 0 of the right index is the contraction coordinate. -/
theorem rhs_axis0 (i : S512x10.Idx) (q : dot_S512x128_S128x10_S512x10_1_0_0_1_n_n.contr.Idx) :
    (dot_S512x128_S128x10_S512x10_1_0_0_1_n_n.rhsIdx i q 0).val = (q ⟨0, by decide⟩).val :=
  dot_S512x128_S128x10_S512x10_1_0_0_1_n_n.rhsIdx_val_of_single rfl i q
/-- Axis 1 of the right index is the output's column. -/
theorem rhs_axis1 (i : S512x10.Idx) (q : dot_S512x128_S128x10_S512x10_1_0_0_1_n_n.contr.Idx) :
    (dot_S512x128_S128x10_S512x10_1_0_0_1_n_n.rhsIdx i q 1).val = (i 1).val := by
  unfold DotDims.rhsIdx
  rw [dif_neg (show ¬(1 : Fin S128x10.rank) ∈ dot_S512x128_S128x10_S512x10_1_0_0_1_n_n.rhsBatch by decide), dif_pos (show (1 : Fin S128x10.rank) ∈ dot_S512x128_S128x10_S512x10_1_0_0_1_n_n.rhsNonContracting by decide)]
  rfl

/-- The body's payload at an index: entry (r, j) of the block's product is the sum over k of x (r, k) * w (k, j);
    the cast to the same shape and the narrowing casts are the identity on extended reals and the accumulator is zero. -/
theorem pay_apply (x : Vec Ideal S512x128 .f32) (w : Vec Ideal S128x10 .f32) (r : Fin 512) (j : Fin 10) :
    k9_pay1 (F := Ideal) x w (ix2 r j) = ∑ k : Fin 128, x (ix2 r k) * w (ix2 k j) := by
  unfold k9_pay1
  simp only [matmul, shapeCast_self]
  rw [Ideal.matmul_constant_zero_apply, ← Equiv.sum_comp (ValueIdx.contrEquiv1 dot_S512x128_S128x10_S512x10_1_0_0_1_n_n 128 rfl rfl).symm]
  refine Finset.sum_congr rfl fun k _ => ?_
  have hk := ValueIdx.contrEquiv1_symm_val dot_S512x128_S128x10_S512x10_1_0_0_1_n_n 128 rfl rfl k
  have el : dot_S512x128_S128x10_S512x10_1_0_0_1_n_n.lhsIdx (ix2 r j) ((ValueIdx.contrEquiv1 dot_S512x128_S128x10_S512x10_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S512x128_S128x10_S512x10_1_0_0_1_n_n.rhsIdx (ix2 r j) ((ValueIdx.contrEquiv1 dot_S512x128_S128x10_S512x10_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]
  rfl

variable (V : (c : Dev nD) → (b : Ref sig .tc) → Buf (Elt Ideal) ((c : Thread nD τ).loc b))

/-- The zero offsets of a whole-buffer access, as a constant function. -/
theorem zero_off : (![0, 0] : Fin 2 → Nat) = fun _ => 0 := funext fun a => by fin_cases a <;> rfl

/-- The index maps over the grid: every window is at block (0, 0) at the one point. -/
theorem idx_facts : ∀ t : Fin cfg9.N, win9_0.index t (0 : Fin 2) = 0
    ∧ win9_0.index t (1 : Fin 2) = 0
    ∧ win9_1.index t (0 : Fin 2) = 0
    ∧ win9_1.index t (1 : Fin 2) = 0
    ∧ win9_2.index t (0 : Fin 2) = 0
    ∧ win9_2.index t (1 : Fin 2) = 0 :=
  (by decide +kernel : ∀ t : Fin grid9.N, _)

/-- What point t writes back is block t of the product of the two arrays the region reads. -/
theorem flushed_eq (c : Dev nD) (t : Fin cfg9.N) :
    (dat9 (F := Ideal) V c).flushed 2 t
      = ((cfg9.win 2).blk t).view.read (Elt Ideal) (Spec.mm 512 128 10 (V c main_v115) (V c main_arg7)) := by
  show (cfg9.win 2).cut (grid9.coords t) ((dat9 V c).after 2 t) = _
  rw [after9_2]
  unfold out9_2
  rw [View.canon_unit_zero zero_off]
  simp only [View.ld_unit_zero (S := S512x128) zero_off, View.ld_unit_zero (S := S128x10) zero_off]
  obtain ⟨e00, e01, e10, e11, e20, e21⟩ := idx_facts t
  funext y
  obtain ⟨r, j, rfl⟩ : ∃ (r : Fin 512) (j : Fin 10), y = ix2 r j := ⟨y 0, y 1, eq_ix2 (n0 := 512) (n1 := 10) y⟩
  refine (pay_apply (iblk9 V c 0 t) (iblk9 V c 1 t) r j).trans ?_
  show _ = Spec.mm 512 128 10 (V c main_v115) (V c main_arg7) (((cfg9.win 2).blk t).view.emb (ix2 r j))
  dsimp only [Spec.mm]
  refine Finset.sum_congr rfl fun k _ => ?_
  have hl : iblk9 V c 0 t (ix2 r k)
      = V c main_v115 (ix2 ((((cfg9.win 2).blk t).view.emb (ix2 r j)) 0) k) := by
    unfold iblk9
    show V c main_v115 (((cfg9.win 0).blk t).view.emb (ix2 r k)) = _
    refine congrArg (V c main_v115) (funext fun a => Fin.ext ?_)
    match a with
    | ⟨0, _⟩ => show win9_0.index t (0 : Fin 2) * 512 + 1 * r.val = win9_2.index t (0 : Fin 2) * 512 + 1 * r.val; omega
    | ⟨1, _⟩ => show win9_0.index t (1 : Fin 2) * 128 + 1 * k.val = k.val; omega
  have hr : iblk9 V c 1 t (ix2 k j)
      = V c main_arg7 (ix2 k ((((cfg9.win 2).blk t).view.emb (ix2 r j)) 1)) := by
    unfold iblk9
    show V c main_arg7 (((cfg9.win 1).blk t).view.emb (ix2 k j)) = _
    refine congrArg (V c main_arg7) (funext fun a => Fin.ext ?_)
    match a with
    | ⟨0, _⟩ => show win9_1.index t (0 : Fin 2) * 128 + 1 * k.val = k.val; omega
    | ⟨1, _⟩ => show win9_1.index t (1 : Fin 2) * 10 + 1 * j.val = win9_2.index t (1 : Fin 2) * 10 + 1 * j.val; omega
  rw [hl, hr]

/-- An index of the array is in point t's block iff each coordinate is in the block's range on its axis. -/
theorem mem_blk (t : Fin cfg9.N) (i : S512x10.Idx) :
    i ∈ ((cfg9.win 2).blk t).view.set ↔ ∀ a : Fin 2, win9_2.index t a * S512x10.size a ≤ (i a).val ∧ (i a).val < win9_2.index t a * S512x10.size a + S512x10.size a := by
  show i ∈ ((View.whole main_v116).slice (win9_2.rect t)).set ↔ _
  rw [View.set_slice_whole, Rect.mem_set_unit]
  exact Iff.rfl

/-- Every index of the array is in the one point's block. -/
theorem cover (i : S512x10.Idx) :
    ∃ t : Fin cfg9.N, (cfg9.win 2).flush t = true ∧ i ∈ ((cfg9.win 2).blk t).view.set := by
  have hi0 : (i 0).val < 512 := (i 0).isLt
  have hi1 : (i 1).val < 10 := (i 1).isLt
  obtain ⟨e00, e01, e10, e11, e20, e21⟩ := idx_facts t9_0
  refine ⟨t9_0, flush9_2 t9_0, ?_⟩
  rw [mem_blk]
  intro a
  match a with
  | ⟨0, _⟩ => show win9_2.index t9_0 (0 : Fin 2) * 512 ≤ (i 0).val ∧ (i 0).val < win9_2.index t9_0 (0 : Fin 2) * 512 + 512; omega
  | ⟨1, _⟩ => show win9_2.index t9_0 (1 : Fin 2) * 10 ≤ (i 1).val ∧ (i 1).val < win9_2.index t9_0 (1 : Fin 2) * 10 + 10; omega

/-- What region 9 leaves in its output array, as one function of the arrays it reads. -/
theorem arr (c : Dev nD) : (dat9 (F := Ideal) V c).arrAt 2 cfg9.N = Spec.mm 512 128 10 (V c main_v115) (V c main_arg7) :=
  (dat9 (F := Ideal) V c).arrAt_eq_of_cover 2 _ (fun t _ => flushed_eq V c t) cover

end Cert.KernelIdeal.Reg9

end
-- ==== Proof.Reg10.lean ====
import proofs.«428648_j88132728914134_1_alg».proof.Proof.Gen.KernelIdeal.Frame
import proofs.«428648_j88132728914134_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The readout's bias, one block.
-/

set_option maxRecDepth 16384

noncomputable section

namespace Cert.KernelIdeal.Reg10

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The all-zero offsets of a whole-buffer access, spelt as a constant function. -/
theorem offsets_zero : (![0, 0] : Fin 2 → Nat) = fun _ => 0 := funext fun a => by fin_cases a <;> rfl

/-- The stored value at row `r`, lane `j`: the block's entry plus the bias row's lane. -/
theorem pay_apply (x : Vec Ideal S512x10 .f32) (b : Vec Ideal S1x10 .f32) (r : Fin 512) (j : Fin 10) :
    k10_pay1 (F := Ideal) x b (ix2 r j) = x (ix2 r j) + b (ix2 0 j) := by
  unfold k10_pay1
  refine (addf_apply _ _ (ix2 r j)).trans ?_
  rw [shapeCast_self x, shapeCast_self b]
  exact congrArg (x (ix2 r j) + ·) (broadcastTo_1b_ab_apply b broadcasts_S1x10_S512x10 r j)

/-- The printed index maps over the one grid point: the first input's block moves with the output's, the bias
    row's block stays at the origin, and the output's block at point `t` is block `t` of the rows. -/
theorem idx_facts : ∀ t : Fin cfg10.N,
    win10_0.index t (0 : Fin 2) = win10_2.index t (0 : Fin 2)
    ∧ win10_0.index t (1 : Fin 2) = win10_2.index t (1 : Fin 2)
    ∧ win10_1.index t (0 : Fin 2) = 0
    ∧ win10_1.index t (1 : Fin 2) = 0
    ∧ win10_2.index t (0 : Fin 2) = t.val
    ∧ win10_2.index t (1 : Fin 2) = 0 :=
  (by decide +kernel : ∀ t : Fin grid10.N, _)

/-- What point `t` writes back is block `t` of the bias row added to the array the region reads. -/
theorem flushed_eq (c : Dev nD) (t : Fin cfg10.N) :
    (dat10 (F := Ideal) V c).flushed 2 t
      = ((cfg10.win 2).blk t).view.read (Elt Ideal) (Spec.biasAdd 512 10 (V c main_v116) (V c main_v117)) := by
  show (cfg10.win 2).cut (grid10.coords t) ((dat10 V c).after 2 t) = _
  rw [after10_2]
  unfold out10_2
  rw [View.canon_unit_zero offsets_zero]
  simp only [View.ld_unit_zero (S := S512x10) offsets_zero, View.ld_unit_zero (S := S1x10) offsets_zero]
  funext y
  obtain ⟨r, j, rfl⟩ : ∃ (r : Fin 512) (j : Fin 10), y = ix2 r j := ⟨y 0, y 1, eq_ix2 y⟩
  refine (pay_apply _ _ r j).trans ?_
  obtain ⟨e0, e1, e2, e3, e4, e5⟩ := idx_facts t
  -- row `r`, lane `j` of the first input's block is the array's entry under the output's block there
  have h0 : ((cfg10.win 0).blk t).view.emb (ix2 r j) = ((cfg10.win 2).blk t).view.emb (ix2 r j) := by
    funext a; apply Fin.ext
    match a with
    | ⟨0, _⟩ => show win10_0.index t (0 : Fin 2) * 512 + 1 * r.val = win10_2.index t (0 : Fin 2) * 512 + 1 * r.val; omega
    | ⟨1, _⟩ => show win10_0.index t (1 : Fin 2) * 10 + 1 * j.val = win10_2.index t (1 : Fin 2) * 10 + 1 * j.val; omega
  -- lane `j` of the bias row's block is the bias row's entry at that entry's lane
  have h1 : ((cfg10.win 1).blk t).view.emb (ix2 0 j) = ix2 0 ((((cfg10.win 2).blk t).view.emb (ix2 r j)) 1) := by
    funext a; apply Fin.ext
    match a with
    | ⟨0, _⟩ => show win10_1.index t (0 : Fin 2) * 1 + 1 * 0 = 0; omega
    | ⟨1, _⟩ => show win10_1.index t (1 : Fin 2) * 10 + 1 * j.val = win10_2.index t (1 : Fin 2) * 10 + 1 * j.val; omega
  have hx : iblk10 V c 0 t (ix2 r j) = V c main_v116 (((cfg10.win 2).blk t).view.emb (ix2 r j)) :=
    congrArg (V c main_v116) h0
  have hb : iblk10 V c 1 t (ix2 0 j) = V c main_v117 (ix2 0 ((((cfg10.win 2).blk t).view.emb (ix2 r j)) 1)) :=
    congrArg (V c main_v117) h1
  exact congrArg₂ (fun u v : EReal => u + v) hx hb

/-- An index of the output array lies in point `t`'s block iff, on each axis, its coordinate lies in the block's range. -/
theorem mem_blk (t : Fin cfg10.N) (i : S512x10.Idx) :
    i ∈ ((cfg10.win 2).blk t).view.set ↔ ∀ a : Fin 2, win10_2.index t a * S512x10.size a ≤ (i a).val
      ∧ (i a).val < win10_2.index t a * S512x10.size a + S512x10.size a := by
  show i ∈ ((View.whole main_v118).slice (win10_2.rect t)).set ↔ _
  rw [View.set_slice_whole, Rect.mem_set_unit]
  exact Iff.rfl

/-- Every index of the output array lies in some point's block: row `r` in the block of point `r / 512`, here always point 0. -/
theorem cover (i : S512x10.Idx) :
    ∃ t : Fin cfg10.N, (cfg10.win 2).flush t = true ∧ i ∈ ((cfg10.win 2).blk t).view.set := by
  have hi0 : (i 0).val < 512 := (i 0).isLt
  have hi1 : (i 1).val < 10 := (i 1).isLt
  have hN : cfg10.N = 1 := N_10
  obtain ⟨t, ht⟩ : ∃ t : Fin cfg10.N, t.val = (i 0).val / 512 := ⟨⟨(i 0).val / 512, by omega⟩, rfl⟩
  obtain ⟨e0, e1, e2, e3, e4, e5⟩ := idx_facts t
  refine ⟨t, flush10_2 t, ?_⟩
  rw [mem_blk]
  intro a
  match a with
  | ⟨0, _⟩ =>
    show win10_2.index t (0 : Fin 2) * 512 ≤ (i 0).val ∧ (i 0).val < win10_2.index t (0 : Fin 2) * 512 + 512
    omega
  | ⟨1, _⟩ =>
    show win10_2.index t (1 : Fin 2) * 10 ≤ (i 1).val ∧ (i 1).val < win10_2.index t (1 : Fin 2) * 10 + 10
    omega

/-- What region 10 leaves in its output array, as one function of the arrays it reads. -/
theorem arr (c : Dev nD) : (dat10 (F := Ideal) V c).arrAt 2 cfg10.N = Spec.biasAdd 512 10 (V c main_v116) (V c main_v117) := by
  exact (dat10 V c).arrAt_eq_of_cover 2 _ (fun t _ => flushed_eq V c t) cover

end Cert.KernelIdeal.Reg10

end
-- ==== Proof.RefSpec.lean ====
import proofs.«428648_j88132728914134_1_alg».proof.Proof.Gen.ReferenceIdeal.Read
import proofs.«428648_j88132728914134_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The reference's dense stages as the specification's functions.

Each stage of the reference that is not part of the shared edge mixing is, over the extended reals, one of the
specification's functions of the stages it reads: a matrix product, or a bias row added (and clipped).
-/

set_option maxRecDepth 16384

noncomputable section

namespace Cert.ReferenceIdeal.RefSpec

open Cert.ReferenceIdeal Cert.ReferenceIdeal.Read
open Idealize.ShloMosaic Idealize.ShloMosaic.TcCoe Idealize.ShloMosaic.ValueIdx

variable (x0 : Vec Ideal S50000x128 .f32) (x1 : Vec Ideal S2x640000 .i32) (x2 : Vec Ideal S50000 .i32)
  (x3 : Vec Ideal S128x128 .f32) (x4 : Vec Ideal S128 .f32) (x5 : Vec Ideal S3x128x128 .f32)
  (x6 : Vec Ideal S3x128 .f32) (x7 : Vec Ideal S128x10 .f32) (x8 : Vec Ideal S10 .f32)

theorem r_v29 : val_main_v29 (F := Ideal) x0 x3 = Spec.mm 50000 128 128 x0 x3 := by
  funext i
  rw [val_main_v29_apply]
  unfold Spec.mm
  refine Finset.sum_congr rfl fun k _ => ?_
  have el : lidx_main_v29 i k = ix2 (i 0) k :=
    funext fun a => Fin.ext (by match a with | ⟨0, _⟩ => rfl | ⟨1, _⟩ => rfl)
  have er : ridx_main_v29 i k = ix2 k (i 1) :=
    funext fun a => Fin.ext (by match a with | ⟨0, _⟩ => rfl | ⟨1, _⟩ => rfl)
  rw [el, er]
  rfl

theorem r_v46 : val_main_v46 (F := Ideal) x0 x1 x3 x4 = Spec.biasRelu 50000 128 (val_main_v42 (F := Ideal) x0 x1 x3) (Spec.row 128 x4) := by
  funext i
  rw [val_main_v46_apply, val_main_v45_apply, val_main_v44_apply, val_main_v43_apply, val_main_call0_v0_apply, val_main_call0_cst_apply]
  have eb : idx_main_v43 (idx_main_v44 i) = ix1 ((ix2 (0 : Fin 1) (i 1) : (⟨2, ![1, 128]⟩ : Shape).Idx) 1) :=
    funext fun a => Fin.ext (by match a with | ⟨0, _⟩ => rfl)
  simp only [Ideal.maximumf_def, Ideal.addf_def, Ideal.ofBits_def, Ideal.ofBits_zero_f32]
  unfold Spec.biasRelu Spec.row
  rw [eb]
  rfl

theorem r_v51 : val_main_v51 (F := Ideal) x0 x1 x3 x4 x5 = Spec.mm 50000 128 128 (val_main_v46 (F := Ideal) x0 x1 x3 x4) (val_main_v48 (F := Ideal) x5) := by
  funext i
  rw [val_main_v51_apply]
  unfold Spec.mm
  refine Finset.sum_congr rfl fun k _ => ?_
  have el : lidx_main_v51 i k = ix2 (i 0) k :=
    funext fun a => Fin.ext (by match a with | ⟨0, _⟩ => rfl | ⟨1, _⟩ => rfl)
  have er : ridx_main_v51 i k = ix2 k (i 1) :=
    funext fun a => Fin.ext (by match a with | ⟨0, _⟩ => rfl | ⟨1, _⟩ => rfl)
  rw [el, er]
  rfl

theorem r_v68 : val_main_v68 (F := Ideal) x0 x1 x3 x4 x5 x6 = Spec.biasRelu 50000 128 (val_main_v64 (F := Ideal) x0 x1 x3 x4 x5) (Spec.row 128 (val_main_v50 (F := Ideal) x6)) := by
  funext i
  rw [val_main_v68_apply, val_main_v67_apply, val_main_v66_apply, val_main_v65_apply, val_main_call1_v0_apply, val_main_call1_cst_apply]
  have eb : idx_main_v65 (idx_main_v66 i) = ix1 ((ix2 (0 : Fin 1) (i 1) : (⟨2, ![1, 128]⟩ : Shape).Idx) 1) :=
    funext fun a => Fin.ext (by match a with | ⟨0, _⟩ => rfl)
  simp only [Ideal.maximumf_def, Ideal.addf_def, Ideal.ofBits_def, Ideal.ofBits_zero_f32]
  unfold Spec.biasRelu Spec.row
  rw [eb]
  rfl

theorem r_v73 : val_main_v73 (F := Ideal) x0 x1 x3 x4 x5 x6 = Spec.mm 50000 128 128 (val_main_v68 (F := Ideal) x0 x1 x3 x4 x5 x6) (val_main_v70 (F := Ideal) x5) := by
  funext i
  rw [val_main_v73_apply]
  unfold Spec.mm
  refine Finset.sum_congr rfl fun k _ => ?_
  have el : lidx_main_v73 i k = ix2 (i 0) k :=
    funext fun a => Fin.ext (by match a with | ⟨0, _⟩ => rfl | ⟨1, _⟩ => rfl)
  have er : ridx_main_v73 i k = ix2 k (i 1) :=
    funext fun a => Fin.ext (by match a with | ⟨0, _⟩ => rfl | ⟨1, _⟩ => rfl)
  rw [el, er]
  rfl

theorem r_v90 : val_main_v90 (F := Ideal) x0 x1 x3 x4 x5 x6 = Spec.biasRelu 50000 128 (val_main_v86 (F := Ideal) x0 x1 x3 x4 x5 x6) (Spec.row 128 (val_main_v72 (F := Ideal) x6)) := by
  funext i
  rw [val_main_v90_apply, val_main_v89_apply, val_main_v88_apply, val_main_v87_apply, val_main_call2_v0_apply, val_main_call2_cst_apply]
  have eb : idx_main_v87 (idx_main_v88 i) = ix1 ((ix2 (0 : Fin 1) (i 1) : (⟨2, ![1, 128]⟩ : Shape).Idx) 1) :=
    funext fun a => Fin.ext (by match a with | ⟨0, _⟩ => rfl)
  simp only [Ideal.maximumf_def, Ideal.addf_def, Ideal.ofBits_def, Ideal.ofBits_zero_f32]
  unfold Spec.biasRelu Spec.row
  rw [eb]
  rfl

theorem r_v95 : val_main_v95 (F := Ideal) x0 x1 x3 x4 x5 x6 = Spec.mm 50000 128 128 (val_main_v90 (F := Ideal) x0 x1 x3 x4 x5 x6) (val_main_v92 (F := Ideal) x5) := by
  funext i
  rw [val_main_v95_apply]
  unfold Spec.mm
  refine Finset.sum_congr rfl fun k _ => ?_
  have el : lidx_main_v95 i k = ix2 (i 0) k :=
    funext fun a => Fin.ext (by match a with | ⟨0, _⟩ => rfl | ⟨1, _⟩ => rfl)
  have er : ridx_main_v95 i k = ix2 k (i 1) :=
    funext fun a => Fin.ext (by match a with | ⟨0, _⟩ => rfl | ⟨1, _⟩ => rfl)
  rw [el, er]
  rfl

theorem r_v111 : val_main_v111 (F := Ideal) x0 x1 x3 x4 x5 x6 = Spec.biasAdd 50000 128 (val_main_v108 (F := Ideal) x0 x1 x3 x4 x5 x6) (Spec.row 128 (val_main_v94 (F := Ideal) x6)) := by
  funext i
  rw [val_main_v111_apply, val_main_v110_apply, val_main_v109_apply]
  have eb : idx_main_v109 (idx_main_v110 i) = ix1 ((ix2 (0 : Fin 1) (i 1) : (⟨2, ![1, 128]⟩ : Shape).Idx) 1) :=
    funext fun a => Fin.ext (by match a with | ⟨0, _⟩ => rfl)
  simp only [Ideal.addf_def]
  unfold Spec.biasAdd Spec.row
  rw [eb]
  rfl

theorem r_v124 : val_main_v124 (F := Ideal) x0 x1 x2 x3 x4 x5 x6 x7 = Spec.mm 512 128 10 (val_main_v123 (F := Ideal) x0 x1 x2 x3 x4 x5 x6) x7 := by
  funext i
  rw [val_main_v124_apply]
  unfold Spec.mm
  refine Finset.sum_congr rfl fun k _ => ?_
  have el : lidx_main_v124 i k = ix2 (i 0) k :=
    funext fun a => Fin.ext (by match a with | ⟨0, _⟩ => rfl | ⟨1, _⟩ => rfl)
  have er : ridx_main_v124 i k = ix2 k (i 1) :=
    funext fun a => Fin.ext (by match a with | ⟨0, _⟩ => rfl | ⟨1, _⟩ => rfl)
  rw [el, er]
  rfl

theorem r_v127 : val_main_v127 (F := Ideal) x0 x1 x2 x3 x4 x5 x6 x7 x8 = Spec.biasAdd 512 10 (val_main_v124 (F := Ideal) x0 x1 x2 x3 x4 x5 x6 x7) (Spec.row 10 x8) := by
  funext i
  rw [val_main_v127_apply, val_main_v126_apply, val_main_v125_apply]
  have eb : idx_main_v125 (idx_main_v126 i) = ix1 ((ix2 (0 : Fin 1) (i 1) : (⟨2, ![1, 10]⟩ : Shape).Idx) 1) :=
    funext fun a => Fin.ext (by match a with | ⟨0, _⟩ => rfl)
  simp only [Ideal.addf_def]
  unfold Spec.biasAdd Spec.row
  rw [eb]
  rfl

end Cert.ReferenceIdeal.RefSpec

end
-- ==== Proof.LibIndexOps.lean ====
import Idealize.ShloMosaic.PureOps.Ideal
import Idealize.ShloMosaic.Lib.ValueIdx
import Idealize.ShloMosaic.Lib.StableHlo.Predicate

/-!
Row gathers and accumulating scatters read at an index.

`x[idx]` on a matrix gathers whole rows: row `e` of the result is the operand's row at the start index word of
position `e`, read signed and clamped into the row range. An accumulating scatter of rows (or of scalars) by an index
vector adds, at each operand element, every update whose index word, read signed, is that element's row; an update
whose word is outside the row range is dropped. At the extended reals the accumulation is the exact sum.
-/

noncomputable section

namespace Idealize.ShloMosaic.IndexOps

open Idealize.ShloMosaic Idealize.ShloMosaic.ValueIdx

/-- An element of a one-element list, at any valid position, is that element. -/
private theorem getElem_of_eq_singleton {β : Type} (l : List β) (a : β) (hl : l = [a]) (i : Nat) (h : i < l.length) :
    l[i] = a := by
  subst hl
  have h0 : i = 0 := by simpa using h
  subst h0
  rfl

/-- A row gather read at `(e, k)`: the operand's row at position `e`'s start index, read signed and clamped into
    `[0, N − 1]`, at column `k`. -/
theorem gather_rows_apply {α : Type} {N C n w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![n, 1]⟩ w) (e : Fin n) (k : Fin C) :
    Host.gather d x idx (ix2 e k) = x (ix2 ⟨min (idx (ix2 e 0)).toInt.toNat (N - 1), by omega⟩ k) := by
  unfold Host.gather
  congr 1
  funext a
  have hb : ∀ a : Fin 2, a ∉ d.operandBatchingDims := by intro a; rw [hob]; exact List.not_mem_nil
  match a with
  | ⟨0, _⟩ =>
    -- the row axis: collapsed and start-indexed, so the coordinate is the clamped start alone
    apply Fin.ext
    show d.start (ix2 e k) idx 0 + d.batchCoord (ix2 e k) 0 + d.offCoord (ix2 e k) 0 = min (idx (ix2 e 0)).toInt.toNat (N - 1)
    have hk : (0 : Fin 2) ∉ d.sKept := by rw [GatherDims.mem_sKept, hcoll]; simp
    have hm : (0 : Fin 2) ∈ d.startIndexMap := by rw [hsim]; exact List.mem_singleton.mpr rfl
    rw [d.batchCoord_eq_zero _ _ (hb 0), d.offCoord_eq_zero _ _ hk]
    simp only [Nat.add_zero]
    unfold GatherDims.start
    rw [dif_pos hm]
    have hsl : d.sliceSizes 0 = 1 := by rw [hss]; rfl
    have hbd : d.batchDims = [0] := by
      show (⟨2, ![n, C]⟩ : Shape).kept d.offsetDims = [0]
      rw [hoff]; rfl
    have hsi : d.siIdx (ix2 e k) ⟨d.startIndexMap.idxOf 0, List.idxOf_lt_length_iff.2 hm⟩ = ix2 e 0 := by
      funext b
      match b with
      | ⟨0, _⟩ =>
        -- the result's one batch axis is axis 0, and it reads the start indices' axis 0
        unfold GatherDims.siIdx
        rw [dif_neg (by rw [hivd]; simp)]
        unfold GatherDims.siCoord
        apply Fin.ext
        simp only [Fin.val_cast]
        have key : ∀ X : Fin 2, X = 0 → ((ix2 e k : (⟨2, ![n, C]⟩ : Shape).Idx) X).val = e.val := by
          intro X hX; subst hX; rfl
        exact key _ (getElem_of_eq_singleton _ _ hbd _ _)
      | ⟨1, _⟩ =>
        unfold GatherDims.siIdx
        rw [dif_pos (by rw [hivd])]
        apply Fin.ext
        show List.idxOf (0 : Fin 2) d.startIndexMap = 0
        rw [hsim]; simp
    rw [hsi, hsl]
    rfl
  | ⟨1, _⟩ =>
    -- the column axis: kept whole, so the coordinate is the result's coordinate on its one offset axis
    apply Fin.ext
    show d.start (ix2 e k) idx 1 + d.batchCoord (ix2 e k) 1 + d.offCoord (ix2 e k) 1 = k.val
    have hm : (1 : Fin 2) ∉ d.startIndexMap := by rw [hsim]; simp
    have hk : (1 : Fin 2) ∈ d.sKept := by rw [GatherDims.mem_sKept, hcoll, hob]; simp
    rw [d.batchCoord_eq_zero _ _ (hb 1)]
    unfold GatherDims.start
    rw [dif_neg hm]
    unfold GatherDims.offCoord
    rw [dif_pos hk]
    simp only [Nat.add_zero, Nat.zero_add]
    have key : ∀ X : Fin 2, X = 1 → ((ix2 e k : (⟨2, ![n, C]⟩ : Shape).Idx) X).val = k.val := by
      intro X hX; subst hX; rfl
    exact key _ (getElem_of_eq_singleton _ _ hoff _ _)

/-- A gather of scalars out of a vector read at `e` (the library's `Predicate.gather_take`, at `ix1` / `ix2`). -/
theorem gather_vec_apply {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1) (hN : 0 < N)
    (x : (⟨1, ![N]⟩ : Shape).Idx → α) (idx : IVec ⟨2, ![n, 1]⟩ w) (e : Fin n) :
    Host.gather d x idx (ix1 e) = x (ix1 ⟨min (idx (ix2 e 0)).toInt.toNat (N - 1), by omega⟩) := by
  have h1 : ∀ {m : Nat} (p : Fin m), (ix1 p : (⟨1, ![m]⟩ : Shape).Idx) = Shape.Idx.ofFin p := by
    intro m p; funext a
    obtain rfl : a = 0 := Subsingleton.elim _ _
    exact Fin.ext rfl
  have h2 : (ix2 e (0 : Fin 1) : (⟨2, ![n, 1]⟩ : Shape).Idx) = StableHlo.Predicate.ixP e := by
    funext a
    match a with
    | ⟨0, _⟩ => rfl
    | ⟨1, _⟩ => rfl
  rw [h1, h1]
  refine (StableHlo.Predicate.gather_take d hcoll hob hsim hivd x idx e hN).trans
    (congrArg x (congrArg Shape.Idx.ofFin (Fin.ext ?_)))
  show min (idx (StableHlo.Predicate.ixP e)).toInt.toNat (N - 1) = min (idx (ix2 e 0)).toInt.toNat (N - 1)
  rw [h2]

section Rows
variable {N C n w : Nat} (d : ScatterDims ⟨2, ![N, C]⟩ ⟨2, ![n, 1]⟩ ⟨2, ![n, C]⟩)

/-- With one index component per position, update `(e, k')` reads its start index at `(e, 0)`. -/
private theorem rows_siIdx (huw : d.updateWindowDims = [1]) (hivd : d.indexVectorDim = 1)
    (e : Fin n) (k' : Fin C) (c : Fin d.scatterDimsToOperandDims.length) (hc : c.val = 0) :
    d.siIdx (ix2 e k') c = ix2 e 0 := by
  have hus : d.uScatter = [0] := by
    show (⟨2, ![n, C]⟩ : Shape).kept d.updateWindowDims = [0]
    rw [huw]; rfl
  funext b
  match b with
  | ⟨0, _⟩ =>
    unfold ScatterDims.siIdx
    rw [dif_neg (by rw [hivd]; simp)]
    unfold ScatterDims.siCoord
    apply Fin.ext
    simp only [Fin.val_cast]
    have key : ∀ X : Fin 2, X = 0 → ((ix2 e k' : (⟨2, ![n, C]⟩ : Shape).Idx) X).val = e.val := by
      intro X hX; subst hX; rfl
    exact key _ (getElem_of_eq_singleton _ _ hus _ _)
  | ⟨1, _⟩ =>
    unfold ScatterDims.siIdx
    rw [dif_pos (by rw [hivd])]
    apply Fin.ext
    exact hc

/-- The start on the row axis is position `e`'s index word read signed. -/
private theorem rows_start0 (huw : d.updateWindowDims = [1]) (hsd : d.scatterDimsToOperandDims = [0])
    (hivd : d.indexVectorDim = 1) (idx : IVec ⟨2, ![n, 1]⟩ w) (e : Fin n) (k' : Fin C) :
    d.start (ix2 e k') idx 0 = (idx (ix2 e 0)).toInt := by
  have hm : (0 : Fin 2) ∈ d.scatterDimsToOperandDims := by rw [hsd]; exact List.mem_singleton.mpr rfl
  unfold ScatterDims.start
  rw [dif_pos hm, rows_siIdx d huw hivd e k' _ (by show List.idxOf (0 : Fin 2) d.scatterDimsToOperandDims = 0; rw [hsd]; simp)]

/-- The start on the column axis, which the map does not name, is zero. -/
private theorem rows_start1 (hsd : d.scatterDimsToOperandDims = [0]) (idx : IVec ⟨2, ![n, 1]⟩ w)
    (j : (⟨2, ![n, C]⟩ : Shape).Idx) : d.start j idx 1 = 0 := by
  unfold ScatterDims.start
  rw [dif_neg (by rw [hsd]; simp)]

/-- The window coordinate on the inserted row axis is zero. -/
private theorem rows_window0 (hiw : d.insertedWindowDims = [0]) (j : (⟨2, ![n, C]⟩ : Shape).Idx) : d.window j 0 = 0 := by
  unfold ScatterDims.window
  rw [dif_neg (by simp [ScatterDims.sKept, Shape.kept, hiw])]

/-- The window coordinate on the column axis is the update's column. -/
private theorem rows_window1 (huw : d.updateWindowDims = [1]) (hiw : d.insertedWindowDims = [0]) (e : Fin n) (k' : Fin C) :
    d.window (ix2 e k') 1 = k'.val := by
  unfold ScatterDims.window
  rw [dif_pos (by simp [ScatterDims.sKept, Shape.kept, hiw, List.mem_filter, List.mem_finRange])]
  have key : ∀ X : Fin 2, X = 1 → ((ix2 e k' : (⟨2, ![n, C]⟩ : Shape).Idx) X).val = k'.val := by
    intro X hX; subst hX; rfl
  exact key _ (getElem_of_eq_singleton _ _ huw _ _)

/-- Update `(e, k')` lands at `(i, k)` exactly when position `e`'s index word read signed is `i` and the columns
    agree; a word outside `[0, N)` lands nowhere. -/
private theorem rows_resultIdx_iff (huw : d.updateWindowDims = [1]) (hiw : d.insertedWindowDims = [0])
    (hsd : d.scatterDimsToOperandDims = [0]) (hivd : d.indexVectorDim = 1) (idx : IVec ⟨2, ![n, 1]⟩ w)
    (e : Fin n) (k' : Fin C) (i : Fin N) (k : Fin C) :
    d.resultIdx? (ix2 e k') idx = some (ix2 i k) ↔ (idx (ix2 e 0)).toInt = (i.val : ℤ) ∧ k' = k := by
  have hs0 := rows_start0 d huw hsd hivd idx e k'
  have hs1 := rows_start1 d hsd idx (ix2 e k')
  have hw0 := rows_window0 d hiw (ix2 e k')
  have hw1 := rows_window1 d huw hiw e k'
  have hi := i.isLt
  have hk' := k'.isLt
  constructor
  · intro h
    unfold ScatterDims.resultIdx? at h
    split at h
    · next hr =>
      have hf := Option.some.inj h
      have h0 := congrArg Fin.val (congrFun hf 0)
      have h1 := congrArg Fin.val (congrFun hf 1)
      have hr0 := (hr 0).1
      change (d.start (ix2 e k') idx 0 + (d.window (ix2 e k') 0 : ℤ)).toNat = i.val at h0
      change (d.start (ix2 e k') idx 1 + (d.window (ix2 e k') 1 : ℤ)).toNat = k.val at h1
      rw [hs0, hw0] at h0 hr0
      rw [hs1, hw1] at h1
      refine ⟨by omega, Fin.ext (by omega)⟩
    · exact absurd h (by simp)
  · rintro ⟨hi', rfl⟩
    have hr : ∀ a, 0 ≤ d.start (ix2 e k') idx a + d.window (ix2 e k') a ∧
        d.start (ix2 e k') idx a + d.window (ix2 e k') a < (⟨2, ![N, C]⟩ : Shape).size a := by
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hs0, hw0, hi']; omega
      | ⟨1, _⟩ =>
        show 0 ≤ d.start (ix2 e k') idx 1 + (d.window (ix2 e k') 1 : ℤ) ∧ d.start (ix2 e k') idx 1 + (d.window (ix2 e k') 1 : ℤ) < (C : ℤ)
        rw [hs1, hw1]; omega
    unfold ScatterDims.resultIdx?
    rw [dif_pos hr]
    congr 1
    funext a
    match a with
    | ⟨0, _⟩ =>
      apply Fin.ext
      show (d.start (ix2 e k') idx 0 + (d.window (ix2 e k') 0 : ℤ)).toNat = i.val
      rw [hs0, hw0, hi']; omega
    | ⟨1, _⟩ =>
      apply Fin.ext
      show (d.start (ix2 e k') idx 1 + (d.window (ix2 e k') 1 : ℤ)).toNat = k'.val
      rw [hs1, hw1]; omega

end Rows

section Vec
variable {N n w : Nat} (d : ScatterDims ⟨1, ![N]⟩ ⟨2, ![n, 1]⟩ ⟨1, ![n]⟩)

/-- With one index component per position, update `e` reads its start index at `(e, 0)`. -/
private theorem vec_siIdx (hivd : d.indexVectorDim = 1) (e : Fin n) (c : Fin d.scatterDimsToOperandDims.length)
    (hc : c.val = 0) : d.siIdx (ix1 e) c = ix2 e 0 := by
  funext b
  match b with
  | ⟨0, _⟩ =>
    unfold ScatterDims.siIdx
    rw [dif_neg (by rw [hivd]; simp)]
    unfold ScatterDims.siCoord
    apply Fin.ext
    simp only [Fin.val_cast]
    have key : ∀ X : Fin 1, ((ix1 e : (⟨1, ![n]⟩ : Shape).Idx) X).val = e.val := by
      intro X
      obtain rfl : X = 0 := Subsingleton.elim _ _
      rfl
    exact key _
  | ⟨1, _⟩ =>
    unfold ScatterDims.siIdx
    rw [dif_pos (by rw [hivd])]
    apply Fin.ext
    exact hc

/-- The start on the vector's axis is position `e`'s index word read signed. -/
private theorem vec_start0 (hsd : d.scatterDimsToOperandDims = [0]) (hivd : d.indexVectorDim = 1)
    (idx : IVec ⟨2, ![n, 1]⟩ w) (e : Fin n) : d.start (ix1 e) idx 0 = (idx (ix2 e 0)).toInt := by
  have hm : (0 : Fin 1) ∈ d.scatterDimsToOperandDims := by rw [hsd]; exact List.mem_singleton.mpr rfl
  unfold ScatterDims.start
  rw [dif_pos hm, vec_siIdx d hivd e _ (by show List.idxOf (0 : Fin 1) d.scatterDimsToOperandDims = 0; rw [hsd]; simp)]

/-- The window coordinate on the inserted axis is zero. -/
private theorem vec_window0 (hiw : d.insertedWindowDims = [0]) (j : (⟨1, ![n]⟩ : Shape).Idx) : d.window j 0 = 0 := by
  unfold ScatterDims.window
  rw [dif_neg (by simp [ScatterDims.sKept, Shape.kept, hiw])]

/-- Update `e` lands at `i` exactly when its index word read signed is `i`; a word outside `[0, N)` lands nowhere. -/
private theorem vec_resultIdx_iff (hiw : d.insertedWindowDims = [0]) (hsd : d.scatterDimsToOperandDims = [0])
    (hivd : d.indexVectorDim = 1) (idx : IVec ⟨2, ![n, 1]⟩ w) (e : Fin n) (i : Fin N) :
    d.resultIdx? (ix1 e) idx = some (ix1 i) ↔ (idx (ix2 e 0)).toInt = (i.val : ℤ) := by
  have hs0 := vec_start0 d hsd hivd idx e
  have hw0 := vec_window0 d hiw (ix1 e)
  have hi := i.isLt
  constructor
  · intro h
    unfold ScatterDims.resultIdx? at h
    split at h
    · next hr =>
      have hf := Option.some.inj h
      have h0 := congrArg Fin.val (congrFun hf 0)
      have hr0 := (hr 0).1
      change (d.start (ix1 e) idx 0 + (d.window (ix1 e) 0 : ℤ)).toNat = i.val at h0
      rw [hs0, hw0] at h0 hr0
      omega
    · exact absurd h (by simp)
  · intro hi'
    have hr : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      show 0 ≤ d.start (ix1 e) idx 0 + (d.window (ix1 e) 0 : ℤ) ∧ d.start (ix1 e) idx 0 + (d.window (ix1 e) 0 : ℤ) < (N : ℤ)
      rw [hs0, hw0, hi']; omega
    unfold ScatterDims.resultIdx?
    rw [dif_pos hr]
    congr 1
    funext a
    obtain rfl : a = 0 := Subsingleton.elim _ _
    apply Fin.ext
    show (d.start (ix1 e) idx 0 + (d.window (ix1 e) 0 : ℤ)).toNat = i.val
    rw [hs0, hw0, hi']; omega

end Vec

open Classical in
/-- An accumulating scatter of rows read at `(i, k)`: the operand's element plus the sum, over the positions whose index
    word read signed is `i`, of the update's element at column `k`. -/
theorem scatterAdd_rows_apply {N C n w : Nat} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![n, 1]⟩ w) (upd : (⟨2, ![n, C]⟩ : Shape).Idx → EReal)
    (i : Fin N) (k : Fin C) :
    Ideal.hostScatterAdd d x idx upd (ix2 i k)
      = x (ix2 i k) + ∑ e ∈ Finset.univ.filter (fun e : Fin n => (idx (ix2 e 0)).toInt = (i.val : ℤ)), upd (ix2 e k) := by
  unfold Ideal.hostScatterAdd
  congr 1
  symm
  -- position `e` ↦ update `(e, k)` is a bijection from the positions whose word is `i` onto the updates landing at `(i, k)`
  refine Finset.sum_bij (fun e _ => ix2 e k) ?_ ?_ ?_ ?_
  · intro e he
    rw [Finset.mem_filter] at he ⊢
    exact ⟨Finset.mem_univ _, (rows_resultIdx_iff d huw hiw hsd hivd idx e k i k).2 ⟨he.2, rfl⟩⟩
  · intro e _ e' _ h
    exact congrFun h 0
  · intro j hj
    rw [Finset.mem_filter] at hj
    obtain ⟨e, k', rfl⟩ : ∃ e k', j = ix2 e k' := ⟨j 0, j 1, eq_ix2 j⟩
    obtain ⟨he, rfl⟩ := (rows_resultIdx_iff d huw hiw hsd hivd idx e k' i k).1 hj.2
    exact ⟨e, Finset.mem_filter.2 ⟨Finset.mem_univ _, he⟩, rfl⟩
  · intro e _
    rfl

open Classical in
/-- An accumulating scatter of scalars into a vector read at `i`. -/
theorem scatterAdd_vec_apply {N n w : Nat} (d : ScatterDims ⟨1, ![N]⟩ ⟨2, ![n, 1]⟩ ⟨1, ![n]⟩)
    (huw : d.updateWindowDims = []) (hiw : d.insertedWindowDims = [0]) (hsd : d.scatterDimsToOperandDims = [0])
    (hivd : d.indexVectorDim = 1)
    (x : (⟨1, ![N]⟩ : Shape).Idx → EReal) (idx : IVec ⟨2, ![n, 1]⟩ w) (upd : (⟨1, ![n]⟩ : Shape).Idx → EReal)
    (i : Fin N) :
    Ideal.hostScatterAdd d x idx upd (ix1 i)
      = x (ix1 i) + ∑ e ∈ Finset.univ.filter (fun e : Fin n => (idx (ix2 e 0)).toInt = (i.val : ℤ)), upd (ix1 e) := by
  unfold Ideal.hostScatterAdd
  congr 1
  symm
  -- position `e` ↦ update `e` is a bijection from the positions whose word is `i` onto the updates landing at `i`
  refine Finset.sum_bij (fun e _ => ix1 e) ?_ ?_ ?_ ?_
  · intro e he
    rw [Finset.mem_filter] at he ⊢
    exact ⟨Finset.mem_univ _, (vec_resultIdx_iff d hiw hsd hivd idx e i).2 he.2⟩
  · intro e _ e' _ h
    exact congrFun h 0
  · intro j hj
    rw [Finset.mem_filter] at hj
    obtain ⟨e, rfl⟩ : ∃ e, j = ix1 e := ⟨j 0, eq_ix1 j⟩
    exact ⟨e, Finset.mem_filter.2 ⟨Finset.mem_univ _, (vec_resultIdx_iff d hiw hsd hivd idx e i).1 hj.2⟩, rfl⟩
  · intro e _
    rfl

end Idealize.ShloMosaic.IndexOps

end
-- ==== Proof.RefPool.lean ====
import proofs.«428648_j88132728914134_1_alg».proof.Proof.Gen.ReferenceIdeal.Read
import proofs.«428648_j88132728914134_1_alg».proof.Proof.Spec
import proofs.«428648_j88132728914134_1_alg».proof.Proof.LibIndexOps
import Idealize.ShloMosaic.Lib.Pipeline.Value
import Idealize.ShloMosaic.Lib.ValueIdx
import Idealize.ShloMosaic.Lib.ValueLayout
import Idealize.ShloMosaic.PureOps.Ideal.Laws

/-!
The reference's per-graph sum as the specification's function.

The reference adds each node's row into the row of its graph by an accumulating scatter into zeros. Read at `(g, j)`
that is zero plus the sum of the rows' `j` entries over the nodes whose graph id word, read signed, is `g`.
-/

set_option maxRecDepth 16384

noncomputable section

namespace Cert.ReferenceIdeal.RefPool

open Cert.ReferenceIdeal Cert.ReferenceIdeal.Read
open Idealize.ShloMosaic Idealize.ShloMosaic.TcCoe Idealize.ShloMosaic.ValueIdx

variable (x0 : Vec Ideal S50000x128 .f32) (x1 : Vec Ideal S2x640000 .i32) (x2 : Vec Ideal S50000 .i32)
  (x3 : Vec Ideal S128x128 .f32) (x4 : Vec Ideal S128 .f32) (x5 : Vec Ideal S3x128x128 .f32)
  (x6 : Vec Ideal S3x128 .f32) (x7 : Vec Ideal S128x10 .f32) (x8 : Vec Ideal S10 .f32)

/-- The id column the scatter reads is the id vector laid out as a one-column matrix. -/
theorem v113_eq_col : val_main_v113 (F := Ideal) x2 = Spec.col 50000 x2 := by
  funext i
  rw [val_main_v113_apply]
  unfold Spec.col
  congr 1
  funext a
  match a with
  | ⟨0, _⟩ => rfl

open Classical in
/-- The accumulating scatter read at `(g, j)`: the zero it starts from plus the sum of the rows' `j` entries over the
    nodes whose graph id word, read signed, is `g`. -/
theorem r_v114_at (g : Fin 512) (j : Fin 128) :
    val_main_v114 (F := Ideal) x0 x1 x2 x3 x4 x5 x6 (ix2 g j)
      = ∑ e ∈ Finset.univ.filter (fun e : Fin 50000 => (Spec.col 50000 x2 (ix2 e 0)).toInt = (g.val : ℤ)),
          val_main_v111 (F := Ideal) x0 x1 x3 x4 x5 x6 (ix2 e j) := by
  unfold val_main_v114
  simp only [Host.scatterAdd, Ideal.hostScatterAdd_def]
  rw [IndexOps.scatterAdd_rows_apply scatter_S512x128_S50000x1_S50000x128_1_0_0_1 rfl rfl rfl rfl]
  rw [val_main_v112_apply, val_main_cst_17_apply, Ideal.ofBits_def, Ideal.ofBits_zero_f32, zero_add, v113_eq_col]

theorem r_v114 : val_main_v114 (F := Ideal) x0 x1 x2 x3 x4 x5 x6 = Spec.poolSum 50000 512 128 (val_main_v111 (F := Ideal) x0 x1 x3 x4 x5 x6) (Spec.col 50000 x2) := by
  funext i
  obtain ⟨g, j, rfl⟩ : ∃ (g : Fin 512) (j : Fin 128), i = ix2 g j := ⟨i 0, i 1, eq_ix2 i⟩
  rw [r_v114_at]
  unfold Spec.poolSum
  rfl

end Cert.ReferenceIdeal.RefPool

end
-- ==== Proof.Chain.lean ====
import proofs.«428648_j88132728914134_1_alg».proof.Proof.Gen.KernelIdeal.Frame
import proofs.«428648_j88132728914134_1_alg».proof.Proof.Gen.ReferenceIdeal.Read
import proofs.«428648_j88132728914134_1_alg».proof.Proof.Spec
import proofs.«428648_j88132728914134_1_alg».proof.Proof.Layout
import proofs.«428648_j88132728914134_1_alg».proof.Proof.Keep
import proofs.«428648_j88132728914134_1_alg».proof.Proof.Reg0
import proofs.«428648_j88132728914134_1_alg».proof.Proof.Reg1
import proofs.«428648_j88132728914134_1_alg».proof.Proof.Reg2
import proofs.«428648_j88132728914134_1_alg».proof.Proof.Reg3
import proofs.«428648_j88132728914134_1_alg».proof.Proof.Reg4
import proofs.«428648_j88132728914134_1_alg».proof.Proof.Reg5
import proofs.«428648_j88132728914134_1_alg».proof.Proof.Reg6
import proofs.«428648_j88132728914134_1_alg».proof.Proof.Reg7
import proofs.«428648_j88132728914134_1_alg».proof.Proof.Reg8
import proofs.«428648_j88132728914134_1_alg».proof.Proof.Reg9
import proofs.«428648_j88132728914134_1_alg».proof.Proof.Reg10
import proofs.«428648_j88132728914134_1_alg».proof.Proof.RefSpec
import proofs.«428648_j88132728914134_1_alg».proof.Proof.RefPool
import Idealize.ShloMosaic.Lib.StableHlo.Run

/-!
The kernel program's result, boundary by boundary, as the reference's stages of the same arguments.

The program alternates stretches of host operations with kernel regions. Its edge mixing (the gather of rows along the
edges with their indices brought into range, the scaling by the edge weights, the accumulation at the target nodes) is the
same chain of operations as the reference's, so the buffers it writes hold the reference's stages as soon as the buffers it
reads do: the chain is read back and never opened. Each kernel region leaves in its output array a dense function of the
arrays it reads (a matrix product, a bias row added and perhaps clipped, the per-graph sum), and the reference's stage at
that place is the same function of its own earlier stages. Walking the boundaries in order, each buffer a later step reads
is the reference's stage of the launched arguments, and at the last boundary so is the result.
-/

set_option maxRecDepth 16384

noncomputable section

namespace Cert.KernelIdeal.Chain

open Cert.KernelIdeal Cert.KernelIdeal.Gen Cert.KernelIdeal.Keep
open Idealize.ShloMosaic Idealize.ShloMosaic.TcCoe Idealize.SL.Sem Idealize.ShloMosaic.StableHlo
open Cert.ReferenceIdeal.Read Cert.ReferenceIdeal.RefSpec Cert.ReferenceIdeal.RefPool

variable (m : (ℓ : Loc nD τ sig) → Buf (Elt Ideal) ℓ) (ρ : Dev nD → PrngReg) (c : Dev nD)

-- the argument arrays on core c, as launched
set_option quotPrecheck false in
local notation "A0" => m ((c : Thread nD τ).loc main_arg0)
set_option quotPrecheck false in
local notation "A1" => m ((c : Thread nD τ).loc main_arg1)
set_option quotPrecheck false in
local notation "A2" => m ((c : Thread nD τ).loc main_arg2)
set_option quotPrecheck false in
local notation "A3" => m ((c : Thread nD τ).loc main_arg3)
set_option quotPrecheck false in
local notation "A4" => m ((c : Thread nD τ).loc main_arg4)
set_option quotPrecheck false in
local notation "A5" => m ((c : Thread nD τ).loc main_arg5)
set_option quotPrecheck false in
local notation "A6" => m ((c : Thread nD τ).loc main_arg6)
set_option quotPrecheck false in
local notation "A7" => m ((c : Thread nD τ).loc main_arg7)
set_option quotPrecheck false in
local notation "A8" => m ((c : Thread nD τ).loc main_arg8)

/-! ## Before the first region: the edge lists and the edge weights -/

/-- The source nodes, the self loops appended. -/
theorem k1_v3 : W1 m ρ c (Proc.devRef .tc main_v3) = val_main_v3 (F := Ideal) A1 := by
  show StableHlo.after hostOps0 (W0 m ρ c) (Proc.devRef .tc main_v3) = _
  after_results_simp
  rfl

/-- The target nodes, the self loops appended. -/
theorem k1_v6 : W1 m ρ c (Proc.devRef .tc main_v6) = val_main_v6 (F := Ideal) A1 := by
  show StableHlo.after hostOps0 (W0 m ρ c) (Proc.devRef .tc main_v6) = _
  after_results_simp
  rfl

/-- The edge weights: the product of the inverse square roots of the two end nodes' degrees. -/
theorem k1_v28 : W1 m ρ c (Proc.devRef .tc main_v28) = val_main_v28 (F := Ideal) A1 := by
  show StableHlo.after hostOps0 (W0 m ρ c) (Proc.devRef .tc main_v28) = _
  after_results_simp
  rfl

/-! ## The first layer -/

/-- The node features times the first weight matrix. -/
theorem k2_v29 : W2 m ρ c (Proc.devRef .tc main_v29) = val_main_v29 (F := Ideal) A0 A3 := by
  refine (W2_arr m ρ c 2).trans ?_
  rw [Cert.KernelIdeal.Reg0.arr (V1 m ρ) c, r_v29]
  show Spec.mm 50000 128 128 (W1 m ρ c (Proc.devRef .tc main_arg0)) (W1 m ρ c (Proc.devRef .tc main_arg3)) = _
  rw [at1_arg0, at1_arg3]

/-- The first edge mixing, of the product's rows. -/
theorem k3_v42 : W3 m ρ c (Proc.devRef .tc main_v42) = val_main_v42 (F := Ideal) A0 A1 A3 := by
  show StableHlo.after hostOps1 (W2 m ρ c) (Proc.devRef .tc main_v42) = _
  after_results_simp
  rw [at2_v28, at2_v3, at2_v6, k1_v28, k1_v3, k1_v6, k2_v29]
  rfl

/-- The first bias, as one row. -/
theorem k3_v43 : W3 m ρ c (Proc.devRef .tc main_v43) = Spec.row 128 A4 := by
  show StableHlo.after hostOps1 (W2 m ρ c) (Proc.devRef .tc main_v43) = _
  after_results_simp
  rw [at2_arg4]
  exact Spec.row_of_cast 128 _ _

/-- The first layer's output: the bias added, clipped at zero. -/
theorem k4_v44 : W4 m ρ c (Proc.devRef .tc main_v44) = val_main_v46 (F := Ideal) A0 A1 A3 A4 := by
  refine (W4_arr m ρ c 2).trans ?_
  rw [Cert.KernelIdeal.Reg1.arr (V3 m ρ) c, r_v46]
  show Spec.biasRelu 50000 128 (W3 m ρ c (Proc.devRef .tc main_v42)) (W3 m ρ c (Proc.devRef .tc main_v43)) = _
  rw [k3_v42, k3_v43]

/-! ## The second layer -/

/-- The second weight matrix, cut out of the stack. -/
theorem k5_v46 : W5 m ρ c (Proc.devRef .tc main_v46) = val_main_v48 (F := Ideal) A5 := by
  show StableHlo.after hostOps2 (W4 m ρ c) (Proc.devRef .tc main_v46) = _
  after_results_simp
  rw [at4_arg5]
  rfl

/-- The first layer's output is still in place when the second product reads it. -/
theorem k5_v44 : W5 m ρ c (Proc.devRef .tc main_v44) = val_main_v46 (F := Ideal) A0 A1 A3 A4 :=
  (keep5_v44 m ρ c).trans (k4_v44 m ρ c)

/-- The second matrix product. -/
theorem k6_v47 : W6 m ρ c (Proc.devRef .tc main_v47) = val_main_v51 (F := Ideal) A0 A1 A3 A4 A5 := by
  refine (W6_arr m ρ c 2).trans ?_
  rw [Cert.KernelIdeal.Reg2.arr (V5 m ρ) c, r_v51]
  show Spec.mm 50000 128 128 (W5 m ρ c (Proc.devRef .tc main_v44)) (W5 m ρ c (Proc.devRef .tc main_v46)) = _
  rw [k5_v44, k5_v46]

/-- The second edge mixing. -/
theorem k7_v60 : W7 m ρ c (Proc.devRef .tc main_v60) = val_main_v64 (F := Ideal) A0 A1 A3 A4 A5 := by
  show StableHlo.after hostOps3 (W6 m ρ c) (Proc.devRef .tc main_v60) = _
  after_results_simp
  rw [at6_v28, at6_v3, at6_v6, k1_v28, k1_v3, k1_v6, k6_v47]
  rfl

/-- The second bias, cut out of the stack, as one row. -/
theorem k7_v63 : W7 m ρ c (Proc.devRef .tc main_v63) = Spec.row 128 (val_main_v50 (F := Ideal) A6) := by
  show StableHlo.after hostOps3 (W6 m ρ c) (Proc.devRef .tc main_v63) = _
  after_results_simp
  rw [at6_arg6]
  exact Spec.row_of_cast 128 _ _

/-- The second layer's output. -/
theorem k8_v64 : W8 m ρ c (Proc.devRef .tc main_v64) = val_main_v68 (F := Ideal) A0 A1 A3 A4 A5 A6 := by
  refine (W8_arr m ρ c 2).trans ?_
  rw [Cert.KernelIdeal.Reg3.arr (V7 m ρ) c, r_v68]
  show Spec.biasRelu 50000 128 (W7 m ρ c (Proc.devRef .tc main_v60)) (W7 m ρ c (Proc.devRef .tc main_v63)) = _
  rw [k7_v60, k7_v63]

/-! ## The third layer -/

/-- The third weight matrix. -/
theorem k9_v66 : W9 m ρ c (Proc.devRef .tc main_v66) = val_main_v70 (F := Ideal) A5 := by
  show StableHlo.after hostOps4 (W8 m ρ c) (Proc.devRef .tc main_v66) = _
  after_results_simp
  rw [at8_arg5]
  rfl

/-- The second layer's output is still in place when the third product reads it. -/
theorem k9_v64 : W9 m ρ c (Proc.devRef .tc main_v64) = val_main_v68 (F := Ideal) A0 A1 A3 A4 A5 A6 :=
  (keep9_v64 m ρ c).trans (k8_v64 m ρ c)

/-- The third matrix product. -/
theorem k10_v67 : W10 m ρ c (Proc.devRef .tc main_v67) = val_main_v73 (F := Ideal) A0 A1 A3 A4 A5 A6 := by
  refine (W10_arr m ρ c 2).trans ?_
  rw [Cert.KernelIdeal.Reg4.arr (V9 m ρ) c, r_v73]
  show Spec.mm 50000 128 128 (W9 m ρ c (Proc.devRef .tc main_v64)) (W9 m ρ c (Proc.devRef .tc main_v66)) = _
  rw [k9_v64, k9_v66]

/-- The third edge mixing. -/
theorem k11_v80 : W11 m ρ c (Proc.devRef .tc main_v80) = val_main_v86 (F := Ideal) A0 A1 A3 A4 A5 A6 := by
  show StableHlo.after hostOps5 (W10 m ρ c) (Proc.devRef .tc main_v80) = _
  after_results_simp
  rw [at10_v28, at10_v3, at10_v6, k1_v28, k1_v3, k1_v6, k10_v67]
  rfl

/-- The third bias, as one row. -/
theorem k11_v83 : W11 m ρ c (Proc.devRef .tc main_v83) = Spec.row 128 (val_main_v72 (F := Ideal) A6) := by
  show StableHlo.after hostOps5 (W10 m ρ c) (Proc.devRef .tc main_v83) = _
  after_results_simp
  rw [at10_arg6]
  exact Spec.row_of_cast 128 _ _

/-- The third layer's output. -/
theorem k12_v84 : W12 m ρ c (Proc.devRef .tc main_v84) = val_main_v90 (F := Ideal) A0 A1 A3 A4 A5 A6 := by
  refine (W12_arr m ρ c 2).trans ?_
  rw [Cert.KernelIdeal.Reg5.arr (V11 m ρ) c, r_v90]
  show Spec.biasRelu 50000 128 (W11 m ρ c (Proc.devRef .tc main_v80)) (W11 m ρ c (Proc.devRef .tc main_v83)) = _
  rw [k11_v80, k11_v83]

/-! ## The last layer: the bias is added and nothing is clipped -/

/-- The fourth weight matrix. -/
theorem k13_v86 : W13 m ρ c (Proc.devRef .tc main_v86) = val_main_v92 (F := Ideal) A5 := by
  show StableHlo.after hostOps6 (W12 m ρ c) (Proc.devRef .tc main_v86) = _
  after_results_simp
  rw [at12_arg5]
  rfl

/-- The third layer's output is still in place when the fourth product reads it. -/
theorem k13_v84 : W13 m ρ c (Proc.devRef .tc main_v84) = val_main_v90 (F := Ideal) A0 A1 A3 A4 A5 A6 :=
  (keep13_v84 m ρ c).trans (k12_v84 m ρ c)

/-- The fourth matrix product. -/
theorem k14_v87 : W14 m ρ c (Proc.devRef .tc main_v87) = val_main_v95 (F := Ideal) A0 A1 A3 A4 A5 A6 := by
  refine (W14_arr m ρ c 2).trans ?_
  rw [Cert.KernelIdeal.Reg6.arr (V13 m ρ) c, r_v95]
  show Spec.mm 50000 128 128 (W13 m ρ c (Proc.devRef .tc main_v84)) (W13 m ρ c (Proc.devRef .tc main_v86)) = _
  rw [k13_v84, k13_v86]

/-- The fourth edge mixing. -/
theorem k15_v100 : W15 m ρ c (Proc.devRef .tc main_v100) = val_main_v108 (F := Ideal) A0 A1 A3 A4 A5 A6 := by
  show StableHlo.after hostOps7 (W14 m ρ c) (Proc.devRef .tc main_v100) = _
  after_results_simp
  rw [at14_v28, at14_v3, at14_v6, k1_v28, k1_v3, k1_v6, k14_v87]
  rfl

/-- The fourth bias, as one row. -/
theorem k15_v103 : W15 m ρ c (Proc.devRef .tc main_v103) = Spec.row 128 (val_main_v94 (F := Ideal) A6) := by
  show StableHlo.after hostOps7 (W14 m ρ c) (Proc.devRef .tc main_v103) = _
  after_results_simp
  rw [at14_arg6]
  exact Spec.row_of_cast 128 _ _

/-- The node rows after the last layer. -/
theorem k16_v104 : W16 m ρ c (Proc.devRef .tc main_v104) = val_main_v111 (F := Ideal) A0 A1 A3 A4 A5 A6 := by
  refine (W16_arr m ρ c 2).trans ?_
  rw [Cert.KernelIdeal.Reg7.arr (V15 m ρ) c, r_v111]
  show Spec.biasAdd 50000 128 (W15 m ρ c (Proc.devRef .tc main_v100)) (W15 m ρ c (Proc.devRef .tc main_v103)) = _
  rw [k15_v100, k15_v103]

/-! ## The readout: the per-graph mean of the node rows, one more product and bias -/

/-- The graph ids, as one column. -/
theorem k17_v105 : W17 m ρ c (Proc.devRef .tc main_v105) = Spec.col 50000 A2 := by
  show StableHlo.after hostOps8 (W16 m ρ c) (Proc.devRef .tc main_v105) = _
  after_results_simp
  rw [at16_arg2]
  exact Spec.col_of_cast 50000 _ _

/-- The node rows are still in place when the per-graph sum reads them. -/
theorem k17_v104 : W17 m ρ c (Proc.devRef .tc main_v104) = val_main_v111 (F := Ideal) A0 A1 A3 A4 A5 A6 :=
  (keep17_v104 m ρ c).trans (k16_v104 m ρ c)

/-- The per-graph sums of the node rows. -/
theorem k18_v106 : W18 m ρ c (Proc.devRef .tc main_v106) = val_main_v114 (F := Ideal) A0 A1 A2 A3 A4 A5 A6 := by
  refine (W18_arr m ρ c 2).trans ?_
  rw [Cert.KernelIdeal.Reg8.arr (V17 m ρ) c, r_v114]
  show Spec.poolSum 50000 512 128 (W17 m ρ c (Proc.devRef .tc main_v104)) (W17 m ρ c (Proc.devRef .tc main_v105)) = _
  rw [k17_v104, k17_v105]

/-- The per-graph means: the sums over the node counts, a count below one taken as one. -/
theorem k19_v115 : W19 m ρ c (Proc.devRef .tc main_v115) = val_main_v123 (F := Ideal) A0 A1 A2 A3 A4 A5 A6 := by
  show StableHlo.after hostOps9 (W18 m ρ c) (Proc.devRef .tc main_v115) = _
  after_results_simp
  rw [at18_arg2, k18_v106]
  rfl

/-- The readout's matrix product. -/
theorem k20_v116 : W20 m ρ c (Proc.devRef .tc main_v116) = val_main_v124 (F := Ideal) A0 A1 A2 A3 A4 A5 A6 A7 := by
  refine (W20_arr m ρ c 2).trans ?_
  rw [Cert.KernelIdeal.Reg9.arr (V19 m ρ) c, r_v124]
  show Spec.mm 512 128 10 (W19 m ρ c (Proc.devRef .tc main_v115)) (W19 m ρ c (Proc.devRef .tc main_arg7)) = _
  rw [k19_v115, at19_arg7]

/-- The readout's bias, as one row. -/
theorem k21_v117 : W21 m ρ c (Proc.devRef .tc main_v117) = Spec.row 10 A8 := by
  show StableHlo.after hostOps10 (W20 m ρ c) (Proc.devRef .tc main_v117) = _
  after_results_simp
  rw [at20_arg8]
  exact Spec.row_of_cast 10 _ _

/-- The readout's product is still in place when the bias is added. -/
theorem k21_v116 : W21 m ρ c (Proc.devRef .tc main_v116) = val_main_v124 (F := Ideal) A0 A1 A2 A3 A4 A5 A6 A7 :=
  (keep21_v116 m ρ c).trans (k20_v116 m ρ c)

/-- THE RESULT: at the last boundary the program's result array is the reference's last stage of the same arguments. -/
theorem k22_v118 : W22 m ρ c (Proc.devRef .tc main_v118)
    = val_main_v127 (F := Ideal) A0 A1 A2 A3 A4 A5 A6 A7 A8 := by
  refine (W22_arr m ρ c 2).trans ?_
  rw [Cert.KernelIdeal.Reg10.arr (V21 m ρ) c, r_v127]
  show Spec.biasAdd 512 10 (W21 m ρ c (Proc.devRef .tc main_v116)) (W21 m ρ c (Proc.devRef .tc main_v117)) = _
  rw [k21_v116, k21_v117]

end Cert.KernelIdeal.Chain

end
-- ==== Proof.lean ====
/-
A four-layer graph convolution network with a per-graph mean readout, written with its dense pieces as tiled kernels,
computes the same function of its inputs as the plain array program, over the extended reals.

Both programs build the same edge lists (the given edges with a self loop per node), the same node degrees and edge
weights, and mix node rows along the edges by the same chain of operations: a gather of rows at the source nodes, a
scaling by the edge weights, an accumulation at the target nodes. They differ only in the dense pieces around that chain.
Where the reference multiplies the 50000 node rows by a 128 by 128 weight matrix in one product, the kernel program tiles
the rows into ten blocks of 5000 and multiplies each block; entry (r, j) of either is the sum over k of x (r, k) * w (k, j),
and the kernel's narrowing of its operands to a shorter float format is the identity on extended reals. Where the reference
adds a bias vector to every row and clips at zero, the kernel program does the same block by block with the bias laid out
as one row. Where the reference sums the node rows of each graph by an accumulating scatter into zeros, the kernel program
adds up, over twenty-five blocks of 2000 nodes, the product of each block's graph-membership indicator with the block's
rows: on the extended reals one times an entry is the entry and zero times an entry is zero whatever the entry, and
addition is commutative and associative, so both are the sum of the rows whose graph id is the row's number, a node whose
id names no graph counting nowhere. The division by the node counts, the last product and the last bias are again the
same dense pieces. No step uses that the inputs are finite.

The frames of the two kernel programs are the generated ones. The reference's frame is its generated run with the result
dropped. The idealization rewrote no operation, so there is nothing to preserve. For the equivalence, the kernel program's
run names its result array at the last segment boundary, that array is read back boundary by boundary as the reference's
last stage of the launched arguments, and the reference's run ends at that same stage of its own arguments, which agree.
-/
import proofs.«428648_j88132728914134_1_alg».proof.Defs
import proofs.«428648_j88132728914134_1_alg».proof.Proof.Gen.Kernel
import proofs.«428648_j88132728914134_1_alg».proof.Proof.Gen.Kernel.Skeleton
import proofs.«428648_j88132728914134_1_alg».proof.Proof.Gen.Kernel.Launch
import proofs.«428648_j88132728914134_1_alg».proof.Proof.Gen.Kernel.Points
import proofs.«428648_j88132728914134_1_alg».proof.Proof.Gen.Kernel.Frame
import proofs.«428648_j88132728914134_1_alg».proof.Proof.Gen.KernelIdeal
import proofs.«428648_j88132728914134_1_alg».proof.Proof.Gen.KernelIdeal.Skeleton
import proofs.«428648_j88132728914134_1_alg».proof.Proof.Gen.KernelIdeal.Launch
import proofs.«428648_j88132728914134_1_alg».proof.Proof.Gen.KernelIdeal.Points
import proofs.«428648_j88132728914134_1_alg».proof.Proof.Gen.KernelIdeal.Frame
import proofs.«428648_j88132728914134_1_alg».proof.Proof.Gen.ReferenceIdeal
import proofs.«428648_j88132728914134_1_alg».proof.Proof.Gen.ReferenceIdeal.Run
import proofs.«428648_j88132728914134_1_alg».proof.Proof.Gen.ReferenceIdeal.Read
import proofs.«428648_j88132728914134_1_alg».proof.Proof.Gen.Pre_finite_inputs
import proofs.«428648_j88132728914134_1_alg».proof.Proof.KRun
import proofs.«428648_j88132728914134_1_alg».proof.Proof.Chain
import Idealize.ShloMosaic.Adequacy
import Idealize.ShloMosaic.Init

noncomputable section

namespace Cert.Proof

open Idealize.ShloMosaic Idealize.SL.Sem

namespace Claims

/-- The kernel program, read word by word, runs to the end with its argument arrays unchanged. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference is host operations only: its run, with what it says of the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel program. -/
theorem preserves : Cert.preserves_Kernel_KernelIdeal := trivial

/-- Over the extended reals both programs end with the same result: the kernel program's result array, named by its run
    at the last segment boundary, is the reference's last stage of the launched arguments; the reference's run ends at
    that stage of its own arguments; and the two memories agree on the arguments. -/
theorem algebraic : Cert.algebraic_KernelIdeal_ReferenceIdeal := by
  intro m ρ m' ρ' _ hagree
  refine ⟨_, Cert.KernelIdeal.ValueRun.run_values (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v127_eq, Cert.KernelIdeal.Chain.k22_v118 m ρ c, e0, e1, e2, e3, e4, e5, e6, e7, e8]

end Claims

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
